-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S288 : Shape := ⟨1, ![288]⟩
abbrev S288x64 : Shape := ⟨2, ![288, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S288 : S_.BroadcastsInDim S288 (![] : Fin 0 → Fin S288.rank)
  reducesTo_S288_S_d0 : S288.ReducesTo [0] S_
  bcast_S_S288x64 : S_.BroadcastsInDim S288x64 (![] : Fin 0 → Fin S288x64.rank)
  reducesTo_S288x64_S_d0_1 : S288x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S2x800000 : S_.BroadcastsInDim S2x800000 (![] : Fin 0 → Fin S2x800000.rank)
  reducesTo_S2x800000_S_d0_1 : S2x800000.ReducesTo [0, 1] S_

variable [Facts]

def fn_part2 {F : FTy → Type} [FloatOps F] (main_arg1 : IVec S2x800000 32) (main_v33 : IVec S_ 1) : IVec S_ 1 :=
  let main_c_12 : IVec S_ 32 := constantI S_ 32 0#32
  let main_v34 : IVec S2x800000 32 := broadcastInDim S2x800000 ![] bcast_S_S2x800000 main_c_12
  let main_v35 : IVec S2x800000 1 := cmpi .sge main_arg1 main_v34
  let main_c_13 : IVec S_ 1 := constantI S_ 1 1#1
  let main_v36 : IVec S_ 1 := (fun x v => Host.reduce IntOp.andi x v reducesTo_S2x800000_S_d0_1 h_S_) main_v35 main_c_13
  let main_v37 : IVec S_ 1 := andi main_v33 main_v36
  let main_c_14 : IVec S_ 32 := constantI S_ 32 50000#32
  let main_v38 : IVec S2x800000 32 := broadcastInDim S2x800000 ![] bcast_S_S2x800000 main_c_14
  let main_v39 : IVec S2x800000 1 := cmpi .slt main_arg1 main_v38
  let main_c_15 : IVec S_ 1 := constantI S_ 1 1#1
  let main_v40 : IVec S_ 1 := (fun x v => Host.reduce IntOp.andi x v reducesTo_S2x800000_S_d0_1 h_S_) main_v39 main_c_15
  let main_v41 : IVec S_ 1 := andi main_v37 main_v40
  main_v41

def fn_part1 {F : FTy → Type} [FloatOps F] (main_arg1 : IVec S2x800000 32) (main_arg7 : FVec F S64 .f32) (main_arg8 : FVec F S64x16 .f32) (main_arg9 : FVec F S16 .f32) (main_v13 : IVec S_ 1) (main_v16 : IVec S288x64 1) : IVec S_ 1 :=
  let main_c_5 : IVec S_ 1 := constantI S_ 1 1#1
  let main_v17 : IVec S_ 1 := (fun x v => Host.reduce IntOp.andi x v reducesTo_S288x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x16 .f32 := Host.absf main_arg8
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S16 .f32 := Host.absf main_arg9
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg1 main_v33

def fn {F : FTy → Type} [FloatOps F] (main_arg0 : FVec F S50000x128 .f32) (main_arg1 : IVec S2x800000 32) (main_arg2 : IVec S800000 32) (main_arg3 : IVec S50000 32) (main_arg4 : FVec F S288 .f32) (main_arg5 : FVec F S288 .f32) (main_arg6 : FVec F S288x64 .f32) (main_arg7 : FVec F S64 .f32) (main_arg8 : FVec F S64x16 .f32) (main_arg9 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S288 .f32 := Host.absf main_arg4
  let main_cst_0 : FVec F S_ .f32 := constant S_ .f32 0x7F800000#32
  let main_v5 : FVec F S288 .f32 := broadcastInDim S288 ![] bcast_S_S288 main_cst_0
  let main_v6 : IVec S288 1 := cmpf .olt main_v4 main_v5
  let main_c_1 : IVec S_ 1 := constantI S_ 1 1#1
  let main_v7 : IVec S_ 1 := (fun x v => Host.reduce IntOp.andi x v reducesTo_S288_S_d0 h_S_) main_v6 main_c_1
  let main_v8 : IVec S_ 1 := andi main_v3 main_v7
  let main_v9 : FVec F S288 .f32 := Host.absf main_arg5
  let main_cst_2 : FVec F S_ .f32 := constant S_ .f32 0x7F800000#32
  let main_v10 : FVec F S288 .f32 := broadcastInDim S288 ![] bcast_S_S288 main_cst_2
  let main_v11 : IVec S288 1 := cmpf .olt main_v9 main_v10
  let main_c_3 : IVec S_ 1 := constantI S_ 1 1#1
  let main_v12 : IVec S_ 1 := (fun x v => Host.reduce IntOp.andi x v reducesTo_S288_S_d0 h_S_) main_v11 main_c_3
  let main_v13 : IVec S_ 1 := andi main_v8 main_v12
  let main_v14 : FVec F S288x64 .f32 := Host.absf main_arg6
  let main_cst_4 : FVec F S_ .f32 := constant S_ .f32 0x7F800000#32
  let main_v15 : FVec F S288x64 .f32 := broadcastInDim S288x64 ![] bcast_S_S288x64 main_cst_4
  let main_v16 : IVec S288x64 1 := cmpf .olt main_v14 main_v15
  fn_part1 (F := F) main_arg1 main_arg7 main_arg8 main_arg9 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S288 : Shape := ⟨1, ![288]⟩
abbrev S288x64 : Shape := ⟨2, ![288, 64]⟩
abbrev S64 : Shape := ⟨1, ![64]⟩
abbrev S64x16 : Shape := ⟨2, ![64, 16]⟩
abbrev S16 : Shape := ⟨1, ![16]⟩
abbrev S1x800000 : Shape := ⟨2, ![1, 800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S800000x3 : Shape := ⟨2, ![800000, 3]⟩
abbrev S1x288 : Shape := ⟨2, ![1, 288]⟩
abbrev S1x64 : Shape := ⟨2, ![1, 64]⟩
abbrev S1x16 : Shape := ⟨2, ![1, 16]⟩
abbrev S4x4 : Shape := ⟨2, ![4, 4]⟩
abbrev S800000x16 : Shape := ⟨2, ![800000, 16]⟩
abbrev S3200x128 : Shape := ⟨2, ![3200, 128]⟩
abbrev S3200x3 : Shape := ⟨2, ![3200, 3]⟩
abbrev S3200x16 : Shape := ⟨2, ![3200, 16]⟩
abbrev S3200x1 : Shape := ⟨2, ![3200, 1]⟩
abbrev S3200x8 : Shape := ⟨2, ![3200, 8]⟩
abbrev S3200x288 : Shape := ⟨2, ![3200, 288]⟩
abbrev S3200 : Shape := ⟨1, ![3200]⟩
abbrev S3200x64 : Shape := ⟨2, ![3200, 64]⟩
abbrev S3200x4 : Shape := ⟨2, ![3200, 4]⟩
abbrev S1x4 : Shape := ⟨2, ![1, 4]⟩
abbrev S800000x4x4 : Shape := ⟨3, ![800000, 4, 4]⟩

abbrev nBuf : Space → Nat
  | .hbm => 124
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .i32⟩
  | .hbm, ⟨3, _⟩ => ⟨S50000, .i32⟩
  | .hbm, ⟨4, _⟩ => ⟨S288, .f32⟩
  | .hbm, ⟨5, _⟩ => ⟨S288, .f32⟩
  | .hbm, ⟨6, _⟩ => ⟨S288x64, .f32⟩
  | .hbm, ⟨7, _⟩ => ⟨S64, .f32⟩
  | .hbm, ⟨8, _⟩ => ⟨S64x16, .f32⟩
  | .hbm, ⟨9, _⟩ => ⟨S16, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S1, .i32⟩
  | .hbm, ⟨23, _⟩ => ⟨S_, .i32⟩
  | .hbm, ⟨24, _⟩ => ⟨S800000x1, .i32⟩
  | .hbm, ⟨25, _⟩ => ⟨S800000x1, .i1⟩
  | .hbm, ⟨26, _⟩ => ⟨S1x1, .i32⟩
  | .hbm, ⟨27, _⟩ => ⟨S800000x1, .i32⟩
  | .hbm, ⟨28, _⟩ => ⟨S800000x1, .i1⟩
  | .hbm, ⟨29, _⟩ => ⟨S800000x1, .i1⟩
  | .hbm, ⟨30, _⟩ => ⟨S_, .i1⟩
  | .hbm, ⟨31, _⟩ => ⟨S800000, .i1⟩
  | .hbm, ⟨32, _⟩ => ⟨S800000x128, .f32⟩
  | .hbm, ⟨33, _⟩ => ⟨S800000x128, .i1⟩
  | .hbm, ⟨34, _⟩ => ⟨S_, .f32⟩
  | .hbm, ⟨35, _⟩ => ⟨S800000x128, .f32⟩
  | .hbm, ⟨36, _⟩ => ⟨S800000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S1, .i32⟩
  | .hbm, ⟨46, _⟩ => ⟨S_, .i32⟩
  | .hbm, ⟨47, _⟩ => ⟨S800000x1, .i32⟩
  | .hbm, ⟨48, _⟩ => ⟨S800000x1, .i1⟩
  | .hbm, ⟨49, _⟩ => ⟨S1x1, .i32⟩
  | .hbm, ⟨50, _⟩ => ⟨S800000x1, .i32⟩
  | .hbm, ⟨51, _⟩ => ⟨S800000x1, .i1⟩
  | .hbm, ⟨52, _⟩ => ⟨S800000x1, .i1⟩
  | .hbm, ⟨53, _⟩ => ⟨S_, .i1⟩
  | .hbm, ⟨54, _⟩ => ⟨S800000, .i1⟩
  | .hbm, ⟨55, _⟩ => ⟨S800000x128, .f32⟩
  | .hbm, ⟨56, _⟩ => ⟨S800000x128, .i1⟩
  | .hbm, ⟨57, _⟩ => ⟨S_, .f32⟩
  | .hbm, ⟨58, _⟩ => ⟨S800000x128, .f32⟩
  | .hbm, ⟨59, _⟩ => ⟨S800000x128, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S1, .i32⟩
  | .hbm, ⟨69, _⟩ => ⟨S_, .i32⟩
  | .hbm, ⟨70, _⟩ => ⟨S800000x1, .i32⟩
  | .hbm, ⟨71, _⟩ => ⟨S800000x1, .i1⟩
  | .hbm, ⟨72, _⟩ => ⟨S1x1, .i32⟩
  | .hbm, ⟨73, _⟩ => ⟨S800000x1, .i32⟩
  | .hbm, ⟨74, _⟩ => ⟨S800000x1, .i1⟩
  | .hbm, ⟨75, _⟩ => ⟨S800000x1, .i1⟩
  | .hbm, ⟨76, _⟩ => ⟨S_, .i1⟩
  | .hbm, ⟨77, _⟩ => ⟨S800000, .i1⟩
  | .hbm, ⟨78, _⟩ => ⟨S800000, .i32⟩
  | .hbm, ⟨79, _⟩ => ⟨S_, .i32⟩
  | .hbm, ⟨80, _⟩ => ⟨S800000, .i32⟩
  | .hbm, ⟨81, _⟩ => ⟨S800000, .i32⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S1, .i32⟩
  | .hbm, ⟨91, _⟩ => ⟨S_, .i32⟩
  | .hbm, ⟨92, _⟩ => ⟨S800000x1, .i32⟩
  | .hbm, ⟨93, _⟩ => ⟨S800000x1, .i1⟩
  | .hbm, ⟨94, _⟩ => ⟨S1x1, .i32⟩
  | .hbm, ⟨95, _⟩ => ⟨S800000x1, .i32⟩
  | .hbm, ⟨96, _⟩ => ⟨S800000x1, .i1⟩
  | .hbm, ⟨97, _⟩ => ⟨S800000x1, .i1⟩
  | .hbm, ⟨98, _⟩ => ⟨S_, .i1⟩
  | .hbm, ⟨99, _⟩ => ⟨S800000, .i1⟩
  | .hbm, ⟨100, _⟩ => ⟨S800000, .i32⟩
  | .hbm, ⟨101, _⟩ => ⟨S_, .i32⟩
  | .hbm, ⟨102, _⟩ => ⟨S800000, .i32⟩
  | .hbm, ⟨103, _⟩ => ⟨S800000, .i32⟩
  | .hbm, ⟨104, _⟩ => ⟨S800000x1, .i32⟩
  | .hbm, ⟨105, _⟩ => ⟨S800000x1, .i32⟩
  | .hbm, ⟨106, _⟩ => ⟨S800000x1, .i32⟩
  | .hbm, ⟨107, _⟩ => ⟨S800000x3, .i32⟩
  | .hbm, ⟨108, _⟩ => ⟨S1x288, .f32⟩
  | .hbm, ⟨109, _⟩ => ⟨S1x288, .f32⟩
  | .hbm, ⟨110, _⟩ => ⟨S1x64, .f32⟩
  | .hbm, ⟨111, _⟩ => ⟨S1x16, .f32⟩
  | .hbm, ⟨112, _⟩ => ⟨S288x64, .bf16⟩
  | .hbm, ⟨113, _⟩ => ⟨S64x16, .bf16⟩
  | .hbm, ⟨114, _⟩ => ⟨S4x4, .i32⟩
  | .hbm, ⟨115, _⟩ => ⟨S4x4, .i32⟩
  | .hbm, ⟨116, _⟩ => ⟨S_, .i32⟩
  | .hbm, ⟨117, _⟩ => ⟨S4x4, .i32⟩
  | .hbm, ⟨118, _⟩ => ⟨S4x4, .i32⟩
  | .hbm, ⟨119, _⟩ => ⟨S4x4, .i1⟩
  | .hbm, ⟨120, _⟩ => ⟨S4x4, .f32⟩
  | .hbm, ⟨121, _⟩ => ⟨S1x16, .f32⟩
  | .hbm, ⟨122, _⟩ => ⟨S800000x16, .f32⟩
  | .hbm, ⟨123, _⟩ => ⟨S800000x4x4, .f32⟩
  | .local _ .vmem, ⟨0, _⟩ => ⟨S3200x128, .f32⟩
  | .local _ .vmem, ⟨1, _⟩ => ⟨S3200x128, .f32⟩
  | .local _ .vmem, ⟨2, _⟩ => ⟨S3200x128, .f32⟩
  | .local _ .vmem, ⟨3, _⟩ => ⟨S3200x128, .f32⟩
  | .local _ .vmem, ⟨4, _⟩ => ⟨S3200x3, .i32⟩
  | .local _ .vmem, ⟨5, _⟩ => ⟨S3200x3, .i32⟩
  | .local _ .vmem, ⟨6, _⟩ => ⟨S1x288, .f32⟩
  | .local _ .vmem, ⟨7, _⟩ => ⟨S1x288, .f32⟩
  | .local _ .vmem, ⟨8, _⟩ => ⟨S288x64, .bf16⟩
  | .local _ .vmem, ⟨9, _⟩ => ⟨S1x64, .f32⟩
  | .local _ .vmem, ⟨10, _⟩ => ⟨S64x16, .bf16⟩
  | .local _ .vmem, ⟨11, _⟩ => ⟨S1x16, .f32⟩
  | .local _ .vmem, ⟨12, _⟩ => ⟨S1x16, .f32⟩
  | .local _ .vmem, ⟨13, _⟩ => ⟨S3200x16, .f32⟩
  | .local _ .vmem, ⟨14, _⟩ => ⟨S3200x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v4 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v5 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_c_1 : Ref sig .tc := ⟨.hbm, 68, rfl⟩
abbrev main_call2_c_2 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_3 : Ref sig .tc := ⟨.hbm, 76, rfl⟩
abbrev main_call2_v12 : Ref sig .tc := ⟨.hbm, 77, rfl⟩
abbrev main_call2_v13 : Ref sig .tc := ⟨.hbm, 78, rfl⟩
abbrev main_call2_c_4 : Ref sig .tc := ⟨.hbm, 79, rfl⟩
abbrev main_call2_v14 : Ref sig .tc := ⟨.hbm, 80, rfl⟩
abbrev main_v6 : Ref sig .tc := ⟨.hbm, 81, rfl⟩
abbrev main_call3_c : Ref sig .tc := ⟨.hbm, 82, rfl⟩
abbrev main_call3_v0 : Ref sig .tc := ⟨.hbm, 83, rfl⟩
abbrev main_call3_v1 : Ref sig .tc := ⟨.hbm, 84, rfl⟩
abbrev main_call3_c_0 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_call3_v5 : Ref sig .tc := ⟨.hbm, 89, rfl⟩
abbrev main_call3_c_1 : Ref sig .tc := ⟨.hbm, 90, rfl⟩
abbrev main_call3_c_2 : Ref sig .tc := ⟨.hbm, 91, rfl⟩
abbrev main_call3_v6 : Ref sig .tc := ⟨.hbm, 92, rfl⟩
abbrev main_call3_v7 : Ref sig .tc := ⟨.hbm, 93, rfl⟩
abbrev main_call3_v8 : Ref sig .tc := ⟨.hbm, 94, rfl⟩
abbrev main_call3_v9 : Ref sig .tc := ⟨.hbm, 95, rfl⟩
abbrev main_call3_v10 : Ref sig .tc := ⟨.hbm, 96, rfl⟩
abbrev main_call3_v11 : Ref sig .tc := ⟨.hbm, 97, rfl⟩
abbrev main_call3_c_3 : Ref sig .tc := ⟨.hbm, 98, rfl⟩
abbrev main_call3_v12 : Ref sig .tc := ⟨.hbm, 99, rfl⟩
abbrev main_call3_v13 : Ref sig .tc := ⟨.hbm, 100, rfl⟩
abbrev main_call3_c_4 : Ref sig .tc := ⟨.hbm, 101, rfl⟩
abbrev main_call3_v14 : Ref sig .tc := ⟨.hbm, 102, rfl⟩
abbrev main_v7 : Ref sig .tc := ⟨.hbm, 103, rfl⟩
abbrev main_v8 : Ref sig .tc := ⟨.hbm, 104, rfl⟩
abbrev main_v9 : Ref sig .tc := ⟨.hbm, 105, rfl⟩
abbrev main_v10 : Ref sig .tc := ⟨.hbm, 106, rfl⟩
abbrev main_v11 : Ref sig .tc := ⟨.hbm, 107, rfl⟩
abbrev main_v12 : Ref sig .tc := ⟨.hbm, 108, rfl⟩
abbrev main_v13 : Ref sig .tc := ⟨.hbm, 109, rfl⟩
abbrev main_v14 : Ref sig .tc := ⟨.hbm, 110, rfl⟩
abbrev main_v15 : Ref sig .tc := ⟨.hbm, 111, rfl⟩
abbrev main_v16 : Ref sig .tc := ⟨.hbm, 112, rfl⟩
abbrev main_v17 : Ref sig .tc := ⟨.hbm, 113, rfl⟩
abbrev main_v18 : Ref sig .tc := ⟨.hbm, 114, rfl⟩
abbrev main_v19 : Ref sig .tc := ⟨.hbm, 115, rfl⟩
abbrev main_c : Ref sig .tc := ⟨.hbm, 116, rfl⟩
abbrev main_v20 : Ref sig .tc := ⟨.hbm, 117, rfl⟩
abbrev main_v21 : Ref sig .tc := ⟨.hbm, 118, rfl⟩
abbrev main_v22 : Ref sig .tc := ⟨.hbm, 119, rfl⟩
abbrev main_v23 : Ref sig .tc := ⟨.hbm, 120, rfl⟩
abbrev main_v24 : Ref sig .tc := ⟨.hbm, 121, rfl⟩
abbrev main_v25 : Ref sig .tc := ⟨.hbm, 122, rfl⟩
abbrev main_v26 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x3 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S288x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x16 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S3200x16 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  concatenates_S800000x1_S800000x1_S800000x1_S800000x3_d1 : Shape.Concatenates [S800000x1, S800000x1, S800000x1] S800000x3 1
  shapeCasts_S288_S1x288 : S288.ShapeCasts S1x288
  shapeCasts_S64_S1x64 : S64.ShapeCasts S1x64
  shapeCasts_S16_S1x16 : S16.ShapeCasts S1x16
  bitsLt_bf16_f32 : FTy.bits .bf16 < FTy.bits .f32
  bcast_S_S4x4 : S_.BroadcastsInDim S4x4 (![] : Fin 0 → Fin S4x4.rank)
  shapeCasts_S4x4_S1x16 : S4x4.ShapeCasts S1x16
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S3200x3_S3200x3_0_0 : ∀ a, (![0, 0] : Fin 2 → Nat) a + S3200x3.size a ≤ S3200x3.size a
  h_S3200x3 : 0 < S3200x3.numel
  shapeCasts_S3200x3_S3200x3 : S3200x3.ShapeCasts S3200x3
  slices_S3200x3_o0_0_S3200x1 : S3200x3.Slices ![0, 0] S3200x1
  slices_S3200x3_o0_1_S3200x1 : S3200x3.Slices ![0, 1] S3200x1
  slices_S3200x3_o0_2_S3200x1 : S3200x3.Slices ![0, 2] S3200x1
  iota_S3200x8_d1_w32 : S3200x8.Iotas .tc 32 [1]
  broadcasts_S3200x1_S3200x8 : S3200x1.Broadcasts S3200x8
  natLt_1_32 : 1 < 32
  iota_S3200x16_d1_w32 : S3200x16.Iotas .tc 32 [1]
  broadcasts_S3200x1_S3200x16 : S3200x1.Broadcasts S3200x16
  concatenates_S3200x128_S3200x128_S3200x8_S3200x8_S3200x16_S3200x288_d1 : Shape.Concatenates [S3200x128, S3200x128, S3200x8, S3200x8, S3200x16] S3200x288 1
  reduces_S3200x288_S3200 : S3200x288.Reduces [1] S3200
  shapeCasts_S3200_S3200x1 : S3200.ShapeCasts S3200x1
  broadcasts_S3200x1_S3200x288 : S3200x1.Broadcasts S3200x288
  inb_S1x288_S1x288_0_0 : ∀ a, (![0, 0] : Fin 2 → Nat) a + S1x288.size a ≤ S1x288.size a
  h_S1x288 : 0 < S1x288.numel
  shapeCasts_S1x288_S1x288 : S1x288.ShapeCasts S1x288
  broadcasts_S1x288_S3200x288 : S1x288.Broadcasts S3200x288
  inb_S288x64_S288x64_0_0 : ∀ a, (![0, 0] : Fin 2 → Nat) a + S288x64.size a ≤ S288x64.size a
  h_S288x64 : 0 < S288x64.numel
  shapeCasts_S288x64_S288x64 : S288x64.ShapeCasts S288x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S3200x64 : S1x64.Broadcasts S3200x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S3200x16 : S1x16.Broadcasts S3200x16
  slices_S3200x16_o0_0_S3200x4 : S3200x16.Slices ![0, 0] S3200x4
  reduces_S3200x4_S3200 : S3200x4.Reduces [1] S3200
  broadcasts_S3200x1_S3200x4 : S3200x1.Broadcasts S3200x4
  slices_S1x16_o0_0_S1x4 : S1x16.Slices ![0, 0] S1x4
  broadcasts_S1x4_S3200x4 : S1x4.Broadcasts S3200x4
  slices_S3200x16_o0_4_S3200x4 : S3200x16.Slices ![0, 4] S3200x4
  slices_S1x16_o0_4_S1x4 : S1x16.Slices ![0, 4] S1x4
  slices_S3200x16_o0_8_S3200x4 : S3200x16.Slices ![0, 8] S3200x4
  slices_S1x16_o0_8_S1x4 : S1x16.Slices ![0, 8] S1x4
  slices_S3200x16_o0_12_S3200x4 : S3200x16.Slices ![0, 12] S3200x4
  slices_S1x16_o0_12_S1x4 : S1x16.Slices ![0, 12] S1x4
  concatenates_S3200x4_S3200x4_S3200x4_S3200x4_S3200x16_d1 : Shape.Concatenates [S3200x4, S3200x4, S3200x4, S3200x4] S3200x16 1
  inb_S3200x16_S3200x16_0_0 : ∀ a, (![0, 0] : Fin 2 → Nat) a + S3200x16.size a ≤ S3200x16.size a
  h_S3200x16 : 0 < S3200x16.numel
  shapeCasts_S800000x16_S800000x4x4 : S800000x16.ShapeCasts S800000x4x4
  gather_S50000x128_S800000x1_S800000x128_1_0_n_n_0_1_1128_wf : GatherDims.WF S50000x128 S800000x1 S800000x128 [1] [0] [] [0] [] 1 ![1, 128]
  gather_S50000_S800000x1_S800000_n_0_n_n_0_1_1_wf : GatherDims.WF S50000 S800000x1 S800000 [] [0] [] [0] [] 1 ![1]
  dot_S3200x288_S288x64_S3200x64_1_0_0_1_n_n_wf : DotDims.WF S3200x288 S288x64 S3200x64 [1] [0] [0] [1] [] []
  dot_S3200x64_S64x16_S3200x16_1_0_0_1_n_n_wf : DotDims.WF S3200x64 S64x16 S3200x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S800000x128.size a
  hwx0_0 : ∀ i : grid0.Coords, EltTy.bits .f32 = 32 ∨ (Rect.block (s := S800000x128) S3200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x128.size a ≤ S800000x128.size a
  hwx0_1 : ∀ i : grid0.Coords, EltTy.bits .f32 = 32 ∨ (Rect.block (s := S800000x128) S3200x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x3.size a ≤ S800000x3.size a
  hwx0_2 : ∀ i : grid0.Coords, EltTy.bits .i32 = 32 ∨ (Rect.block (s := S800000x3) S3200x3.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x288.size a ≤ S1x288.size a
  hwx0_3 : ∀ i : grid0.Coords, EltTy.bits .f32 = 32 ∨ (Rect.block (s := S1x288) S1x288.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x288.size a ≤ S1x288.size a
  hwx0_4 : ∀ i : grid0.Coords, EltTy.bits .f32 = 32 ∨ (Rect.block (s := S1x288) S1x288.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S288x64.size a ≤ S288x64.size a
  hwx0_5 : ∀ i : grid0.Coords, EltTy.bits .bf16 = 32 ∨ (Rect.block (s := S288x64) S288x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x16.size a ≤ S64x16.size a
  hwx0_7 : ∀ i : grid0.Coords, EltTy.bits .bf16 = 32 ∨ (Rect.block (s := S64x16) S64x16.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x16.size a ≤ S1x16.size a
  hwx0_8 : ∀ i : grid0.Coords, EltTy.bits .f32 = 32 ∨ (Rect.block (s := S1x16) S1x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x16.size a ≤ S1x16.size a
  hwx0_9 : ∀ i : grid0.Coords, EltTy.bits .f32 = 32 ∨ (Rect.block (s := S1x16) S1x16.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S3200x16.size a ≤ S800000x16.size a
  hwx0_10 : ∀ i : grid0.Coords, EltTy.bits .f32 = 32 ∨ (Rect.block (s := S800000x16) S3200x16.size (cc0_transform_10 i) (hinb0_10 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S3200x288_S288x64_S3200x64_1_0_0_1_n_n : DotDims S3200x288 S288x64 S3200x64 where
  lhsContracting := [1]
  rhsContracting := [0]
  lhsNonContracting := [0]
  rhsNonContracting := [1]
  lhsBatch := []
  rhsBatch := []
  wf := dot_S3200x288_S288x64_S3200x64_1_0_0_1_n_n_wf
def dot_S3200x64_S64x16_S3200x16_1_0_0_1_n_n : DotDims S3200x64 S64x16 S3200x16 where
  lhsContracting := [1]
  rhsContracting := [0]
  lhsNonContracting := [0]
  rhsNonContracting := [1]
  lhsBatch := []
  rhsBatch := []
  wf := dot_S3200x64_S64x16_S3200x16_1_0_0_1_n_n_wf

abbrev win0_0 : Pipeline.Window sig grid0 :=
  Pipeline.Window.ofSpec (Memref.whole main_v4) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S3200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S3200x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x288.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x288.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S288x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S64x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S1x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v24) S1x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v25) S3200x16.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S288 : Shape := ⟨1, ![288]⟩
abbrev S288x64 : Shape := ⟨2, ![288, 64]⟩
abbrev S64 : Shape := ⟨1, ![64]⟩
abbrev S64x16 : Shape := ⟨2, ![64, 16]⟩
abbrev S16 : Shape := ⟨1, ![16]⟩
abbrev S1x800000 : Shape := ⟨2, ![1, 800000]⟩
abbrev S50000x1 : Shape := ⟨2, ![50000, 1]⟩
abbrev S1x8 : Shape := ⟨2, ![1, 8]⟩
abbrev S50000x8 : Shape := ⟨2, ![50000, 8]⟩
abbrev S800000x1 : Shape := ⟨2, ![800000, 1]⟩
abbrev S1x16 : Shape := ⟨2, ![1, 16]⟩
abbrev S800000x16 : Shape := ⟨2, ![800000, 16]⟩
abbrev S_ : Shape := ⟨0, ![]⟩
abbrev S800000x128 : Shape := ⟨2, ![800000, 128]⟩
abbrev S800000x8 : Shape := ⟨2, ![800000, 8]⟩
abbrev S800000x288 : Shape := ⟨2, ![800000, 288]⟩
abbrev S1x288 : Shape := ⟨2, ![1, 288]⟩
abbrev S800000x64 : Shape := ⟨2, ![800000, 64]⟩
abbrev S1x64 : Shape := ⟨2, ![1, 64]⟩
abbrev S800000x4x4 : Shape := ⟨3, ![800000, 4, 4]⟩
abbrev S800000x4 : Shape := ⟨2, ![800000, 4]⟩
abbrev S800000x4x1 : Shape := ⟨3, ![800000, 4, 1]⟩
abbrev S4x4 : Shape := ⟨2, ![4, 4]⟩
abbrev S1x4x4 : Shape := ⟨3, ![1, 4, 4]⟩

abbrev nBuf : Space → Nat
  | .hbm => 128
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .i32⟩
  | .hbm, ⟨3, _⟩ => ⟨S50000, .i32⟩
  | .hbm, ⟨4, _⟩ => ⟨S288, .f32⟩
  | .hbm, ⟨5, _⟩ => ⟨S288, .f32⟩
  | .hbm, ⟨6, _⟩ => ⟨S288x64, .f32⟩
  | .hbm, ⟨7, _⟩ => ⟨S64, .f32⟩
  | .hbm, ⟨8, _⟩ => ⟨S64x16, .f32⟩
  | .hbm, ⟨9, _⟩ => ⟨S16, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S50000x1, .i32⟩
  | .hbm, ⟨15, _⟩ => ⟨S1x8, .i32⟩
  | .hbm, ⟨16, _⟩ => ⟨S50000x8, .i32⟩
  | .hbm, ⟨17, _⟩ => ⟨S50000x8, .i32⟩
  | .hbm, ⟨18, _⟩ => ⟨S50000x8, .i1⟩
  | .hbm, ⟨19, _⟩ => ⟨S50000x8, .f32⟩
  | .hbm, ⟨20, _⟩ => ⟨S800000x1, .i32⟩
  | .hbm, ⟨21, _⟩ => ⟨S1x16, .i32⟩
  | .hbm, ⟨22, _⟩ => ⟨S800000x16, .i32⟩
  | .hbm, ⟨23, _⟩ => ⟨S800000x16, .i32⟩
  | .hbm, ⟨24, _⟩ => ⟨S800000x16, .i1⟩
  | .hbm, ⟨25, _⟩ => ⟨S800000x16, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x8, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x8, .f32⟩
  | .hbm, ⟨62, _⟩ => ⟨S800000x288, .f32⟩
  | .hbm, ⟨63, _⟩ => ⟨S_, .f32⟩
  | .hbm, ⟨64, _⟩ => ⟨S800000, .f32⟩
  | .hbm, ⟨65, _⟩ => ⟨S800000x1, .f32⟩
  | .hbm, ⟨66, _⟩ => ⟨S_, .f32⟩
  | .hbm, ⟨67, _⟩ => ⟨S800000x1, .f32⟩
  | .hbm, ⟨68, _⟩ => ⟨S800000x1, .f32⟩
  | .hbm, ⟨69, _⟩ => ⟨S800000x288, .f32⟩
  | .hbm, ⟨70, _⟩ => ⟨S800000x288, .f32⟩
  | .hbm, ⟨71, _⟩ => ⟨S800000x288, .f32⟩
  | .hbm, ⟨72, _⟩ => ⟨S_, .f32⟩
  | .hbm, ⟨73, _⟩ => ⟨S800000, .f32⟩
  | .hbm, ⟨74, _⟩ => ⟨S800000x1, .f32⟩
  | .hbm, ⟨75, _⟩ => ⟨S_, .f32⟩
  | .hbm, ⟨76, _⟩ => ⟨S800000x1, .f32⟩
  | .hbm, ⟨77, _⟩ => ⟨S800000x1, .f32⟩
  | .hbm, ⟨78, _⟩ => ⟨S800000x288, .f32⟩
  | .hbm, ⟨79, _⟩ => ⟨S800000x288, .f32⟩
  | .hbm, ⟨80, _⟩ => ⟨S_, .f32⟩
  | .hbm, ⟨81, _⟩ => ⟨S800000x1, .f32⟩
  | .hbm, ⟨82, _⟩ => ⟨S800000x1, .f32⟩
  | .hbm, ⟨83, _⟩ => ⟨S800000x1, .f32⟩
  | .hbm, ⟨84, _⟩ => ⟨S800000x288, .f32⟩
  | .hbm, ⟨85, _⟩ => ⟨S800000x288, .f32⟩
  | .hbm, ⟨86, _⟩ => ⟨S1x288, .f32⟩
  | .hbm, ⟨87, _⟩ => ⟨S800000x288, .f32⟩
  | .hbm, ⟨88, _⟩ => ⟨S800000x288, .f32⟩
  | .hbm, ⟨89, _⟩ => ⟨S1x288, .f32⟩
  | .hbm, ⟨90, _⟩ => ⟨S800000x288, .f32⟩
  | .hbm, ⟨91, _⟩ => ⟨S800000x288, .f32⟩
  | .hbm, ⟨92, _⟩ => ⟨S800000x64, .f32⟩
  | .hbm, ⟨93, _⟩ => ⟨S1x64, .f32⟩
  | .hbm, ⟨94, _⟩ => ⟨S800000x64, .f32⟩
  | .hbm, ⟨95, _⟩ => ⟨S800000x64, .f32⟩
  | .hbm, ⟨96, _⟩ => ⟨S_, .f32⟩
  | .hbm, ⟨97, _⟩ => ⟨S800000x64, .f32⟩
  | .hbm, ⟨98, _⟩ => ⟨S800000x64, .f32⟩
  | .hbm, ⟨99, _⟩ => ⟨S800000x16, .f32⟩
  | .hbm, ⟨100, _⟩ => ⟨S1x16, .f32⟩
  | .hbm, ⟨101, _⟩ => ⟨S800000x16, .f32⟩
  | .hbm, ⟨102, _⟩ => ⟨S800000x16, .f32⟩
  | .hbm, ⟨103, _⟩ => ⟨S800000x4x4, .f32⟩
  | .hbm, ⟨104, _⟩ => ⟨S_, .f32⟩
  | .hbm, ⟨105, _⟩ => ⟨S800000x4, .f32⟩
  | .hbm, ⟨106, _⟩ => ⟨S_, .f32⟩
  | .hbm, ⟨107, _⟩ => ⟨S800000x4, .f32⟩
  | .hbm, ⟨108, _⟩ => ⟨S800000x4, .f32⟩
  | .hbm, ⟨109, _⟩ => ⟨S800000x4x1, .f32⟩
  | .hbm, ⟨110, _⟩ => ⟨S800000x4x4, .f32⟩
  | .hbm, ⟨111, _⟩ => ⟨S800000x4x4, .f32⟩
  | .hbm, ⟨112, _⟩ => ⟨S800000x4x4, .f32⟩
  | .hbm, ⟨113, _⟩ => ⟨S_, .f32⟩
  | .hbm, ⟨114, _⟩ => ⟨S800000x4, .f32⟩
  | .hbm, ⟨115, _⟩ => ⟨S800000x4x1, .f32⟩
  | .hbm, ⟨116, _⟩ => ⟨S800000x4x4, .f32⟩
  | .hbm, ⟨117, _⟩ => ⟨S800000x4x4, .f32⟩
  | .hbm, ⟨118, _⟩ => ⟨S4x4, .i32⟩
  | .hbm, ⟨119, _⟩ => ⟨S4x4, .i32⟩
  | .hbm, ⟨120, _⟩ => ⟨S_, .i32⟩
  | .hbm, ⟨121, _⟩ => ⟨S4x4, .i32⟩
  | .hbm, ⟨122, _⟩ => ⟨S4x4, .i32⟩
  | .hbm, ⟨123, _⟩ => ⟨S4x4, .i1⟩
  | .hbm, ⟨124, _⟩ => ⟨S4x4, .f32⟩
  | .hbm, ⟨125, _⟩ => ⟨S1x4x4, .f32⟩
  | .hbm, ⟨126, _⟩ => ⟨S800000x4x4, .f32⟩
  | .hbm, ⟨127, _⟩ => ⟨S800000x4x4, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v4 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v5 : Ref sig .tc := ⟨.hbm, 25, rfl⟩
abbrev main_c : Ref sig .tc := ⟨.hbm, 26, rfl⟩
abbrev main_v6 : Ref sig .tc := ⟨.hbm, 27, rfl⟩
abbrev main_v7 : Ref sig .tc := ⟨.hbm, 28, rfl⟩
abbrev main_c_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c_1 : Ref sig .tc := ⟨.hbm, 35, rfl⟩
abbrev main_v13 : Ref sig .tc := ⟨.hbm, 36, rfl⟩
abbrev main_v14 : Ref sig .tc := ⟨.hbm, 37, rfl⟩
abbrev main_c_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c_3 : Ref sig .tc := ⟨.hbm, 44, rfl⟩
abbrev main_v20 : Ref sig .tc := ⟨.hbm, 45, rfl⟩
abbrev main_v21 : Ref sig .tc := ⟨.hbm, 46, rfl⟩
abbrev main_c_4 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c_5 : Ref sig .tc := ⟨.hbm, 53, rfl⟩
abbrev main_v27 : Ref sig .tc := ⟨.hbm, 54, rfl⟩
abbrev main_v28 : Ref sig .tc := ⟨.hbm, 55, rfl⟩
abbrev main_c_6 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst : Ref sig .tc := ⟨.hbm, 63, rfl⟩
abbrev main_v35 : Ref sig .tc := ⟨.hbm, 64, rfl⟩
abbrev main_v36 : Ref sig .tc := ⟨.hbm, 65, rfl⟩
abbrev main_cst_7 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_8 : Ref sig .tc := ⟨.hbm, 72, rfl⟩
abbrev main_v42 : Ref sig .tc := ⟨.hbm, 73, rfl⟩
abbrev main_v43 : Ref sig .tc := ⟨.hbm, 74, rfl⟩
abbrev main_cst_9 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_10 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_call2_cst : Ref sig .tc := ⟨.hbm, 96, rfl⟩
abbrev main_call2_v0 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_11 : Ref sig .tc := ⟨.hbm, 104, rfl⟩
abbrev main_v69 : Ref sig .tc := ⟨.hbm, 105, rfl⟩
abbrev main_cst_12 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_13 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_c_14 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S50000_S50000x1_0 : S50000.BroadcastsInDim S50000x1 (![0] : Fin 1 → Fin S50000x1.rank)
  bcast_S50000x1_S50000x8_0_1 : S50000x1.BroadcastsInDim S50000x8 (![0, 1] : Fin 2 → Fin S50000x8.rank)
  bcast_S1x8_S50000x8_0_1 : S1x8.BroadcastsInDim S50000x8 (![0, 1] : Fin 2 → Fin S50000x8.rank)
  bcast_S800000_S800000x1_0 : S800000.BroadcastsInDim S800000x1 (![0] : Fin 1 → Fin S800000x1.rank)
  bcast_S800000x1_S800000x16_0_1 : S800000x1.BroadcastsInDim S800000x16 (![0, 1] : Fin 2 → Fin S800000x16.rank)
  bcast_S1x16_S800000x16_0_1 : S1x16.BroadcastsInDim S800000x16 (![0, 1] : Fin 2 → Fin S800000x16.rank)
  bcast_S_S800000 : S_.BroadcastsInDim S800000 (![] : Fin 0 → Fin S800000.rank)
  concatenates_S800000x128_S800000x128_S800000x8_S800000x8_S800000x16_S800000x288_d1 : Shape.Concatenates [S800000x128, S800000x128, S800000x8, S800000x8, S800000x16] S800000x288 1
  reducesTo_S800000x288_S800000_d1 : S800000x288.ReducesTo [1] S800000
  h_S_ : 0 < S_.numel
  bcast_S_S800000x1 : S_.BroadcastsInDim S800000x1 (![] : Fin 0 → Fin S800000x1.rank)
  bcast_S800000x1_S800000x288_0_1 : S800000x1.BroadcastsInDim S800000x288 (![0, 1] : Fin 2 → Fin S800000x288.rank)
  bcast_S288_S1x288_1 : S288.BroadcastsInDim S1x288 (![1] : Fin 1 → Fin S1x288.rank)
  bcast_S1x288_S800000x288_0_1 : S1x288.BroadcastsInDim S800000x288 (![0, 1] : Fin 2 → Fin S800000x288.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S16_S1x16_1 : S16.BroadcastsInDim S1x16 (![1] : Fin 1 → Fin S1x16.rank)
  shapeCasts_S800000x16_S800000x4x4 : S800000x16.ShapeCasts S800000x4x4
  reducesTo_S800000x4x4_S800000x4_d2 : S800000x4x4.ReducesTo [2] S800000x4
  bcast_S_S800000x4 : S_.BroadcastsInDim S800000x4 (![] : Fin 0 → Fin S800000x4.rank)
  bcast_S800000x4_S800000x4x1_0_1 : S800000x4.BroadcastsInDim S800000x4x1 (![0, 1] : Fin 2 → Fin S800000x4x1.rank)
  bcast_S800000x4x1_S800000x4x4_0_1_2 : S800000x4x1.BroadcastsInDim S800000x4x4 (![0, 1, 2] : Fin 3 → Fin S800000x4x4.rank)
  bcast_S_S4x4 : S_.BroadcastsInDim S4x4 (![] : Fin 0 → Fin S4x4.rank)
  bcast_S4x4_S1x4x4_1_2 : S4x4.BroadcastsInDim S1x4x4 (![1, 2] : Fin 2 → Fin S1x4x4.rank)
  bcast_S1x4x4_S800000x4x4_0_1_2 : S1x4x4.BroadcastsInDim S800000x4x4 (![0, 1, 2] : Fin 3 → Fin S800000x4x4.rank)
  gather_S50000x128_S800000x1_S800000x128_1_0_n_n_0_1_1128_wf : GatherDims.WF S50000x128 S800000x1 S800000x128 [1] [0] [] [0] [] 1 ![1, 128]
  gather_S50000x8_S800000x1_S800000x8_1_0_n_n_0_1_18_wf : GatherDims.WF S50000x8 S800000x1 S800000x8 [1] [0] [] [0] [] 1 ![1, 8]
  dot_S800000x288_S288x64_S800000x64_1_0_0_1_n_n_wf : DotDims.WF S800000x288 S288x64 S800000x64 [1] [0] [0] [1] [] []
  dot_S800000x64_S64x16_S800000x16_1_0_0_1_n_n_wf : DotDims.WF S800000x64 S64x16 S800000x16 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000x8_S800000x1_S800000x8_1_0_n_n_0_1_18 : GatherDims S50000x8 S800000x1 S800000x8 where
  offsetDims := [1]
  collapsedSliceDims := [0]
  operandBatchingDims := []
  startIndicesBatchingDims := []
  startIndexMap := [0]
  indexVectorDim := 1
  sliceSizes := ![1, 8]
  wf := gather_S50000x8_S800000x1_S800000x8_1_0_n_n_0_1_18_wf
def dot_S800000x288_S288x64_S800000x64_1_0_0_1_n_n : DotDims S800000x288 S288x64 S800000x64 where
  lhsContracting := [1]
  rhsContracting := [0]
  lhsNonContracting := [0]
  rhsNonContracting := [1]
  lhsBatch := []
  rhsBatch := []
  wf := dot_S800000x288_S288x64_S800000x64_1_0_0_1_n_n_wf
def dot_S800000x64_S64x16_S800000x16_1_0_0_1_n_n : DotDims S800000x64 S64x16 S800000x16 where
  lhsContracting := [1]
  rhsContracting := [0]
  lhsNonContracting := [0]
  rhsNonContracting := [1]
  lhsBatch := []
  rhsBatch := []
  wf := dot_S800000x64_S64x16_S800000x16_1_0_0_1_n_n_wf

class Facts : Prop extends Facts₀ where

variable [Facts]
-- ==== Proof.KDefs.lean ====
/-
  The kernel program (read at the word level) around its one pallas_call: the buffer contents the call finds (after the host lines
  before it: the four gathers, the stacked index table, the reshaped vectors, the narrowed weights and the identity
  table), each window's block at a grid point, and what the body leaves in the output block as one function of the ten
  input blocks — the kernel's one store over the whole block, its value the skeleton's payloads composed.
-/
import proofs.«417059_j31842887533258_3_alg».proof.Proof.Gen.Kernel.Launch
import proofs.«417059_j31842887533258_3_alg».proof.Proof.Gen.Kernel.Skeleton
import proofs.«417059_j31842887533258_3_alg».proof.Proof.Gen.Kernel.Points
import Idealize.ShloMosaic.Lib.Pipeline.FrameBody
import Idealize.ShloMosaic.Lib.Pipeline.FrameSuffix

set_option maxRecDepth 16384

noncomputable section

namespace Cert.Kernel.Fr

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.Kernel Cert.Kernel.Gen

variable {F : FTy → Type} [FloatOps F]

variable (m : (ℓ : Loc nD τ sig) → Buf (Elt F) ℓ)

/-- Core c's buffer contents when the pallas_call is entered: the launch memory after the six stretches of host lines. -/
abbrev V0 (c : Dev nD) : Valuation τ sig (Elt F) :=
  StableHlo.after (List.flatten [hostOps0, hostOps0_1, hostOps0_2, hostOps0_3, hostOps0_4, hostOps0_5]) (fun b => m (c, b))
/-- The same read at one reference. -/
abbrev V (c : Dev nD) (b : Ref sig .tc) : Buf (Elt F) ((c : Thread nD τ).loc b) := V0 m c (Proc.devRef .tc b)

/-- Window w's block at grid point t, read off the window's array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole-block rectangles the body loads and stores through. -/
abbrev rX : Rect S3200x128 := Rect.unit (s := S3200x128) ![0, 0] S3200x128.size inb_S3200x128_S3200x128_0_0
abbrev rI : Rect S3200x3 := Rect.unit (s := S3200x3) ![0, 0] S3200x3.size inb_S3200x3_S3200x3_0_0
abbrev rL : Rect S1x288 := Rect.unit (s := S1x288) ![0, 0] S1x288.size inb_S1x288_S1x288_0_0
abbrev rW1 : Rect S288x64 := Rect.unit (s := S288x64) ![0, 0] S288x64.size inb_S288x64_S288x64_0_0
abbrev rB1 : Rect S1x64 := Rect.unit (s := S1x64) ![0, 0] S1x64.size inb_S1x64_S1x64_0_0
abbrev rW2 : Rect S64x16 := Rect.unit (s := S64x16) ![0, 0] S64x16.size inb_S64x16_S64x16_0_0
abbrev rB2 : Rect S1x16 := Rect.unit (s := S1x16) ![0, 0] S1x16.size inb_S1x16_S1x16_0_0
abbrev rO : Rect S3200x16 := Rect.unit (s := S3200x16) ![0, 0] S3200x16.size inb_S3200x16_S3200x16_0_0

/-- The normalised, scaled features of the block (before the shift is added): payload 2 of the loads. -/
def nrm (x0 x1 : Vec F S3200x128 .f32) (x2 : Vec F S3200x3 .i32) (x3 : Vec F S1x288 .f32) : FVec F S3200x288 .f32 :=
  k0_pay2 (View.ld x0 rX) (View.ld x1 rX) (View.ld x2 rI) (View.ld x3 rL)

/-- What the body stores: the identity row minus the four group softmaxes of the logits, as the payloads compose. -/
def stored (x0 x1 : Vec F S3200x128 .f32) (x2 : Vec F S3200x3 .i32) (x3 x4 : Vec F S1x288 .f32) (x5 : Vec F S288x64 .bf16)
    (x6 : Vec F S1x64 .f32) (x7 : Vec F S64x16 .bf16) (x8 x9 : Vec F S1x16 .f32) : FVec F S3200x16 .f32 :=
  k0_pay1
    (k0_pay3 (nrm x0 x1 x2 x3) (View.ld x4 rL) (View.ld x5 rW1) (View.ld x6 rB1) (View.ld x7 rW2) (View.ld x8 rB2))
    (k0_pay4 (View.ld x9 rB2))
    (k0_pay5 (nrm x0 x1 x2 x3) (View.ld x4 rL) (View.ld x5 rW1) (View.ld x6 rB1) (View.ld x7 rW2) (View.ld x8 rB2) (View.ld x9 rB2))
    (k0_pay6 (nrm x0 x1 x2 x3) (View.ld x4 rL) (View.ld x5 rW1) (View.ld x6 rB1) (View.ld x7 rW2) (View.ld x8 rB2))

/-- The output window's staging buffer after the body: its one store, over the whole block. -/
def out10 (x0 x1 : Vec F S3200x128 .f32) (x2 : Vec F S3200x3 .i32) (x3 x4 : Vec F S1x288 .f32) (x5 : Vec F S288x64 .bf16)
    (x6 : Vec F S1x64 .f32) (x7 : Vec F S64x16 .bf16) (x8 x9 : Vec F S1x16 .f32) : Vec F S3200x16 .f32 :=
  View.canon [⟨rO, stored x0 x1 x2 x3 x4 x5 x6 x7 x8 x9⟩]

/-- The proof data of the pipeline on core c: the arrays as the call finds them; after the body at point t each input's
    buffer at its block and the output's at `out10` of the input blocks; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out10 (iblk m c 0 t) (iblk m c 1 t) (iblk m c 2 t) (iblk m c 3 t) (iblk m c 4 t) (iblk m c 5 t) (iblk m c 6 t)
        (iblk m c 7 t) (iblk m c 8 t) (iblk m c 9 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_10 (c : Dev nD) (t : Fin cfg0.N) : (dats m 0 c).after 10 t
    = out10 (iblk m c 0 t) (iblk m c 1 t) (iblk m c 2 t) (iblk m c 3 t) (iblk m c 4 t) (iblk m c 5 t) (iblk m c 6 t)
        (iblk m c 7 t) (iblk m c 8 t) (iblk m c 9 t) := by dsimp only [dats]

end Cert.Kernel.Fr

end
-- ==== Proof.LibNary3.lean ====
/-
  A general lemma about the host-operation builders: the result of an operation over a LITERAL family of THREE operand
  references (a three-piece concatenate), with each operand's contents read at its own reference, so that a fold of
  operation results goes on rewriting the operands' contents. The library states the same for four references.
-/
import Idealize.ShloMosaic.Lib.StableHlo.Run

namespace Idealize.ShloMosaic.StableHlo

open Idealize.ShloMosaic Idealize.SL.Sem

variable {τ : Topo} {sig : RefSig} {Val : EltTy → Type}

/-- The result of an operation over three literal operand references: its function applied to the three operands' contents. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, the form a single simplification pass over a fold uses. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo
-- ==== Proof.KFrame.lean ====
/-
  The frame of the kernel program, for every float family: the program's run around its one pipelined call.
  Before the call six stretches of host lines prepare the call's arrays; none of them writes an argument of the
  program, and the one line after the call writes none either. At each grid point the body reads its ten input
  blocks whole and overwrites the output block whole, so the staging buffers after the body are a closed function
  of the input blocks. From these the run of the whole program follows, and with it the frame claim: every
  argument array ends as it was launched.
-/
import proofs.«417059_j31842887533258_3_alg».proof.Proof.KDefs
import proofs.«417059_j31842887533258_3_alg».proof.Proof.LibNary3
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its call -/
/-- No host line allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the six stretches of host lines, the call, and one more line; so, holding the unscoped buffers at
    the launch contents, it reduces to the call continued by that last line, the buffers then holding what the six
    stretches computed. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5] [hostOps1]
    ⟨hostOps0_sub, hostOps0_1_sub, hostOps0_2_sub, hostOps0_3_sub, hostOps0_4_sub, hostOps0_5_sub⟩
    ⟨hostOps0_fresh, hostOps0_1_fresh, hostOps0_2_fresh, hostOps0_3_fresh, hostOps0_4_fresh, hostOps0_5_fresh⟩ main_chain

/-- The line after the call touches only unscoped buffers: arrays of the pipeline or buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop
/-- It writes its own result only, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w
  fin_cases w <;> simp only [StableHlo.reshape_writes, Finset.mem_singleton] <;> exact StableHlo.devRef_ne_of_ne (by decide)

/-! ## The arguments are never written -/

set_option maxHeartbeats 1000000 in
/-- Argument 0 is the result of no host line before the call: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 1000000 in
/-- Argument 1 is the result of no host line before the call: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 1000000 in
/-- Argument 2 is the result of no host line before the call: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 1000000 in
/-- Argument 3 is the result of no host line before the call: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 1000000 in
/-- Argument 4 is the result of no host line before the call: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 1000000 in
/-- Argument 5 is the result of no host line before the call: the call finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 1000000 in
/-- Argument 6 is the result of no host line before the call: the call finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 1000000 in
/-- Argument 7 is the result of no host line before the call: the call finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 1000000 in
/-- Argument 8 is the result of no host line before the call: the call finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 1000000 in
/-- Argument 9 is the result of no host line before the call: the call finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Argument 0 is no array of the pipeline and not the result of the line after the call: it ends as launched. -/
theorem W_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c
/-- Argument 1 is no array of the pipeline and not the result of the line after the call: it ends as launched. -/
theorem W_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c
/-- Argument 2 is no array of the pipeline and not the result of the line after the call: it ends as launched. -/
theorem W_main_arg2 (c : Dev nD) :
    Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c
/-- Argument 3 is no array of the pipeline and not the result of the line after the call: it ends as launched. -/
theorem W_main_arg3 (c : Dev nD) :
    Pipeline.afterTail₀ cfgs (dats m) 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c
/-- Argument 4 is no array of the pipeline and not the result of the line after the call: it ends as launched. -/
theorem W_main_arg4 (c : Dev nD) :
    Pipeline.afterTail₀ cfgs (dats m) 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c
/-- Argument 5 is no array of the pipeline and not the result of the line after the call: it ends as launched. -/
theorem W_main_arg5 (c : Dev nD) :
    Pipeline.afterTail₀ cfgs (dats m) 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c
/-- Argument 6 is no array of the pipeline and not the result of the line after the call: it ends as launched. -/
theorem W_main_arg6 (c : Dev nD) :
    Pipeline.afterTail₀ cfgs (dats m) 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c
/-- Argument 7 is no array of the pipeline and not the result of the line after the call: it ends as launched. -/
theorem W_main_arg7 (c : Dev nD) :
    Pipeline.afterTail₀ cfgs (dats m) 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg7 (by exact (by decide : ∀ w, Pipeline.arrRef spec0 w ≠ main_arg7))]
  exact V_main_arg7 m c
/-- Argument 8 is no array of the pipeline and not the result of the line after the call: it ends as launched. -/
theorem W_main_arg8 (c : Dev nD) :
    Pipeline.afterTail₀ cfgs (dats m) 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg8 (by exact (by decide : ∀ w, Pipeline.arrRef spec0 w ≠ main_arg8))]
  exact V_main_arg8 m c
/-- Argument 9 is no array of the pipeline and not the result of the line after the call: it ends as launched. -/
theorem W_main_arg9 (c : Dev nD) :
    Pipeline.afterTail₀ cfgs (dats m) 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg9 (by exact (by decide : ∀ w, Pipeline.arrRef spec0 w ≠ main_arg9))]
  exact V_main_arg9 m c
/-! ## The input blocks -/

/-- Input window 0's current staging buffer holds the window's block at every point, copied in there or not: where
    no copy was made the block index has not moved since the last one. For any proof data on `V`'s arrays whose body leaves
    the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds the window's block at every point, copied in there or not: where
    no copy was made the block index has not moved since the last one. For any proof data on `V`'s arrays whose body leaves
    the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds the window's block at every point, copied in there or not: where
    no copy was made the block index has not moved since the last one. For any proof data on `V`'s arrays whose body leaves
    the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds the window's block at every point, copied in there or not: where
    no copy was made the block index has not moved since the last one. For any proof data on `V`'s arrays whose body leaves
    the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds the window's block at every point, copied in there or not: where
    no copy was made the block index has not moved since the last one. For any proof data on `V`'s arrays whose body leaves
    the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds the window's block at every point, copied in there or not: where
    no copy was made the block index has not moved since the last one. For any proof data on `V`'s arrays whose body leaves
    the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds the window's block at every point, copied in there or not: where
    no copy was made the block index has not moved since the last one. For any proof data on `V`'s arrays whose body leaves
    the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds the window's block at every point, copied in there or not: where
    no copy was made the block index has not moved since the last one. For any proof data on `V`'s arrays whose body leaves
    the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds the window's block at every point, copied in there or not: where
    no copy was made the block index has not moved since the last one. For any proof data on `V`'s arrays whose body leaves
    the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds the window's block at every point, copied in there or not: where
    no copy was made the block index has not moved since the last one. For any proof data on `V`'s arrays whose body leaves
    the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run -/

/-- From a run that ends with every buffer bypassing the pipeline at what the last host line leaves, the frame claim: each
    argument is such a buffer (unscoped, no array of a window), and the last line leaves it as launched. -/
theorem frame_of
    (h : θ_run defs (onTc (τ := τ) (main (F := F))) (s₀ m ρ) (Pipeline.FramePost cfgs (dats m) 0 (Pipeline.afterTail₀ cfgs (dats m) 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (W_main_arg0 m c),
      ((h c).2 main_arg1 (Pipeline.mem_restRefs_of main_arg1 (by decide) (by decide))).trans (W_main_arg1 m c),
      ((h c).2 main_arg2 (Pipeline.mem_restRefs_of main_arg2 (by decide) (by decide))).trans (W_main_arg2 m c),
      ((h c).2 main_arg3 (Pipeline.mem_restRefs_of main_arg3 (by decide) (by decide))).trans (W_main_arg3 m c),
      ((h c).2 main_arg4 (Pipeline.mem_restRefs_of main_arg4 (by decide) (by decide))).trans (W_main_arg4 m c),
      ((h c).2 main_arg5 (Pipeline.mem_restRefs_of main_arg5 (by decide) (by decide))).trans (W_main_arg5 m c),
      ((h c).2 main_arg6 (Pipeline.mem_restRefs_of main_arg6 (by decide) (by decide))).trans (W_main_arg6 m c),
      ((h c).2 main_arg7 (Pipeline.mem_restRefs_of main_arg7 (by decide) (by decide))).trans (W_main_arg7 m c),
      ((h c).2 main_arg8 (Pipeline.mem_restRefs_of main_arg8 (by decide) (by decide))).trans (W_main_arg8 m c),
      ((h c).2 main_arg9 (Pipeline.mem_restRefs_of main_arg9 (by decide) (by decide))).trans (W_main_arg9 m c)⟩) h

/-! ## What the body leaves in the output block -/

/-- The one store is over the whole block, so it covers it. -/
theorem cover10 (p0 : Vec F S3200x16 .f32) (y : S3200x16.Idx) :
    ∃ pc ∈ ([⟨rO, p0⟩] : List (View.Piece (Elt F) S3200x16 .f32)), y ∈ pc.1.set :=
  View.cover_of_tiled [⟨rO, p0⟩] S3200x16.size (by rfl) y

/-! ## The body's triple -/

set_option maxHeartbeats 4000000 in
/-- The body on whole staging buffers, the ten inputs' reading `x0 … x9` and the output's holding anything, runs to its
    continuation with the inputs' as they were and the output's reading `out10 x0 … x9`: it loads the ten inputs whole,
    loads the output (a value it never uses), and stores the composed payloads over the whole output. -/
theorem sound_kernel (c : Dev nD) (E : Set ℕ) (i : grid0.Coords)
    (a0 : Memref sig .tc .vmem S3200x128 .f32) (h0 : a0.IsWhole)
    (a1 : Memref sig .tc .vmem S3200x128 .f32) (h1 : a1.IsWhole)
    (a2 : Memref sig .tc .vmem S3200x3 .i32) (h2 : a2.IsWhole)
    (a3 : Memref sig .tc .vmem S1x288 .f32) (h3 : a3.IsWhole)
    (a4 : Memref sig .tc .vmem S1x288 .f32) (h4 : a4.IsWhole)
    (a5 : Memref sig .tc .vmem S288x64 .bf16) (h5 : a5.IsWhole)
    (a6 : Memref sig .tc .vmem S1x64 .f32) (h6 : a6.IsWhole)
    (a7 : Memref sig .tc .vmem S64x16 .bf16) (h7 : a7.IsWhole)
    (a8 : Memref sig .tc .vmem S1x16 .f32) (h8 : a8.IsWhole)
    (a9 : Memref sig .tc .vmem S1x16 .f32) (h9 : a9.IsWhole)
    (a10 : Memref sig .tc .vmem S3200x16 .f32) (h10 : a10.IsWhole)
    (x0 x1 : Vec F S3200x128 .f32) (x2 : Vec F S3200x3 .i32) (x3 x4 : Vec F S1x288 .f32) (x5 : Vec F S288x64 .bf16)
    (x6 : Vec F S1x64 .f32) (x7 : Vec F S64x16 .bf16) (x8 x9 : Vec F S1x16 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9
        ∗ (∃ d, owns (c : Thread nD τ) a10 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9
            ∗ owns (c : Thread nD τ) a10 fullShare (out10 x0 x1 x2 x3 x4 x5 x6 x7 x8 x9)) -∗ K ⟨⟩))
      ⊢ wp frame (wpE (defs₀ (F := F)) Variants.none c none) E (cc0_sheaf_kernel i a0 h0 a1 h1 a2 h2 a3 h3 a4 h4 a5 h5 a6 h6 a7 h7 a8 h8 a9 h9 a10 h10) K := by
  simp only [cc0_sheaf_kernel_eq_skeleton]; unfold cc0_sheaf_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover10 _)

/-! ## The proof data at a point -/

/-- After the body each input's buffer still reads its block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]

/-- Before the body each input's current buffer reads its block, copied in at this point or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation -/

/-- What the body is entered with at point `t`: the invariant, the core's debts, and each window's current staging buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What it hands back: the same, each buffer at what the proof data says the body leaves there. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
/-- The body at any point: the inputs' buffers read their blocks, so the body's triple applies at those blocks; the
    invariant and the debts pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation at every point, the windows taken one by one. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any launch memory with zero counters, every weakly fair execution of the program on the cores terminates, and in
    every final state each array of the pipeline holds what the proof data computes and every other unscoped buffer what
    the line after the call leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.Kernel.Fr.run_main' depends on axioms: [propext, Classical.choice, Quot.sound] -/
#guard_msgs in #print axioms run_main

/-- The frame claim for every float family: the program terminates without fault and its ten arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (run_main m ρ)

end Cert.Kernel.Fr

end
-- ==== Proof.KIDefs.lean ====
/-
  The idealized kernel program around its one pallas_call: the buffer contents the call finds (after the host lines
  before it: the four gathers, the stacked index table, the reshaped vectors, the narrowed weights and the identity
  table), each window's block at a grid point, and what the body leaves in the output block as one function of the ten
  input blocks — the kernel's one store over the whole block, its value the skeleton's payloads composed.
-/
import proofs.«417059_j31842887533258_3_alg».proof.Proof.Gen.KernelIdeal.Launch
import proofs.«417059_j31842887533258_3_alg».proof.Proof.Gen.KernelIdeal.Skeleton
import proofs.«417059_j31842887533258_3_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Fr

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ)

/-- Core c's buffer contents when the pallas_call is entered: the launch memory after the six stretches of host lines. -/
abbrev V0 (c : Dev nD) : Valuation τ sig (Elt F) :=
  StableHlo.after (List.flatten [hostOps0, hostOps0_1, hostOps0_2, hostOps0_3, hostOps0_4, hostOps0_5]) (fun b => m (c, b))
/-- The same read at one reference. -/
abbrev V (c : Dev nD) (b : Ref sig .tc) : Buf (Elt F) ((c : Thread nD τ).loc b) := V0 m c (Proc.devRef .tc b)

/-- Window w's block at grid point t, read off the window's array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole-block rectangles the body loads and stores through. -/
abbrev rX : Rect S3200x128 := Rect.unit (s := S3200x128) ![0, 0] S3200x128.size inb_S3200x128_S3200x128_0_0
abbrev rI : Rect S3200x3 := Rect.unit (s := S3200x3) ![0, 0] S3200x3.size inb_S3200x3_S3200x3_0_0
abbrev rL : Rect S1x288 := Rect.unit (s := S1x288) ![0, 0] S1x288.size inb_S1x288_S1x288_0_0
abbrev rW1 : Rect S288x64 := Rect.unit (s := S288x64) ![0, 0] S288x64.size inb_S288x64_S288x64_0_0
abbrev rB1 : Rect S1x64 := Rect.unit (s := S1x64) ![0, 0] S1x64.size inb_S1x64_S1x64_0_0
abbrev rW2 : Rect S64x16 := Rect.unit (s := S64x16) ![0, 0] S64x16.size inb_S64x16_S64x16_0_0
abbrev rB2 : Rect S1x16 := Rect.unit (s := S1x16) ![0, 0] S1x16.size inb_S1x16_S1x16_0_0
abbrev rO : Rect S3200x16 := Rect.unit (s := S3200x16) ![0, 0] S3200x16.size inb_S3200x16_S3200x16_0_0

/-- The normalised, scaled features of the block (before the shift is added): payload 2 of the loads. -/
def nrm (x0 x1 : Vec F S3200x128 .f32) (x2 : Vec F S3200x3 .i32) (x3 : Vec F S1x288 .f32) : FVec F S3200x288 .f32 :=
  k0_pay2 (View.ld x0 rX) (View.ld x1 rX) (View.ld x2 rI) (View.ld x3 rL)

/-- What the body stores: the identity row minus the four group softmaxes of the logits, as the payloads compose. -/
def stored (x0 x1 : Vec F S3200x128 .f32) (x2 : Vec F S3200x3 .i32) (x3 x4 : Vec F S1x288 .f32) (x5 : Vec F S288x64 .bf16)
    (x6 : Vec F S1x64 .f32) (x7 : Vec F S64x16 .bf16) (x8 x9 : Vec F S1x16 .f32) : FVec F S3200x16 .f32 :=
  k0_pay1
    (k0_pay3 (nrm x0 x1 x2 x3) (View.ld x4 rL) (View.ld x5 rW1) (View.ld x6 rB1) (View.ld x7 rW2) (View.ld x8 rB2))
    (k0_pay4 (View.ld x9 rB2))
    (k0_pay5 (nrm x0 x1 x2 x3) (View.ld x4 rL) (View.ld x5 rW1) (View.ld x6 rB1) (View.ld x7 rW2) (View.ld x8 rB2) (View.ld x9 rB2))
    (k0_pay6 (nrm x0 x1 x2 x3) (View.ld x4 rL) (View.ld x5 rW1) (View.ld x6 rB1) (View.ld x7 rW2) (View.ld x8 rB2))

/-- The output window's staging buffer after the body: its one store, over the whole block. -/
def out10 (x0 x1 : Vec F S3200x128 .f32) (x2 : Vec F S3200x3 .i32) (x3 x4 : Vec F S1x288 .f32) (x5 : Vec F S288x64 .bf16)
    (x6 : Vec F S1x64 .f32) (x7 : Vec F S64x16 .bf16) (x8 x9 : Vec F S1x16 .f32) : Vec F S3200x16 .f32 :=
  View.canon [⟨rO, stored x0 x1 x2 x3 x4 x5 x6 x7 x8 x9⟩]

/-- The proof data of the pipeline on core c: the arrays as the call finds them; after the body at point t each input's
    buffer at its block and the output's at `out10` of the input blocks; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out10 (iblk m c 0 t) (iblk m c 1 t) (iblk m c 2 t) (iblk m c 3 t) (iblk m c 4 t) (iblk m c 5 t) (iblk m c 6 t)
        (iblk m c 7 t) (iblk m c 8 t) (iblk m c 9 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_10 (c : Dev nD) (t : Fin cfg0.N) : (dats m 0 c).after 10 t
    = out10 (iblk m c 0 t) (iblk m c 1 t) (iblk m c 2 t) (iblk m c 3 t) (iblk m c 4 t) (iblk m c 5 t) (iblk m c 6 t)
        (iblk m c 7 t) (iblk m c 8 t) (iblk m c 9 t) := by dsimp only [dats]

end Cert.KernelIdeal.Fr

end
-- ==== Proof.KIFrame.lean ====
/-
  The frame of the idealized kernel program, for every float family: the program's run around its one pipelined call.
  Before the call six stretches of host lines prepare the call's arrays; none of them writes an argument of the
  program, and the one line after the call writes none either. At each grid point the body reads its ten input
  blocks whole and overwrites the output block whole, so the staging buffers after the body are a closed function
  of the input blocks. From these the run of the whole program follows, and with it the frame claim: every
  argument array ends as it was launched.
-/
import proofs.«417059_j31842887533258_3_alg».proof.Proof.KIDefs
import proofs.«417059_j31842887533258_3_alg».proof.Proof.LibNary3
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its call -/
/-- No host line allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the six stretches of host lines, the call, and one more line; so, holding the unscoped buffers at
    the launch contents, it reduces to the call continued by that last line, the buffers then holding what the six
    stretches computed. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5] [hostOps1]
    ⟨hostOps0_sub, hostOps0_1_sub, hostOps0_2_sub, hostOps0_3_sub, hostOps0_4_sub, hostOps0_5_sub⟩
    ⟨hostOps0_fresh, hostOps0_1_fresh, hostOps0_2_fresh, hostOps0_3_fresh, hostOps0_4_fresh, hostOps0_5_fresh⟩ main_chain

/-- The line after the call touches only unscoped buffers: arrays of the pipeline or buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop
/-- It writes its own result only, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w
  fin_cases w <;> simp only [StableHlo.reshape_writes, Finset.mem_singleton] <;> exact StableHlo.devRef_ne_of_ne (by decide)

/-! ## The arguments are never written -/

set_option maxHeartbeats 1000000 in
/-- Argument 0 is the result of no host line before the call: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 1000000 in
/-- Argument 1 is the result of no host line before the call: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 1000000 in
/-- Argument 2 is the result of no host line before the call: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 1000000 in
/-- Argument 3 is the result of no host line before the call: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 1000000 in
/-- Argument 4 is the result of no host line before the call: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 1000000 in
/-- Argument 5 is the result of no host line before the call: the call finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 1000000 in
/-- Argument 6 is the result of no host line before the call: the call finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 1000000 in
/-- Argument 7 is the result of no host line before the call: the call finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 1000000 in
/-- Argument 8 is the result of no host line before the call: the call finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 1000000 in
/-- Argument 9 is the result of no host line before the call: the call finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Argument 0 is no array of the pipeline and not the result of the line after the call: it ends as launched. -/
theorem W_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c
/-- Argument 1 is no array of the pipeline and not the result of the line after the call: it ends as launched. -/
theorem W_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c
/-- Argument 2 is no array of the pipeline and not the result of the line after the call: it ends as launched. -/
theorem W_main_arg2 (c : Dev nD) :
    Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c
/-- Argument 3 is no array of the pipeline and not the result of the line after the call: it ends as launched. -/
theorem W_main_arg3 (c : Dev nD) :
    Pipeline.afterTail₀ cfgs (dats m) 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c
/-- Argument 4 is no array of the pipeline and not the result of the line after the call: it ends as launched. -/
theorem W_main_arg4 (c : Dev nD) :
    Pipeline.afterTail₀ cfgs (dats m) 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c
/-- Argument 5 is no array of the pipeline and not the result of the line after the call: it ends as launched. -/
theorem W_main_arg5 (c : Dev nD) :
    Pipeline.afterTail₀ cfgs (dats m) 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c
/-- Argument 6 is no array of the pipeline and not the result of the line after the call: it ends as launched. -/
theorem W_main_arg6 (c : Dev nD) :
    Pipeline.afterTail₀ cfgs (dats m) 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c
/-- Argument 7 is no array of the pipeline and not the result of the line after the call: it ends as launched. -/
theorem W_main_arg7 (c : Dev nD) :
    Pipeline.afterTail₀ cfgs (dats m) 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg7 (by exact (by decide : ∀ w, Pipeline.arrRef spec0 w ≠ main_arg7))]
  exact V_main_arg7 m c
/-- Argument 8 is no array of the pipeline and not the result of the line after the call: it ends as launched. -/
theorem W_main_arg8 (c : Dev nD) :
    Pipeline.afterTail₀ cfgs (dats m) 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg8 (by exact (by decide : ∀ w, Pipeline.arrRef spec0 w ≠ main_arg8))]
  exact V_main_arg8 m c
/-- Argument 9 is no array of the pipeline and not the result of the line after the call: it ends as launched. -/
theorem W_main_arg9 (c : Dev nD) :
    Pipeline.afterTail₀ cfgs (dats m) 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg9 (by exact (by decide : ∀ w, Pipeline.arrRef spec0 w ≠ main_arg9))]
  exact V_main_arg9 m c
/-! ## The input blocks -/

/-- Input window 0's current staging buffer holds the window's block at every point, copied in there or not: where
    no copy was made the block index has not moved since the last one. For any proof data on `V`'s arrays whose body leaves
    the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds the window's block at every point, copied in there or not: where
    no copy was made the block index has not moved since the last one. For any proof data on `V`'s arrays whose body leaves
    the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds the window's block at every point, copied in there or not: where
    no copy was made the block index has not moved since the last one. For any proof data on `V`'s arrays whose body leaves
    the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds the window's block at every point, copied in there or not: where
    no copy was made the block index has not moved since the last one. For any proof data on `V`'s arrays whose body leaves
    the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds the window's block at every point, copied in there or not: where
    no copy was made the block index has not moved since the last one. For any proof data on `V`'s arrays whose body leaves
    the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds the window's block at every point, copied in there or not: where
    no copy was made the block index has not moved since the last one. For any proof data on `V`'s arrays whose body leaves
    the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds the window's block at every point, copied in there or not: where
    no copy was made the block index has not moved since the last one. For any proof data on `V`'s arrays whose body leaves
    the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds the window's block at every point, copied in there or not: where
    no copy was made the block index has not moved since the last one. For any proof data on `V`'s arrays whose body leaves
    the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds the window's block at every point, copied in there or not: where
    no copy was made the block index has not moved since the last one. For any proof data on `V`'s arrays whose body leaves
    the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds the window's block at every point, copied in there or not: where
    no copy was made the block index has not moved since the last one. For any proof data on `V`'s arrays whose body leaves
    the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run -/

/-- From a run that ends with every buffer bypassing the pipeline at what the last host line leaves, the frame claim: each
    argument is such a buffer (unscoped, no array of a window), and the last line leaves it as launched. -/
theorem frame_of
    (h : θ_run defs (onTc (τ := τ) (main (F := F))) (s₀ m ρ) (Pipeline.FramePost cfgs (dats m) 0 (Pipeline.afterTail₀ cfgs (dats m) 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (W_main_arg0 m c),
      ((h c).2 main_arg1 (Pipeline.mem_restRefs_of main_arg1 (by decide) (by decide))).trans (W_main_arg1 m c),
      ((h c).2 main_arg2 (Pipeline.mem_restRefs_of main_arg2 (by decide) (by decide))).trans (W_main_arg2 m c),
      ((h c).2 main_arg3 (Pipeline.mem_restRefs_of main_arg3 (by decide) (by decide))).trans (W_main_arg3 m c),
      ((h c).2 main_arg4 (Pipeline.mem_restRefs_of main_arg4 (by decide) (by decide))).trans (W_main_arg4 m c),
      ((h c).2 main_arg5 (Pipeline.mem_restRefs_of main_arg5 (by decide) (by decide))).trans (W_main_arg5 m c),
      ((h c).2 main_arg6 (Pipeline.mem_restRefs_of main_arg6 (by decide) (by decide))).trans (W_main_arg6 m c),
      ((h c).2 main_arg7 (Pipeline.mem_restRefs_of main_arg7 (by decide) (by decide))).trans (W_main_arg7 m c),
      ((h c).2 main_arg8 (Pipeline.mem_restRefs_of main_arg8 (by decide) (by decide))).trans (W_main_arg8 m c),
      ((h c).2 main_arg9 (Pipeline.mem_restRefs_of main_arg9 (by decide) (by decide))).trans (W_main_arg9 m c)⟩) h

/-! ## What the body leaves in the output block -/

/-- The one store is over the whole block, so it covers it. -/
theorem cover10 (p0 : Vec F S3200x16 .f32) (y : S3200x16.Idx) :
    ∃ pc ∈ ([⟨rO, p0⟩] : List (View.Piece (Elt F) S3200x16 .f32)), y ∈ pc.1.set :=
  View.cover_of_tiled [⟨rO, p0⟩] S3200x16.size (by rfl) y

/-! ## The body's triple -/

set_option maxHeartbeats 4000000 in
/-- The body on whole staging buffers, the ten inputs' reading `x0 … x9` and the output's holding anything, runs to its
    continuation with the inputs' as they were and the output's reading `out10 x0 … x9`: it loads the ten inputs whole,
    loads the output (a value it never uses), and stores the composed payloads over the whole output. -/
theorem sound_kernel (c : Dev nD) (E : Set ℕ) (i : grid0.Coords)
    (a0 : Memref sig .tc .vmem S3200x128 .f32) (h0 : a0.IsWhole)
    (a1 : Memref sig .tc .vmem S3200x128 .f32) (h1 : a1.IsWhole)
    (a2 : Memref sig .tc .vmem S3200x3 .i32) (h2 : a2.IsWhole)
    (a3 : Memref sig .tc .vmem S1x288 .f32) (h3 : a3.IsWhole)
    (a4 : Memref sig .tc .vmem S1x288 .f32) (h4 : a4.IsWhole)
    (a5 : Memref sig .tc .vmem S288x64 .bf16) (h5 : a5.IsWhole)
    (a6 : Memref sig .tc .vmem S1x64 .f32) (h6 : a6.IsWhole)
    (a7 : Memref sig .tc .vmem S64x16 .bf16) (h7 : a7.IsWhole)
    (a8 : Memref sig .tc .vmem S1x16 .f32) (h8 : a8.IsWhole)
    (a9 : Memref sig .tc .vmem S1x16 .f32) (h9 : a9.IsWhole)
    (a10 : Memref sig .tc .vmem S3200x16 .f32) (h10 : a10.IsWhole)
    (x0 x1 : Vec F S3200x128 .f32) (x2 : Vec F S3200x3 .i32) (x3 x4 : Vec F S1x288 .f32) (x5 : Vec F S288x64 .bf16)
    (x6 : Vec F S1x64 .f32) (x7 : Vec F S64x16 .bf16) (x8 x9 : Vec F S1x16 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9
        ∗ (∃ d, owns (c : Thread nD τ) a10 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9
            ∗ owns (c : Thread nD τ) a10 fullShare (out10 x0 x1 x2 x3 x4 x5 x6 x7 x8 x9)) -∗ K ⟨⟩))
      ⊢ wp frame (wpE (defs₀ (F := F)) Variants.none c none) E (cc0_sheaf_kernel i a0 h0 a1 h1 a2 h2 a3 h3 a4 h4 a5 h5 a6 h6 a7 h7 a8 h8 a9 h9 a10 h10) K := by
  simp only [cc0_sheaf_kernel_eq_skeleton]; unfold cc0_sheaf_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover10 _)

/-! ## The proof data at a point -/

/-- After the body each input's buffer still reads its block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]

/-- Before the body each input's current buffer reads its block, copied in at this point or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation -/

/-- What the body is entered with at point `t`: the invariant, the core's debts, and each window's current staging buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What it hands back: the same, each buffer at what the proof data says the body leaves there. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
/-- The body at any point: the inputs' buffers read their blocks, so the body's triple applies at those blocks; the
    invariant and the debts pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation at every point, the windows taken one by one. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any launch memory with zero counters, every weakly fair execution of the program on the cores terminates, and in
    every final state each array of the pipeline holds what the proof data computes and every other unscoped buffer what
    the line after the call leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.KernelIdeal.Fr.run_main' depends on axioms: [propext, Classical.choice, Quot.sound] -/
#guard_msgs in #print axioms run_main

/-- The frame claim for every float family: the program terminates without fault and its ten arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (run_main m ρ)

end Cert.KernelIdeal.Fr

end
-- ==== Proof.Spec.lean ====
/-
  The function both programs compute, one edge at a time, over the extended reals.

  For edge e with endpoints r = row(e), c = col(e):
    feature row  f(e) = [ x[r, 0..127] | x[c, 0..127] | onehot8(node_type[r]) | onehot8(node_type[c]) | onehot16(edge_type[e]) ]   (288 entries)
    mean         mu   = (sum_k f_k) / 288,     variance  var = (sum_k (f_k - mu)^2) / 288
    normalised   n_k  = (f_k - mu) * rsqrt(var + eps) * w_k + b_k
    hidden       h_j  = max(sum_k n_k * W1[k, j] + b1_j, 0)                      (64 entries)
    logits       z_j  = sum_k h_k * W2[k, j] + b2_j                              (16 entries, read as a 4 x 4 matrix)
    result       out[e, g, d] = I[g, d] - exp(z[4g+d] - M_g) / sum_d' exp(z[4g+d'] - M_g),   M_g = max_d' z[4g+d'].
  A start index is read the way a gather reads it: a negative index has the extent added once, and the row is the index
  read signed and clamped into the table.
-/
import Idealize.ShloMosaic.PureOps.Ideal
import Idealize.ShloMosaic.PureOps.Ideal.Laws
import Idealize.ShloMosaic.Lib.ValueIdx

noncomputable section

namespace Cert.Sheaf

open Idealize.ShloMosaic Idealize.ShloMosaic.ValueIdx

/-- A comparison bit as a number: 1 when set, 0 when clear. -/
def ind (b : BitVec 1) : EReal := ((b.toNat : ℝ) : EReal)

/-- The bit widened to a word and read signed is the same number. -/
theorem ind_of_setWidth (b : BitVec 1) : (((b.setWidth 32).toInt : ℝ) : EReal) = ind b := by
  rcases BitVec.eq_zero_or_eq_one b with h | h <;> subst h <;> simp [ind] <;> rfl

/-- A start index with the extent added once when it is negative. -/
def wrapIdx (w : BitVec 32) : BitVec 32 :=
  if IntOp.cmpi .slt w 0#32 = 1 then IntOp.addi w 50000#32 else w

/-- The table row a start index names: read signed, clamped into [0, 49999]. -/
def rowIx (w : BitVec 32) : Fin 50000 := ⟨min w.toInt.toNat (50000 - 1), by omega⟩

/-- The 288 features of one edge: the two endpoint rows, the endpoints' node types and the edge type one-hot. -/
def feat (xr xc : Fin 128 → EReal) (nr nc et : BitVec 32) (k : Fin 288) : EReal :=
  if h1 : k.val < 128 then xr ⟨k.val, h1⟩
  else if h2 : k.val < 256 then xc ⟨k.val - 128, by omega⟩
  else if k.val < 264 then ind (IntOp.cmpi .eq nr (BitVec.ofNat 32 (k.val - 256)))
  else if k.val < 272 then ind (IntOp.cmpi .eq nc (BitVec.ofNat 32 (k.val - 264)))
  else ind (IntOp.cmpi .eq et (BitVec.ofNat 32 (k.val - 272)))

/-- 288 and the variance floor, as the words both programs carry. -/
abbrev c288 : EReal := Ideal.ofBits .f32 0x43900000#32
abbrev ceps : EReal := Ideal.ofBits .f32 0x3727C5AC#32

def mu (f : Fin 288 → EReal) : EReal := Ideal.div (∑ k, f k) c288
def var (f : Fin 288 → EReal) : EReal := Ideal.div (∑ k, (f k - mu f) * (f k - mu f)) c288
/-- The normalised feature. -/
def lnorm (f w b : Fin 288 → EReal) (k : Fin 288) : EReal :=
  (f k - mu f) * Ideal.rsqrt (var f + ceps) * w k + b k
/-- The hidden layer. -/
def hid (n : Fin 288 → EReal) (W1 : Fin 288 → Fin 64 → EReal) (b1 : Fin 64 → EReal) (j : Fin 64) : EReal :=
  max ((∑ k, n k * W1 k j) + b1 j) 0
/-- The sixteen logits. -/
def logit (h : Fin 64 → EReal) (W2 : Fin 64 → Fin 16 → EReal) (b2 : Fin 16 → EReal) (j : Fin 16) : EReal :=
  (∑ k, h k * W2 k j) + b2 j
/-- Column 4g + d of the sixteen. -/
def col16 (g d : Fin 4) : Fin 16 := ⟨4 * g.val + d.val, by omega⟩
/-- The largest of a group's four logits (the fold of max from the bottom). -/
def gmax (z : Fin 16 → EReal) (g : Fin 4) : EReal :=
  (Finset.univ : Finset (Fin 4)).fold max ⊥ (fun d => z (col16 g d))
/-- The identity matrix entry the programs build from two position tables. -/
def eye (g d : Fin 4) : EReal :=
  ind (IntOp.cmpi .eq (IntOp.addi (BitVec.ofNat 32 g.val) 0#32) (BitVec.ofNat 32 d.val))
/-- A given entry minus the softmax over a group. -/
def outCore (ey : EReal) (z : Fin 16 → EReal) (g d : Fin 4) : EReal :=
  ey - Ideal.div (Ideal.exp (z (col16 g d) - gmax z g)) (∑ d' : Fin 4, Ideal.exp (z (col16 g d') - gmax z g))
/-- Identity minus the softmax over a group. -/
def outOf (z : Fin 16 → EReal) (g d : Fin 4) : EReal := outCore (eye g d) z g d

/-- The sixteen logits of one edge from its features and the weights. -/
def zOf (f : Fin 288 → EReal) (w b : Fin 288 → EReal) (W1 : Fin 288 → Fin 64 → EReal) (b1 : Fin 64 → EReal)
    (W2 : Fin 64 → Fin 16 → EReal) (b2 : Fin 16 → EReal) : Fin 16 → EReal :=
  logit (hid (lnorm f w b) W1 b1) W2 b2

abbrev T50000x128 : Shape := ⟨2, ![50000, 128]⟩
abbrev T2x800000 : Shape := ⟨2, ![2, 800000]⟩
abbrev T800000 : Shape := ⟨1, ![800000]⟩
abbrev T50000 : Shape := ⟨1, ![50000]⟩
abbrev T288 : Shape := ⟨1, ![288]⟩
abbrev T288x64 : Shape := ⟨2, ![288, 64]⟩
abbrev T64 : Shape := ⟨1, ![64]⟩
abbrev T64x16 : Shape := ⟨2, ![64, 16]⟩
abbrev T16 : Shape := ⟨1, ![16]⟩
abbrev T800000x4x4 : Shape := ⟨3, ![800000, 4, 4]⟩
abbrev T800000x16 : Shape := ⟨2, ![800000, 16]⟩

/-- The features of edge e, read off the argument arrays. -/
def featOf (x : T50000x128.Idx → EReal) (ei : T2x800000.Idx → BitVec 32) (ety : T800000.Idx → BitVec 32)
    (nty : T50000.Idx → BitVec 32) (e : Fin 800000) : Fin 288 → EReal :=
  feat (fun k => x (ix2 (rowIx (wrapIdx (ei (ix2 (0 : Fin 2) e)))) k))
       (fun k => x (ix2 (rowIx (wrapIdx (ei (ix2 (1 : Fin 2) e)))) k))
       (nty (ix1 (rowIx (wrapIdx (ei (ix2 (0 : Fin 2) e))))))
       (nty (ix1 (rowIx (wrapIdx (ei (ix2 (1 : Fin 2) e))))))
       (ety (ix1 e))

/-- The logits of edge e. -/
def zEdge (x : T50000x128.Idx → EReal) (ei : T2x800000.Idx → BitVec 32) (ety : T800000.Idx → BitVec 32)
    (nty : T50000.Idx → BitVec 32) (w b : T288.Idx → EReal) (W1 : T288x64.Idx → EReal) (b1 : T64.Idx → EReal)
    (W2 : T64x16.Idx → EReal) (b2 : T16.Idx → EReal) (e : Fin 800000) : Fin 16 → EReal :=
  zOf (featOf x ei ety nty e) (fun k => w (ix1 k)) (fun k => b (ix1 k)) (fun k j => W1 (ix2 k j)) (fun j => b1 (ix1 j))
    (fun k j => W2 (ix2 k j)) (fun j => b2 (ix1 j))

/-- THE RESULT as a [800000, 16] table: column 4g + d of row e. -/
def G16 (x : T50000x128.Idx → EReal) (ei : T2x800000.Idx → BitVec 32) (ety : T800000.Idx → BitVec 32)
    (nty : T50000.Idx → BitVec 32) (w b : T288.Idx → EReal) (W1 : T288x64.Idx → EReal) (b1 : T64.Idx → EReal)
    (W2 : T64x16.Idx → EReal) (b2 : T16.Idx → EReal) : T800000x16.Idx → EReal :=
  fun i => outOf (zEdge x ei ety nty w b W1 b1 W2 b2 (i 0))
    (⟨(i 1).val / 4, by have h : (i 1).val < 16 := (i 1).isLt; omega⟩) (⟨(i 1).val % 4, Nat.mod_lt _ (by decide)⟩)

/-- THE RESULT as the [800000, 4, 4] array both programs return. -/
def G (x : T50000x128.Idx → EReal) (ei : T2x800000.Idx → BitVec 32) (ety : T800000.Idx → BitVec 32)
    (nty : T50000.Idx → BitVec 32) (w b : T288.Idx → EReal) (W1 : T288x64.Idx → EReal) (b1 : T64.Idx → EReal)
    (W2 : T64x16.Idx → EReal) (b2 : T16.Idx → EReal) : T800000x4x4.Idx → EReal :=
  fun i => outOf (zEdge x ei ety nty w b W1 b1 W2 b2 (i 0)) (i 1) (i 2)

end Cert.Sheaf

end
-- ==== Proof.LibGatherRows.lean ====
/-
  THE HOST'S GATHER OF WHOLE ROWS READ AT AN INDEX: operand [P, C], start indices [N, 1] with the index vector on
  axis 1, result [N, C]; offset axes [1], collapsed slice axes [0], start index map [0], slice sizes [1, C], no
  batching axes. Result element (n, ch) is the operand at row idx[n, 0], read signed and clamped into [0, P - 1], and
  column ch. The extents and the index width are variables; the dimension numbers are known only through the
  equations on their lists.
-/
import Idealize.ShloMosaic.PureOps.ShapeOps
import Idealize.ShloMosaic.Lib.ValueIdx

namespace Idealize.ShloMosaic.GatherRows

open Idealize.ShloMosaic Idealize.ShloMosaic.ValueIdx

/-! ## A list with one entry -/

/-- Every entry of a list that equals a one-entry list is that entry. -/
theorem getElem_singleton_of_eq {α : Type} {l : List α} {a : α} (h : l = [a]) (k : Nat) (hk : k < l.length) :
    l[k] = a := by
  subst h
  have hk0 : k = 0 := by simpa using hk
  subst hk0
  rfl

/-! ## The general gather: the start-indices index of a result index, axis by axis -/

section General
variable {s si t : Shape} (d : GatherDims s si t)

/-- On the index vector's axis the start-indices index has the component's number. -/
theorem siIdx_val_of_eq (j : t.Idx) (c : Fin d.startIndexMap.length) (b : Fin si.rank)
    (hb : b.val = d.indexVectorDim) : (d.siIdx j c b).val = c.val := by
  unfold GatherDims.siIdx
  rw [dif_pos hb]

/-- With one result batch axis a, the start-indices index has, off the index vector's axis, the result index's
    coordinate on a. -/
theorem siIdx_val_of_ne (j : t.Idx) (c : Fin d.startIndexMap.length) (b : Fin si.rank)
    (hb : ¬ b.val = d.indexVectorDim) (a : Fin t.rank) (ha : d.batchDims = [a]) :
    (d.siIdx j c b).val = (j a).val := by
  unfold GatherDims.siIdx
  rw [dif_neg hb]
  unfold GatherDims.siCoord
  exact congrArg (fun e => (j e).val) (getElem_singleton_of_eq ha _ _)

/-- With one offset axis b, the offset coordinate on a kept operand axis is the result index's coordinate on b. -/
theorem offCoord_of_singleton (j : t.Idx) (a : Fin s.rank) (ha : a ∈ d.sKept) (b : Fin t.rank)
    (hb : d.offsetDims = [b]) : d.offCoord j a = (j b).val := by
  unfold GatherDims.offCoord
  rw [dif_pos ha]
  exact congrArg (fun e => (j e).val) (getElem_singleton_of_eq hb _ _)

end General

/-! ## Operand [P, C], start indices [N, 1], result [N, C] -/

/-- THE GATHER READ AT (n, ch): the operand at the clamped start row and the same column. -/
theorem gather_rows_apply {α : Type} {P C N w : Nat} (hP : 0 < P)
    (d : GatherDims (⟨2, ![P, C]⟩ : Shape) (⟨2, ![N, 1]⟩ : Shape) (⟨2, ![N, C]⟩ : Shape))
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![P, C]⟩ : Shape).Idx → α) (idx : IVec (⟨2, ![N, 1]⟩ : Shape) w) (n : Fin N) (ch : Fin C) :
    Host.gather d x idx (ix2 n ch)
      = x (ix2 (⟨min (idx (ix2 n (0 : Fin 1))).toInt.toNat (P - 1), by omega⟩ : Fin P) ch) := by
  have h10 : ¬ (1 : Fin 2) = 0 := fun h => absurd (congrArg Fin.val h) Nat.one_ne_zero
  -- no operand axis is a batching axis
  have hnb : ∀ a : Fin 2, a ∉ d.operandBatchingDims := fun a h => by rw [hob] at h; exact List.not_mem_nil h
  -- axis 0 is the one start axis and is collapsed; axis 1 is the one kept axis
  have h0mem : (0 : Fin 2) ∈ d.startIndexMap := by rw [hsm]; exact List.mem_singleton.2 rfl
  have h1nmem : (1 : Fin 2) ∉ d.startIndexMap := by rw [hsm]; exact fun h => h10 (List.mem_singleton.1 h)
  have h0k : (0 : Fin 2) ∉ d.sKept := fun h =>
    ((d.mem_sKept 0).1 h).1 (by rw [hcs]; exact List.mem_singleton.2 rfl)
  have h1k : (1 : Fin 2) ∈ d.sKept :=
    (d.mem_sKept 1).2 ⟨by rw [hcs]; exact fun h => h10 (List.mem_singleton.1 h), hnb 1⟩
  -- the result's one batch axis is axis 0
  have hbd : d.batchDims = [0] := by
    show Shape.kept _ d.offsetDims = [0]
    rw [hod]; rfl
  -- the start-indices index of (n, ch) is [n, 0], whatever the component
  have hsi : ∀ c : Fin d.startIndexMap.length, d.siIdx (ix2 n ch) c = ix2 n (0 : Fin 1) := by
    intro c
    funext b
    refine Fin.ext ?_
    match b with
    | ⟨0, hb⟩ =>
      rw [siIdx_val_of_ne d (ix2 n ch) c ⟨0, hb⟩ (by rw [hiv]; exact Nat.zero_ne_one) 0 hbd]
      rfl
    | ⟨1, hb⟩ =>
      have h1 : (d.siIdx (ix2 n ch) c ⟨1, hb⟩).val < 1 := (d.siIdx (ix2 n ch) c ⟨1, hb⟩).isLt
      show (d.siIdx (ix2 n ch) c ⟨1, hb⟩).val = 0
      omega
  unfold Host.gather
  congr 1
  funext a
  refine Fin.ext ?_
  match a with
  | ⟨0, _⟩ =>
    show d.start (ix2 n ch) idx 0 + d.batchCoord (ix2 n ch) 0 + d.offCoord (ix2 n ch) 0
      = min (idx (ix2 n (0 : Fin 1))).toInt.toNat (P - 1)
    rw [d.batchCoord_eq_zero _ _ (hnb 0), d.offCoord_eq_zero _ _ h0k]
    simp only [Nat.add_zero]
    unfold GatherDims.start
    rw [dif_pos h0mem, hsi, hss]
    rfl
  | ⟨1, _⟩ =>
    show d.start (ix2 n ch) idx 1 + d.batchCoord (ix2 n ch) 1 + d.offCoord (ix2 n ch) 1 = ch.val
    rw [d.batchCoord_eq_zero _ _ (hnb 1), offCoord_of_singleton d _ _ h1k 1 hod]
    simp only [Nat.add_zero]
    unfold GatherDims.start
    rw [dif_neg h1nmem, Nat.zero_add]
    rfl

end Idealize.ShloMosaic.GatherRows
-- ==== Proof.KIHost.lean ====
/-
  What the call of the kernel finds in its ten input arrays: the launch memory after the six stretches of host lines before it,
  read at an index. The stretches are run one after another, each from the contents the one before leaves; a stretch
  keeps every array it does not write. Under the range hypothesis on the edge table (every entry signed at least 0
  and below 50000) the take's range mask is all ones, so a gathered row is the table's row at the wrapped, clamped
  start index and the fill is never selected. The stacked index table is three columns laid side by side; the
  reshaped vectors read their one coordinate; a change of float format is the identity on extended reals; the
  identity table compares the two position tables of a 4 x 4 square.
-/
import proofs.«417059_j31842887533258_3_alg».proof.Proof.KIDefs
import proofs.«417059_j31842887533258_3_alg».proof.Proof.Spec
import proofs.«417059_j31842887533258_3_alg».proof.Proof.LibGatherRows
import proofs.«417059_j31842887533258_3_alg».proof.Proof.LibNary3
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.IdealHost
import Idealize.ShloMosaic.Lib.Pipeline.Value
import Idealize.ShloMosaic.Lib.Pipeline.Frame

set_option maxRecDepth 16384

noncomputable section

namespace Cert.KernelIdeal.Host

open Idealize.ShloMosaic Idealize.ShloMosaic.TcCoe Idealize.ShloMosaic.ValueIdx
open Idealize.SL.Sem
open Idealize.ShloMosaic.StableHlo
open Cert.KernelIdeal Cert.KernelIdeal.Gen Cert.KernelIdeal.Fr
open Cert.Sheaf (ind wrapIdx rowIx eye)

section AnyFloat

variable {F : FTy → Type} [FloatOps F]
variable (m : (ℓ : Loc nD τ sig) → Buf (Elt F) ℓ) (c : Dev nD)

/-! ## The stretches, one after another -/

/-- The launch contents of core c. -/
abbrev Hin : Valuation τ sig (Elt F) := fun b => m (c, b)
/-- The contents after each stretch of host lines, in order. -/
def H0 : Valuation τ sig (Elt F) := StableHlo.after hostOps0 (Hin m c)
def H1 : Valuation τ sig (Elt F) := StableHlo.after hostOps0_1 (H0 m c)
def H2 : Valuation τ sig (Elt F) := StableHlo.after hostOps0_2 (H1 m c)
def H3 : Valuation τ sig (Elt F) := StableHlo.after hostOps0_3 (H2 m c)
def H4 : Valuation τ sig (Elt F) := StableHlo.after hostOps0_4 (H3 m c)
def H5 : Valuation τ sig (Elt F) := StableHlo.after hostOps0_5 (H4 m c)

/-- The contents the call finds are the last stretch's. -/
theorem V0_eq : V0 m c = H5 m c := by
  unfold H5 H4 H3 H2 H1 H0
  dsimp only [V0]
  simp only [List.flatten_cons, List.flatten_nil, List.append_nil, StableHlo.after_append]

/-! ## The take, as pure functions of a table and a vector of start indices -/

/-- The start indices with the extent added once to a negative one, as a column. -/
def wrapCol (v : S800000.Idx → BitVec 32) : S800000x1.Idx → BitVec 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The bit "the wrapped index lies in [0, 49999]", per start index. -/
def inRange (v5 : S800000x1.Idx → BitVec 32) : S800000.Idx → BitVec 1 :=
  Host.reduce IntOp.andi
    (andi (cmpi .sge v5 (broadcastInDim S800000x1 ![] bcast_S_S800000x1 (constantI S_ 32 0#32)))
      (cmpi .sle v5 (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- Rows of a [50000, 128] table taken at a vector of start indices; a row whose index is out of range is filled. -/
def takeRows (x : FVec F S50000x128 .f32) (v : S800000.Idx → BitVec 32) : FVec F S800000x128 .f32 :=
  select (broadcastInDim S800000x128 ![0] bcast_S800000_S800000x128_0 (inRange (wrapCol v)))
    (Host.gather gather_S50000x128_S800000x1_S800000x128_1_0_n_n_0_1_1128 x (wrapCol v))
    (broadcastInDim S800000x128 ![] bcast_S_S800000x128 (constant (F := F) S_ .f32 0x7FC00000#32))

/-- Entries of a [50000] table taken at a vector of start indices; an entry whose index is out of range is filled. -/
def takeVec (t : S50000.Idx → BitVec 32) (v : S800000.Idx → BitVec 32) : S800000.Idx → BitVec 32 :=
  select (inRange (wrapCol v))
    (Host.gather gather_S50000_S800000x1_S800000_n_0_n_n_0_1_1 t (wrapCol v))
    (broadcastInDim S800000 ![] bcast_S_S800000 (constantI S_ 32 2147483648#32))

/-! ## The four takes: each stretch cut after its range mask -/

theorem pre1_v5 (W : Valuation τ sig (Elt F)) :
    (StableHlo.after ((hostOps0_1 (F := F)).take 18) W (Proc.devRef .tc main_call0_v5) : IVec S800000x1 32) = wrapCol (W (Proc.devRef .tc main_v1)) := by
  simp only [hostOps0_1, List.take_succ_cons, List.take_zero]
  after_results_simp
  simp only [TRef.ofBuf, TRef.toBuf, cast_eq]
  rfl

theorem pre1_v12 (W : Valuation τ sig (Elt F)) :
    (StableHlo.after ((hostOps0_1 (F := F)).take 18) W (Proc.devRef .tc main_call0_v12) : IVec S800000 1) = inRange (wrapCol (W (Proc.devRef .tc main_v1))) := by
  simp only [hostOps0_1, List.take_succ_cons, List.take_zero]
  after_results_simp
  simp only [TRef.ofBuf, TRef.toBuf, cast_eq]
  rfl

theorem pre1_tbl (W : Valuation τ sig (Elt F)) :
    StableHlo.after ((hostOps0_1 (F := F)).take 18) W (Proc.devRef .tc main_arg0) = W (Proc.devRef .tc main_arg0) := by
  simp only [hostOps0_1, List.take_succ_cons, List.take_zero]
  after_results_simp

theorem tail1 (W : Valuation τ sig (Elt F)) :
    (StableHlo.after ((hostOps0_1 (F := F)).drop 18) W (Proc.devRef .tc main_v4) : FVec F S800000x128 .f32)
      = select (broadcastInDim S800000x128 ![0] bcast_S800000_S800000x128_0 (W (Proc.devRef .tc main_call0_v12)))
        (Host.gather gather_S50000x128_S800000x1_S800000x128_1_0_n_n_0_1_1128 (W (Proc.devRef .tc main_arg0)) (W (Proc.devRef .tc main_call0_v5)))
        (broadcastInDim S800000x128 ![] bcast_S_S800000x128 (constant (F := F) S_ .f32 0x7FC00000#32)) := by
  simp only [hostOps0_1, List.drop_succ_cons, List.drop_zero]
  after_results_simp
  rfl

theorem H1_out : (H1 m c (Proc.devRef .tc main_v4) : FVec F S800000x128 .f32) = takeRows (H0 m c (Proc.devRef .tc main_arg0)) (H0 m c (Proc.devRef .tc main_v1)) := by
  unfold H1
  generalize H0 m c = W
  rw [← List.take_append_drop 18 (hostOps0_1 (F := F)), StableHlo.after_append]
  refine (tail1 _).trans ?_
  rw [pre1_v12, pre1_v5, pre1_tbl]
  rfl

theorem pre2_v5 (W : Valuation τ sig (Elt F)) :
    (StableHlo.after ((hostOps0_2 (F := F)).take 18) W (Proc.devRef .tc main_call1_v5) : IVec S800000x1 32) = wrapCol (W (Proc.devRef .tc main_v3)) := by
  simp only [hostOps0_2, List.take_succ_cons, List.take_zero]
  after_results_simp
  simp only [TRef.ofBuf, TRef.toBuf, cast_eq]
  rfl

theorem pre2_v12 (W : Valuation τ sig (Elt F)) :
    (StableHlo.after ((hostOps0_2 (F := F)).take 18) W (Proc.devRef .tc main_call1_v12) : IVec S800000 1) = inRange (wrapCol (W (Proc.devRef .tc main_v3))) := by
  simp only [hostOps0_2, List.take_succ_cons, List.take_zero]
  after_results_simp
  simp only [TRef.ofBuf, TRef.toBuf, cast_eq]
  rfl

theorem pre2_tbl (W : Valuation τ sig (Elt F)) :
    StableHlo.after ((hostOps0_2 (F := F)).take 18) W (Proc.devRef .tc main_arg0) = W (Proc.devRef .tc main_arg0) := by
  simp only [hostOps0_2, List.take_succ_cons, List.take_zero]
  after_results_simp

theorem tail2 (W : Valuation τ sig (Elt F)) :
    (StableHlo.after ((hostOps0_2 (F := F)).drop 18) W (Proc.devRef .tc main_v5) : FVec F S800000x128 .f32)
      = select (broadcastInDim S800000x128 ![0] bcast_S800000_S800000x128_0 (W (Proc.devRef .tc main_call1_v12)))
        (Host.gather gather_S50000x128_S800000x1_S800000x128_1_0_n_n_0_1_1128 (W (Proc.devRef .tc main_arg0)) (W (Proc.devRef .tc main_call1_v5)))
        (broadcastInDim S800000x128 ![] bcast_S_S800000x128 (constant (F := F) S_ .f32 0x7FC00000#32)) := by
  simp only [hostOps0_2, List.drop_succ_cons, List.drop_zero]
  after_results_simp
  rfl

theorem H2_out : (H2 m c (Proc.devRef .tc main_v5) : FVec F S800000x128 .f32) = takeRows (H1 m c (Proc.devRef .tc main_arg0)) (H1 m c (Proc.devRef .tc main_v3)) := by
  unfold H2
  generalize H1 m c = W
  rw [← List.take_append_drop 18 (hostOps0_2 (F := F)), StableHlo.after_append]
  refine (tail2 _).trans ?_
  rw [pre2_v12, pre2_v5, pre2_tbl]
  rfl

theorem pre3_v5 (W : Valuation τ sig (Elt F)) :
    (StableHlo.after ((hostOps0_3 (F := F)).take 18) W (Proc.devRef .tc main_call2_v5) : IVec S800000x1 32) = wrapCol (W (Proc.devRef .tc main_v1)) := by
  simp only [hostOps0_3, List.take_succ_cons, List.take_zero]
  after_results_simp
  simp only [TRef.ofBuf, TRef.toBuf, cast_eq]
  rfl

theorem pre3_v12 (W : Valuation τ sig (Elt F)) :
    (StableHlo.after ((hostOps0_3 (F := F)).take 18) W (Proc.devRef .tc main_call2_v12) : IVec S800000 1) = inRange (wrapCol (W (Proc.devRef .tc main_v1))) := by
  simp only [hostOps0_3, List.take_succ_cons, List.take_zero]
  after_results_simp
  simp only [TRef.ofBuf, TRef.toBuf, cast_eq]
  rfl

theorem pre3_tbl (W : Valuation τ sig (Elt F)) :
    StableHlo.after ((hostOps0_3 (F := F)).take 18) W (Proc.devRef .tc main_arg3) = W (Proc.devRef .tc main_arg3) := by
  simp only [hostOps0_3, List.take_succ_cons, List.take_zero]
  after_results_simp

theorem tail3 (W : Valuation τ sig (Elt F)) :
    (StableHlo.after ((hostOps0_3 (F := F)).drop 18) W (Proc.devRef .tc main_v6) : IVec S800000 32)
      = select (W (Proc.devRef .tc main_call2_v12))
        (Host.gather gather_S50000_S800000x1_S800000_n_0_n_n_0_1_1 (W (Proc.devRef .tc main_arg3)) (W (Proc.devRef .tc main_call2_v5)))
        (broadcastInDim S800000 ![] bcast_S_S800000 (constantI S_ 32 2147483648#32)) := by
  simp only [hostOps0_3, List.drop_succ_cons, List.drop_zero]
  after_results_simp
  rfl

theorem H3_out : (H3 m c (Proc.devRef .tc main_v6) : IVec S800000 32) = takeVec (H2 m c (Proc.devRef .tc main_arg3)) (H2 m c (Proc.devRef .tc main_v1)) := by
  unfold H3
  generalize H2 m c = W
  rw [← List.take_append_drop 18 (hostOps0_3 (F := F)), StableHlo.after_append]
  refine (tail3 _).trans ?_
  rw [pre3_v12, pre3_v5, pre3_tbl]
  rfl

theorem pre4_v5 (W : Valuation τ sig (Elt F)) :
    (StableHlo.after ((hostOps0_4 (F := F)).take 18) W (Proc.devRef .tc main_call3_v5) : IVec S800000x1 32) = wrapCol (W (Proc.devRef .tc main_v3)) := by
  simp only [hostOps0_4, List.take_succ_cons, List.take_zero]
  after_results_simp
  simp only [TRef.ofBuf, TRef.toBuf, cast_eq]
  rfl

theorem pre4_v12 (W : Valuation τ sig (Elt F)) :
    (StableHlo.after ((hostOps0_4 (F := F)).take 18) W (Proc.devRef .tc main_call3_v12) : IVec S800000 1) = inRange (wrapCol (W (Proc.devRef .tc main_v3))) := by
  simp only [hostOps0_4, List.take_succ_cons, List.take_zero]
  after_results_simp
  simp only [TRef.ofBuf, TRef.toBuf, cast_eq]
  rfl

theorem pre4_tbl (W : Valuation τ sig (Elt F)) :
    StableHlo.after ((hostOps0_4 (F := F)).take 18) W (Proc.devRef .tc main_arg3) = W (Proc.devRef .tc main_arg3) := by
  simp only [hostOps0_4, List.take_succ_cons, List.take_zero]
  after_results_simp

theorem tail4 (W : Valuation τ sig (Elt F)) :
    (StableHlo.after ((hostOps0_4 (F := F)).drop 18) W (Proc.devRef .tc main_v7) : IVec S800000 32)
      = select (W (Proc.devRef .tc main_call3_v12))
        (Host.gather gather_S50000_S800000x1_S800000_n_0_n_n_0_1_1 (W (Proc.devRef .tc main_arg3)) (W (Proc.devRef .tc main_call3_v5)))
        (broadcastInDim S800000 ![] bcast_S_S800000 (constantI S_ 32 2147483648#32)) := by
  simp only [hostOps0_4, List.drop_succ_cons, List.drop_zero]
  after_results_simp
  rfl

theorem H4_out : (H4 m c (Proc.devRef .tc main_v7) : IVec S800000 32) = takeVec (H3 m c (Proc.devRef .tc main_arg3)) (H3 m c (Proc.devRef .tc main_v3)) := by
  unfold H4
  generalize H3 m c = W
  rw [← List.take_append_drop 18 (hostOps0_4 (F := F)), StableHlo.after_append]
  refine (tail4 _).trans ?_
  rw [pre4_v12, pre4_v5, pre4_tbl]
  rfl

/-! ## What a stretch does not write it keeps -/

theorem keep0_arg0 : H0 m c (Proc.devRef .tc main_arg0) = Hin m c (Proc.devRef .tc main_arg0) := by
  unfold H0
  simp only [hostOps0]
  after_results_simp

theorem keep0_arg2 : H0 m c (Proc.devRef .tc main_arg2) = Hin m c (Proc.devRef .tc main_arg2) := by
  unfold H0
  simp only [hostOps0]
  after_results_simp

theorem keep0_arg3 : H0 m c (Proc.devRef .tc main_arg3) = Hin m c (Proc.devRef .tc main_arg3) := by
  unfold H0
  simp only [hostOps0]
  after_results_simp

theorem keep0_arg4 : H0 m c (Proc.devRef .tc main_arg4) = Hin m c (Proc.devRef .tc main_arg4) := by
  unfold H0
  simp only [hostOps0]
  after_results_simp

theorem keep0_arg5 : H0 m c (Proc.devRef .tc main_arg5) = Hin m c (Proc.devRef .tc main_arg5) := by
  unfold H0
  simp only [hostOps0]
  after_results_simp

theorem keep0_arg6 : H0 m c (Proc.devRef .tc main_arg6) = Hin m c (Proc.devRef .tc main_arg6) := by
  unfold H0
  simp only [hostOps0]
  after_results_simp

theorem keep0_arg7 : H0 m c (Proc.devRef .tc main_arg7) = Hin m c (Proc.devRef .tc main_arg7) := by
  unfold H0
  simp only [hostOps0]
  after_results_simp

theorem keep0_arg8 : H0 m c (Proc.devRef .tc main_arg8) = Hin m c (Proc.devRef .tc main_arg8) := by
  unfold H0
  simp only [hostOps0]
  after_results_simp

theorem keep0_arg9 : H0 m c (Proc.devRef .tc main_arg9) = Hin m c (Proc.devRef .tc main_arg9) := by
  unfold H0
  simp only [hostOps0]
  after_results_simp

theorem keep1_arg0 : H1 m c (Proc.devRef .tc main_arg0) = H0 m c (Proc.devRef .tc main_arg0) := by
  unfold H1
  generalize H0 m c = W
  simp only [hostOps0_1]
  after_results_simp

theorem keep1_arg2 : H1 m c (Proc.devRef .tc main_arg2) = H0 m c (Proc.devRef .tc main_arg2) := by
  unfold H1
  generalize H0 m c = W
  simp only [hostOps0_1]
  after_results_simp

theorem keep1_arg3 : H1 m c (Proc.devRef .tc main_arg3) = H0 m c (Proc.devRef .tc main_arg3) := by
  unfold H1
  generalize H0 m c = W
  simp only [hostOps0_1]
  after_results_simp

theorem keep1_arg4 : H1 m c (Proc.devRef .tc main_arg4) = H0 m c (Proc.devRef .tc main_arg4) := by
  unfold H1
  generalize H0 m c = W
  simp only [hostOps0_1]
  after_results_simp

theorem keep1_arg5 : H1 m c (Proc.devRef .tc main_arg5) = H0 m c (Proc.devRef .tc main_arg5) := by
  unfold H1
  generalize H0 m c = W
  simp only [hostOps0_1]
  after_results_simp

theorem keep1_arg6 : H1 m c (Proc.devRef .tc main_arg6) = H0 m c (Proc.devRef .tc main_arg6) := by
  unfold H1
  generalize H0 m c = W
  simp only [hostOps0_1]
  after_results_simp

theorem keep1_arg7 : H1 m c (Proc.devRef .tc main_arg7) = H0 m c (Proc.devRef .tc main_arg7) := by
  unfold H1
  generalize H0 m c = W
  simp only [hostOps0_1]
  after_results_simp

theorem keep1_arg8 : H1 m c (Proc.devRef .tc main_arg8) = H0 m c (Proc.devRef .tc main_arg8) := by
  unfold H1
  generalize H0 m c = W
  simp only [hostOps0_1]
  after_results_simp

theorem keep1_arg9 : H1 m c (Proc.devRef .tc main_arg9) = H0 m c (Proc.devRef .tc main_arg9) := by
  unfold H1
  generalize H0 m c = W
  simp only [hostOps0_1]
  after_results_simp

theorem keep1_v1 : H1 m c (Proc.devRef .tc main_v1) = H0 m c (Proc.devRef .tc main_v1) := by
  unfold H1
  generalize H0 m c = W
  simp only [hostOps0_1]
  after_results_simp

theorem keep1_v3 : H1 m c (Proc.devRef .tc main_v3) = H0 m c (Proc.devRef .tc main_v3) := by
  unfold H1
  generalize H0 m c = W
  simp only [hostOps0_1]
  after_results_simp

theorem keep2_v4 : H2 m c (Proc.devRef .tc main_v4) = H1 m c (Proc.devRef .tc main_v4) := by
  unfold H2
  generalize H1 m c = W
  simp only [hostOps0_2]
  after_results_simp

theorem keep2_arg2 : H2 m c (Proc.devRef .tc main_arg2) = H1 m c (Proc.devRef .tc main_arg2) := by
  unfold H2
  generalize H1 m c = W
  simp only [hostOps0_2]
  after_results_simp

theorem keep2_arg3 : H2 m c (Proc.devRef .tc main_arg3) = H1 m c (Proc.devRef .tc main_arg3) := by
  unfold H2
  generalize H1 m c = W
  simp only [hostOps0_2]
  after_results_simp

theorem keep2_arg4 : H2 m c (Proc.devRef .tc main_arg4) = H1 m c (Proc.devRef .tc main_arg4) := by
  unfold H2
  generalize H1 m c = W
  simp only [hostOps0_2]
  after_results_simp

theorem keep2_arg5 : H2 m c (Proc.devRef .tc main_arg5) = H1 m c (Proc.devRef .tc main_arg5) := by
  unfold H2
  generalize H1 m c = W
  simp only [hostOps0_2]
  after_results_simp

theorem keep2_arg6 : H2 m c (Proc.devRef .tc main_arg6) = H1 m c (Proc.devRef .tc main_arg6) := by
  unfold H2
  generalize H1 m c = W
  simp only [hostOps0_2]
  after_results_simp

theorem keep2_arg7 : H2 m c (Proc.devRef .tc main_arg7) = H1 m c (Proc.devRef .tc main_arg7) := by
  unfold H2
  generalize H1 m c = W
  simp only [hostOps0_2]
  after_results_simp

theorem keep2_arg8 : H2 m c (Proc.devRef .tc main_arg8) = H1 m c (Proc.devRef .tc main_arg8) := by
  unfold H2
  generalize H1 m c = W
  simp only [hostOps0_2]
  after_results_simp

theorem keep2_arg9 : H2 m c (Proc.devRef .tc main_arg9) = H1 m c (Proc.devRef .tc main_arg9) := by
  unfold H2
  generalize H1 m c = W
  simp only [hostOps0_2]
  after_results_simp

theorem keep2_v1 : H2 m c (Proc.devRef .tc main_v1) = H1 m c (Proc.devRef .tc main_v1) := by
  unfold H2
  generalize H1 m c = W
  simp only [hostOps0_2]
  after_results_simp

theorem keep2_v3 : H2 m c (Proc.devRef .tc main_v3) = H1 m c (Proc.devRef .tc main_v3) := by
  unfold H2
  generalize H1 m c = W
  simp only [hostOps0_2]
  after_results_simp

theorem keep3_v4 : H3 m c (Proc.devRef .tc main_v4) = H2 m c (Proc.devRef .tc main_v4) := by
  unfold H3
  generalize H2 m c = W
  simp only [hostOps0_3]
  after_results_simp

theorem keep3_v5 : H3 m c (Proc.devRef .tc main_v5) = H2 m c (Proc.devRef .tc main_v5) := by
  unfold H3
  generalize H2 m c = W
  simp only [hostOps0_3]
  after_results_simp

theorem keep3_arg2 : H3 m c (Proc.devRef .tc main_arg2) = H2 m c (Proc.devRef .tc main_arg2) := by
  unfold H3
  generalize H2 m c = W
  simp only [hostOps0_3]
  after_results_simp

theorem keep3_arg3 : H3 m c (Proc.devRef .tc main_arg3) = H2 m c (Proc.devRef .tc main_arg3) := by
  unfold H3
  generalize H2 m c = W
  simp only [hostOps0_3]
  after_results_simp

theorem keep3_arg4 : H3 m c (Proc.devRef .tc main_arg4) = H2 m c (Proc.devRef .tc main_arg4) := by
  unfold H3
  generalize H2 m c = W
  simp only [hostOps0_3]
  after_results_simp

theorem keep3_arg5 : H3 m c (Proc.devRef .tc main_arg5) = H2 m c (Proc.devRef .tc main_arg5) := by
  unfold H3
  generalize H2 m c = W
  simp only [hostOps0_3]
  after_results_simp

theorem keep3_arg6 : H3 m c (Proc.devRef .tc main_arg6) = H2 m c (Proc.devRef .tc main_arg6) := by
  unfold H3
  generalize H2 m c = W
  simp only [hostOps0_3]
  after_results_simp

theorem keep3_arg7 : H3 m c (Proc.devRef .tc main_arg7) = H2 m c (Proc.devRef .tc main_arg7) := by
  unfold H3
  generalize H2 m c = W
  simp only [hostOps0_3]
  after_results_simp

theorem keep3_arg8 : H3 m c (Proc.devRef .tc main_arg8) = H2 m c (Proc.devRef .tc main_arg8) := by
  unfold H3
  generalize H2 m c = W
  simp only [hostOps0_3]
  after_results_simp

theorem keep3_arg9 : H3 m c (Proc.devRef .tc main_arg9) = H2 m c (Proc.devRef .tc main_arg9) := by
  unfold H3
  generalize H2 m c = W
  simp only [hostOps0_3]
  after_results_simp

theorem keep3_v3 : H3 m c (Proc.devRef .tc main_v3) = H2 m c (Proc.devRef .tc main_v3) := by
  unfold H3
  generalize H2 m c = W
  simp only [hostOps0_3]
  after_results_simp

theorem keep4_v4 : H4 m c (Proc.devRef .tc main_v4) = H3 m c (Proc.devRef .tc main_v4) := by
  unfold H4
  generalize H3 m c = W
  simp only [hostOps0_4]
  after_results_simp

theorem keep4_v5 : H4 m c (Proc.devRef .tc main_v5) = H3 m c (Proc.devRef .tc main_v5) := by
  unfold H4
  generalize H3 m c = W
  simp only [hostOps0_4]
  after_results_simp

theorem keep4_v6 : H4 m c (Proc.devRef .tc main_v6) = H3 m c (Proc.devRef .tc main_v6) := by
  unfold H4
  generalize H3 m c = W
  simp only [hostOps0_4]
  after_results_simp

theorem keep4_arg2 : H4 m c (Proc.devRef .tc main_arg2) = H3 m c (Proc.devRef .tc main_arg2) := by
  unfold H4
  generalize H3 m c = W
  simp only [hostOps0_4]
  after_results_simp

theorem keep4_arg4 : H4 m c (Proc.devRef .tc main_arg4) = H3 m c (Proc.devRef .tc main_arg4) := by
  unfold H4
  generalize H3 m c = W
  simp only [hostOps0_4]
  after_results_simp

theorem keep4_arg5 : H4 m c (Proc.devRef .tc main_arg5) = H3 m c (Proc.devRef .tc main_arg5) := by
  unfold H4
  generalize H3 m c = W
  simp only [hostOps0_4]
  after_results_simp

theorem keep4_arg6 : H4 m c (Proc.devRef .tc main_arg6) = H3 m c (Proc.devRef .tc main_arg6) := by
  unfold H4
  generalize H3 m c = W
  simp only [hostOps0_4]
  after_results_simp

theorem keep4_arg7 : H4 m c (Proc.devRef .tc main_arg7) = H3 m c (Proc.devRef .tc main_arg7) := by
  unfold H4
  generalize H3 m c = W
  simp only [hostOps0_4]
  after_results_simp

theorem keep4_arg8 : H4 m c (Proc.devRef .tc main_arg8) = H3 m c (Proc.devRef .tc main_arg8) := by
  unfold H4
  generalize H3 m c = W
  simp only [hostOps0_4]
  after_results_simp

theorem keep4_arg9 : H4 m c (Proc.devRef .tc main_arg9) = H3 m c (Proc.devRef .tc main_arg9) := by
  unfold H4
  generalize H3 m c = W
  simp only [hostOps0_4]
  after_results_simp

theorem keep5_v4 : H5 m c (Proc.devRef .tc main_v4) = H4 m c (Proc.devRef .tc main_v4) := by
  unfold H5
  generalize H4 m c = W
  simp only [hostOps0_5]
  after_results_simp

theorem keep5_v5 : H5 m c (Proc.devRef .tc main_v5) = H4 m c (Proc.devRef .tc main_v5) := by
  unfold H5
  generalize H4 m c = W
  simp only [hostOps0_5]
  after_results_simp

/-! ## The two rows of the edge table, as vectors -/

theorem H0_v1 : (H0 m c (Proc.devRef .tc main_v1) : IVec S800000 32)
    = shapeCast S800000 (extractStridedSlice S1x800000 ![0, 0] (Hin m c (Proc.devRef .tc main_arg1)) slices_S2x800000_S1x800000_0_0) shapeCasts_S1x800000_S800000 := by
  unfold H0
  simp only [hostOps0]
  after_results_simp
  rfl

theorem H0_v3 : (H0 m c (Proc.devRef .tc main_v3) : IVec S800000 32)
    = shapeCast S800000 (extractStridedSlice S1x800000 ![1, 0] (Hin m c (Proc.devRef .tc main_arg1)) slices_S2x800000_S1x800000_1_0) shapeCasts_S1x800000_S800000 := by
  unfold H0
  simp only [hostOps0]
  after_results_simp
  rfl

/-! ## The last stretch: the stacked index table, the reshaped vectors, the narrowed weights, the identity table -/

theorem H5_v11 : (H5 m c (Proc.devRef .tc main_v11) : IVec S800000x3 32)
    = concatenate S800000x3 1
        [⟨S800000x1, broadcastInDim S800000x1 ![0] bcast_S800000_S800000x1_0 (H4 m c (Proc.devRef .tc main_v6))⟩,
         ⟨S800000x1, broadcastInDim S800000x1 ![0] bcast_S800000_S800000x1_0 (H4 m c (Proc.devRef .tc main_v7))⟩,
         ⟨S800000x1, broadcastInDim S800000x1 ![0] bcast_S800000_S800000x1_0 (H4 m c (Proc.devRef .tc main_arg2))⟩]
        concatenates_S800000x1_S800000x1_S800000x1_S800000x3_d1 := by
  unfold H5
  generalize H4 m c = W
  simp only [hostOps0_5]
  simp (disch := decide) only [after_cons, after_nil,
    nullary_result', unary_result', binary_result', ternary_result', reshape_result', nary3_result',
    nullary_result_ne', unary_result_ne', binary_result_ne', ternary_result_ne', reshape_result_ne', nary_result_ne']
  rfl

theorem H5_v12 : (H5 m c (Proc.devRef .tc main_v12) : FVec F S1x288 .f32)
    = shapeCast S1x288 (H4 m c (Proc.devRef .tc main_arg4)) shapeCasts_S288_S1x288 := by
  unfold H5
  generalize H4 m c = W
  simp only [hostOps0_5]
  after_results_simp
  rfl

theorem H5_v13 : (H5 m c (Proc.devRef .tc main_v13) : FVec F S1x288 .f32)
    = shapeCast S1x288 (H4 m c (Proc.devRef .tc main_arg5)) shapeCasts_S288_S1x288 := by
  unfold H5
  generalize H4 m c = W
  simp only [hostOps0_5]
  after_results_simp
  rfl

theorem H5_v14 : (H5 m c (Proc.devRef .tc main_v14) : FVec F S1x64 .f32)
    = shapeCast S1x64 (H4 m c (Proc.devRef .tc main_arg7)) shapeCasts_S64_S1x64 := by
  unfold H5
  generalize H4 m c = W
  simp only [hostOps0_5]
  after_results_simp
  rfl

theorem H5_v15 : (H5 m c (Proc.devRef .tc main_v15) : FVec F S1x16 .f32)
    = shapeCast S1x16 (H4 m c (Proc.devRef .tc main_arg9)) shapeCasts_S16_S1x16 := by
  unfold H5
  generalize H4 m c = W
  simp only [hostOps0_5]
  after_results_simp
  rfl

theorem H5_v16 : (H5 m c (Proc.devRef .tc main_v16) : FVec F S288x64 .bf16)
    = truncf .bf16 (H4 m c (Proc.devRef .tc main_arg6) : FVec F S288x64 .f32) bitsLt_bf16_f32 := by
  unfold H5
  generalize H4 m c = W
  simp only [hostOps0_5]
  after_results_simp

theorem H5_v17 : (H5 m c (Proc.devRef .tc main_v17) : FVec F S64x16 .bf16)
    = truncf .bf16 (H4 m c (Proc.devRef .tc main_arg8) : FVec F S64x16 .f32) bitsLt_bf16_f32 := by
  unfold H5
  generalize H4 m c = W
  simp only [hostOps0_5]
  after_results_simp

theorem H5_v24 : (H5 m c (Proc.devRef .tc main_v24) : FVec F S1x16 .f32)
    = shapeCast S1x16 (uitofp (F := F) .f32 (cmpi .eq (addi (iotaInDim S4x4 32 0) (broadcastInDim S4x4 ![] bcast_S_S4x4 (constantI S_ 32 0#32))) (iotaInDim S4x4 32 1))) shapeCasts_S4x4_S1x16 := by
  unfold H5
  generalize H4 m c = W
  simp only [hostOps0_5]
  after_results_simp
  rfl

end AnyFloat

section AtIdeal

variable (m : (ℓ : Loc nD τ sig) → Buf (Elt Ideal) ℓ) (c : Dev nD)

/-! ## Words in range -/

private theorem toInt_w0 : (0#32 : BitVec 32).toInt = 0 := by decide
private theorem toInt_w50000 : (50000#32 : BitVec 32).toInt = 50000 := by decide
private theorem toInt_w49999 : (49999#32 : BitVec 32).toInt = 49999 := by decide

/-- A word that is signed at least 0 and below 50000 is not wrapped, and lies in [0, 49999]. -/
theorem word_range {w : BitVec 32} (h1 : IntOp.cmpi .sge w 0#32 = 1#1) (h2 : IntOp.cmpi .slt w 50000#32 = 1#1) :
    wrapIdx w = w ∧ IntOp.andi (IntOp.cmpi .sge w 0#32) (IntOp.cmpi .sle w 49999#32) = 1#1 := by
  have a1 : 0 ≤ w.toInt := by
    simpa only [IntOp.cmpi, Predicate.ofBool_eq_one_iff, BitVec.sle, toInt_w0, decide_eq_true_eq] using h1
  have a2 : w.toInt < 50000 := by
    simpa only [IntOp.cmpi, Predicate.ofBool_eq_one_iff, BitVec.slt, toInt_w50000, decide_eq_true_eq] using h2
  have b1 : IntOp.cmpi .slt w 0#32 = 0#1 := by
    have : w.slt 0#32 = false := by
      simp only [BitVec.slt, toInt_w0, decide_eq_false_iff_not]; omega
    simp only [IntOp.cmpi, this]; rfl
  have b2 : IntOp.cmpi .sle w 49999#32 = 1#1 := by
    have : w.sle 49999#32 = true := by
      simp only [BitVec.sle, toInt_w49999, decide_eq_true_eq]; omega
    simp only [IntOp.cmpi, this]; rfl
  refine ⟨?_, ?_⟩
  · unfold wrapIdx; rw [b1]; exact if_neg (by decide)
  · rw [h1, b2]; decide

/-! ## A reduction by "and" of all ones -/

theorem foldl_andi_one {ι : Type} (f : ι → BitVec 1) (hf : ∀ n, f n = 1#1) :
    ∀ l : List ι, l.foldl (fun r n => IntOp.andi r (f n)) 1#1 = 1#1
  | [] => rfl
  | a :: l => by
    show List.foldl (fun r n => IntOp.andi r (f n)) (IntOp.andi 1#1 (f a)) l = 1#1
    rw [hf a, show IntOp.andi (1#1 : BitVec 1) 1#1 = 1#1 from by decide]
    exact foldl_andi_one f hf l

/-- A reduction by "and" from 1 over entries that are all 1 is 1. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  unfold Host.reduce
  rw [hi]
  exact foldl_andi_one (fun n => x (s.rowMajor.symm n)) (fun n => hx _) _

/-! ## The take read at an index -/

theorem ofFin_eq_ix1 {n : Nat} (p : Fin n) : Shape.Idx.ofFin p = ix1 p := by
  funext a; match a with | ⟨0, _⟩ => exact Fin.ext rfl

theorem ixP_eq_ix2 {n : Nat} (p : Fin n) : Predicate.ixP p = ix2 p (0 : Fin 1) := by
  funext a; match a with | ⟨0, _⟩ => rfl | ⟨1, _⟩ => rfl

/-- The wrapped column at row p is the wrapped start index p. -/
theorem wrapCol_apply (v : S800000.Idx → BitVec 32) (p : Fin 800000) (q : Fin 1) :
    wrapCol v (ix2 p q) = wrapIdx (v (ix1 p)) := by
  unfold wrapCol
  refine (broadcastInDim_apply _ _ _ (ix2 p q) (ix1 p) (fun a => ?_)).trans rfl
  match a with | ⟨0, _⟩ => rfl

/-- Under the range hypotheses every start index is in range. -/
theorem inRange_one (v : S800000.Idx → BitVec 32)
    (hv : ∀ p : Fin 800000, IntOp.cmpi .sge (v (ix1 p)) 0#32 = 1#1 ∧ IntOp.cmpi .slt (v (ix1 p)) 50000#32 = 1#1)
    (j : S800000.Idx) : inRange (wrapCol v) j = 1#1 := by
  unfold inRange
  refine reduce_andi_one _ _ _ _ (fun i => ?_) (fun _ => rfl) j
  obtain ⟨p, q, rfl⟩ : ∃ (p : Fin 800000) (q : Fin 1), i = ix2 p q := ⟨i 0, i 1, eq_ix2 i⟩
  show IntOp.andi (IntOp.cmpi .sge (wrapCol v (ix2 p q)) 0#32) (IntOp.cmpi .sle (wrapCol v (ix2 p q)) 49999#32) = 1#1
  have hw := word_range (hv p).1 (hv p).2
  rw [wrapCol_apply, hw.1]
  exact hw.2

/-- Rows taken at in-range start indices: row e is the table's row at the wrapped, clamped index e. -/
theorem takeRows_apply (x : S50000x128.Idx → EReal) (v : S800000.Idx → BitVec 32)
    (hv : ∀ p : Fin 800000, IntOp.cmpi .sge (v (ix1 p)) 0#32 = 1#1 ∧ IntOp.cmpi .slt (v (ix1 p)) 50000#32 = 1#1)
    (e : Fin 800000) (k : Fin 128) :
    takeRows (F := Ideal) x v (ix2 e k) = x (ix2 (rowIx (wrapIdx (v (ix1 e)))) k) := by
  unfold takeRows
  rw [select_apply]
  have hc : broadcastInDim S800000x128 ![0] bcast_S800000_S800000x128_0 (inRange (wrapCol v)) (ix2 e k) = 1#1 := by
    refine (broadcastInDim_apply _ _ _ (ix2 e k) (ix1 e) (fun a => ?_)).trans (inRange_one v hv _)
    match a with | ⟨0, _⟩ => rfl
  rw [hc, select_one]
  refine (GatherRows.gather_rows_apply (by decide) gather_S50000x128_S800000x1_S800000x128_1_0_n_n_0_1_1128
    rfl rfl rfl rfl rfl rfl rfl x (wrapCol v) e k).trans ?_
  refine congrArg (fun r => x (ix2 r k)) (Fin.ext ?_)
  show min (wrapCol v (ix2 e (0 : Fin 1))).toInt.toNat (50000 - 1) = _
  rw [wrapCol_apply]
  rfl

/-- Entries taken at in-range start indices: entry e is the table's entry at the wrapped, clamped index e. -/
theorem takeVec_apply (t : S50000.Idx → BitVec 32) (v : S800000.Idx → BitVec 32)
    (hv : ∀ p : Fin 800000, IntOp.cmpi .sge (v (ix1 p)) 0#32 = 1#1 ∧ IntOp.cmpi .slt (v (ix1 p)) 50000#32 = 1#1)
    (e : Fin 800000) :
    takeVec t v (ix1 e) = t (ix1 (rowIx (wrapIdx (v (ix1 e))))) := by
  unfold takeVec
  rw [select_apply, inRange_one v hv, select_one]
  have hg := Predicate.gather_take gather_S50000_S800000x1_S800000_n_0_n_n_0_1_1 rfl rfl rfl rfl t (wrapCol v) e (by decide)
  rw [ofFin_eq_ix1 e] at hg
  rw [hg, ofFin_eq_ix1]
  refine congrArg (fun r => t (ix1 r)) (Fin.ext ?_)
  show min (wrapCol v (Predicate.ixP e)).toInt.toNat (50000 - 1) = _
  rw [ixP_eq_ix2, wrapCol_apply]
  rfl

/-! ## The edge table's two rows at an edge -/

theorem v1_apply (p : Fin 800000) :
    (H0 m c (Proc.devRef .tc main_v1) : IVec S800000 32) (ix1 p) = (m ((c : Thread nD τ).loc main_arg1) : S2x800000.Idx → BitVec 32) (ix2 (0 : Fin 2) p) := by
  refine (congrFun (H0_v1 m c) (ix1 p)).trans ?_
  refine (shapeCast_1a_a_apply _ _ p).trans ?_
  exact slice2_axis0_apply 0 _ _ (0 : Fin 1) p (0 : Fin 2) rfl

theorem v3_apply (p : Fin 800000) :
    (H0 m c (Proc.devRef .tc main_v3) : IVec S800000 32) (ix1 p) = (m ((c : Thread nD τ).loc main_arg1) : S2x800000.Idx → BitVec 32) (ix2 (1 : Fin 2) p) := by
  refine (congrFun (H0_v3 m c) (ix1 p)).trans ?_
  refine (shapeCast_1a_a_apply _ _ p).trans ?_
  exact slice2_axis0_apply 1 _ _ (0 : Fin 1) p (1 : Fin 2) rfl

theorem hv1 (hlo : ∀ i : S2x800000.Idx, IntOp.cmpi .sge ((m ((c : Thread nD τ).loc main_arg1) : S2x800000.Idx → BitVec 32) i) 0#32 = 1#1)
    (hhi : ∀ i : S2x800000.Idx, IntOp.cmpi .slt ((m ((c : Thread nD τ).loc main_arg1) : S2x800000.Idx → BitVec 32) i) 50000#32 = 1#1) (p : Fin 800000) :
    IntOp.cmpi .sge ((H0 m c (Proc.devRef .tc main_v1) : IVec S800000 32) (ix1 p)) 0#32 = 1#1
      ∧ IntOp.cmpi .slt ((H0 m c (Proc.devRef .tc main_v1) : IVec S800000 32) (ix1 p)) 50000#32 = 1#1 := by
  rw [v1_apply m c p]; exact ⟨hlo _, hhi _⟩

theorem hv3 (hlo : ∀ i : S2x800000.Idx, IntOp.cmpi .sge ((m ((c : Thread nD τ).loc main_arg1) : S2x800000.Idx → BitVec 32) i) 0#32 = 1#1)
    (hhi : ∀ i : S2x800000.Idx, IntOp.cmpi .slt ((m ((c : Thread nD τ).loc main_arg1) : S2x800000.Idx → BitVec 32) i) 50000#32 = 1#1) (p : Fin 800000) :
    IntOp.cmpi .sge ((H0 m c (Proc.devRef .tc main_v3) : IVec S800000 32) (ix1 p)) 0#32 = 1#1
      ∧ IntOp.cmpi .slt ((H0 m c (Proc.devRef .tc main_v3) : IVec S800000 32) (ix1 p)) 50000#32 = 1#1 := by
  rw [v3_apply m c p]; exact ⟨hlo _, hhi _⟩

/-! ## The ten arrays the call finds, read at an index -/

/-- The first gathered block: row e is x's row at edge e's first endpoint. -/
theorem xrow_apply (hlo : ∀ i : S2x800000.Idx, IntOp.cmpi .sge ((m ((c : Thread nD τ).loc main_arg1) : S2x800000.Idx → BitVec 32) i) 0#32 = 1#1)
    (hhi : ∀ i : S2x800000.Idx, IntOp.cmpi .slt ((m ((c : Thread nD τ).loc main_arg1) : S2x800000.Idx → BitVec 32) i) 50000#32 = 1#1) (e : Fin 800000) (k : Fin 128) :
    (V m c main_v4 : S800000x128.Idx → EReal) (ix2 e k)
      = (m ((c : Thread nD τ).loc main_arg0) : S50000x128.Idx → EReal) (ix2 (rowIx (wrapIdx ((m ((c : Thread nD τ).loc main_arg1) : S2x800000.Idx → BitVec 32) (ix2 (0 : Fin 2) e)))) k) := by
  have h := congrFun (V0_eq m c) (Proc.devRef .tc main_v4)
  rw [keep5_v4, keep4_v4, keep3_v4, keep2_v4] at h
  have h2 := h.trans (H1_out m c)
  rw [keep0_arg0] at h2
  refine (congrFun h2 (ix2 e k)).trans ?_
  refine (takeRows_apply _ _ (hv1 m c hlo hhi) e k).trans ?_
  rw [v1_apply m c e]

/-- The second gathered block: row e is x's row at edge e's second endpoint. -/
theorem xcol_apply (hlo : ∀ i : S2x800000.Idx, IntOp.cmpi .sge ((m ((c : Thread nD τ).loc main_arg1) : S2x800000.Idx → BitVec 32) i) 0#32 = 1#1)
    (hhi : ∀ i : S2x800000.Idx, IntOp.cmpi .slt ((m ((c : Thread nD τ).loc main_arg1) : S2x800000.Idx → BitVec 32) i) 50000#32 = 1#1) (e : Fin 800000) (k : Fin 128) :
    (V m c main_v5 : S800000x128.Idx → EReal) (ix2 e k)
      = (m ((c : Thread nD τ).loc main_arg0) : S50000x128.Idx → EReal) (ix2 (rowIx (wrapIdx ((m ((c : Thread nD τ).loc main_arg1) : S2x800000.Idx → BitVec 32) (ix2 (1 : Fin 2) e)))) k) := by
  have h := congrFun (V0_eq m c) (Proc.devRef .tc main_v5)
  rw [keep5_v5, keep4_v5, keep3_v5] at h
  have h2 := h.trans (H2_out m c)
  rw [keep1_arg0, keep0_arg0, keep1_v3] at h2
  refine (congrFun h2 (ix2 e k)).trans ?_
  refine (takeRows_apply _ _ (hv3 m c hlo hhi) e k).trans ?_
  rw [v3_apply m c e]

/-- The stacked index table as the three columns. -/
theorem v11_eq : (V m c main_v11 : S800000x3.Idx → BitVec 32)
    = concatenate S800000x3 1
        [⟨S800000x1, broadcastInDim S800000x1 ![0] bcast_S800000_S800000x1_0 (H4 m c (Proc.devRef .tc main_v6))⟩,
         ⟨S800000x1, broadcastInDim S800000x1 ![0] bcast_S800000_S800000x1_0 (H4 m c (Proc.devRef .tc main_v7))⟩,
         ⟨S800000x1, broadcastInDim S800000x1 ![0] bcast_S800000_S800000x1_0 (H4 m c (Proc.devRef .tc main_arg2))⟩]
        concatenates_S800000x1_S800000x1_S800000x1_S800000x3_d1 :=
  (congrFun (V0_eq m c) (Proc.devRef .tc main_v11)).trans (H5_v11 m c)

/-- A vector laid as a column reads its entry. -/
theorem col_apply {α : Type} (v : S800000.Idx → α) (e : Fin 800000) :
    broadcastInDim S800000x1 ![0] bcast_S800000_S800000x1_0 v (ix2 e (0 : Fin 1)) = v (ix1 e) := by
  refine broadcastInDim_apply _ _ _ (ix2 e (0 : Fin 1)) (ix1 e) (fun a => ?_)
  match a with | ⟨0, _⟩ => rfl

/-- Column 0 of the index table: the node type at the first endpoint. -/
theorem idx_apply0 (hlo : ∀ i : S2x800000.Idx, IntOp.cmpi .sge ((m ((c : Thread nD τ).loc main_arg1) : S2x800000.Idx → BitVec 32) i) 0#32 = 1#1)
    (hhi : ∀ i : S2x800000.Idx, IntOp.cmpi .slt ((m ((c : Thread nD τ).loc main_arg1) : S2x800000.Idx → BitVec 32) i) 50000#32 = 1#1) (e : Fin 800000) :
    (V m c main_v11 : S800000x3.Idx → BitVec 32) (ix2 e (0 : Fin 3))
      = (m ((c : Thread nD τ).loc main_arg3) : S50000.Idx → BitVec 32) (ix1 (rowIx (wrapIdx ((m ((c : Thread nD τ).loc main_arg1) : S2x800000.Idx → BitVec 32) (ix2 (0 : Fin 2) e))))) := by
  refine (congrFun (v11_eq m c) (ix2 e (0 : Fin 3))).trans ?_
  refine (concatenate_apply_piece (t := S800000x3) 1 _ _ (ix2 e (0 : Fin 3)) 0 (by show (0 : Nat) < 3; omega) S800000x1 _ rfl rfl 0 rfl
    (ix2 e (0 : Fin 1)) ?_ rfl).trans ?_
  · intro b hb
    match b, hb with
    | ⟨0, _⟩, _ => rfl
    | ⟨1, _⟩, hb => exact absurd (Fin.ext rfl) hb
  refine (col_apply _ e).trans ?_
  rw [keep4_v6]
  refine (congrFun (H3_out m c) (ix1 e)).trans ?_
  rw [keep2_arg3, keep1_arg3, keep0_arg3, keep2_v1, keep1_v1]
  refine (takeVec_apply _ _ (hv1 m c hlo hhi) e).trans ?_
  rw [v1_apply m c e]

/-- Column 1 of the index table: the node type at the second endpoint. -/
theorem idx_apply1 (hlo : ∀ i : S2x800000.Idx, IntOp.cmpi .sge ((m ((c : Thread nD τ).loc main_arg1) : S2x800000.Idx → BitVec 32) i) 0#32 = 1#1)
    (hhi : ∀ i : S2x800000.Idx, IntOp.cmpi .slt ((m ((c : Thread nD τ).loc main_arg1) : S2x800000.Idx → BitVec 32) i) 50000#32 = 1#1) (e : Fin 800000) :
    (V m c main_v11 : S800000x3.Idx → BitVec 32) (ix2 e (1 : Fin 3))
      = (m ((c : Thread nD τ).loc main_arg3) : S50000.Idx → BitVec 32) (ix1 (rowIx (wrapIdx ((m ((c : Thread nD τ).loc main_arg1) : S2x800000.Idx → BitVec 32) (ix2 (1 : Fin 2) e))))) := by
  refine (congrFun (v11_eq m c) (ix2 e (1 : Fin 3))).trans ?_
  refine (concatenate_apply_piece (t := S800000x3) 1 _ _ (ix2 e (1 : Fin 3)) 1 (by show (1 : Nat) < 3; omega) S800000x1 _ rfl rfl 1 rfl
    (ix2 e (0 : Fin 1)) ?_ rfl).trans ?_
  · intro b hb
    match b, hb with
    | ⟨0, _⟩, _ => rfl
    | ⟨1, _⟩, hb => exact absurd (Fin.ext rfl) hb
  refine (col_apply _ e).trans ?_
  refine (congrFun (H4_out m c) (ix1 e)).trans ?_
  rw [keep3_arg3, keep2_arg3, keep1_arg3, keep0_arg3, keep3_v3, keep2_v3, keep1_v3]
  refine (takeVec_apply _ _ (hv3 m c hlo hhi) e).trans ?_
  rw [v3_apply m c e]

/-- Column 2 of the index table: the edge type. -/
theorem idx_apply2 (e : Fin 800000) :
    (V m c main_v11 : S800000x3.Idx → BitVec 32) (ix2 e (2 : Fin 3))
      = (m ((c : Thread nD τ).loc main_arg2) : S800000.Idx → BitVec 32) (ix1 e) := by
  refine (congrFun (v11_eq m c) (ix2 e (2 : Fin 3))).trans ?_
  refine (concatenate_apply_piece (t := S800000x3) 1 _ _ (ix2 e (2 : Fin 3)) 2 (by show (2 : Nat) < 3; omega) S800000x1 _ rfl rfl 2 rfl
    (ix2 e (0 : Fin 1)) ?_ rfl).trans ?_
  · intro b hb
    match b, hb with
    | ⟨0, _⟩, _ => rfl
    | ⟨1, _⟩, hb => exact absurd (Fin.ext rfl) hb
  refine (col_apply _ e).trans ?_
  rw [keep4_arg2, keep3_arg2, keep2_arg2, keep1_arg2, keep0_arg2]

/-- The normalisation weights as a row. -/
theorem lnw_apply (k : Fin 288) :
    (V m c main_v12 : S1x288.Idx → EReal) (ix2 (0 : Fin 1) k) = (m ((c : Thread nD τ).loc main_arg4) : S288.Idx → EReal) (ix1 k) := by
  have h := (congrFun (V0_eq m c) (Proc.devRef .tc main_v12)).trans (H5_v12 m c)
  rw [keep4_arg4, keep3_arg4, keep2_arg4, keep1_arg4, keep0_arg4] at h
  refine (congrFun h (ix2 (0 : Fin 1) k)).trans ?_
  exact shapeCast_a_1a_apply _ _ (0 : Fin 1) k

/-- The normalisation shifts as a row. -/
theorem lnb_apply (k : Fin 288) :
    (V m c main_v13 : S1x288.Idx → EReal) (ix2 (0 : Fin 1) k) = (m ((c : Thread nD τ).loc main_arg5) : S288.Idx → EReal) (ix1 k) := by
  have h := (congrFun (V0_eq m c) (Proc.devRef .tc main_v13)).trans (H5_v13 m c)
  rw [keep4_arg5, keep3_arg5, keep2_arg5, keep1_arg5, keep0_arg5] at h
  refine (congrFun h (ix2 (0 : Fin 1) k)).trans ?_
  exact shapeCast_a_1a_apply _ _ (0 : Fin 1) k

/-- The first layer's weights: the change of format is the identity on extended reals. -/
theorem w1_apply (k : Fin 288) (j : Fin 64) :
    (V m c main_v16 : S288x64.Idx → EReal) (ix2 k j) = (m ((c : Thread nD τ).loc main_arg6) : S288x64.Idx → EReal) (ix2 k j) := by
  have h := (congrFun (V0_eq m c) (Proc.devRef .tc main_v16)).trans (H5_v16 m c)
  rw [keep4_arg6, keep3_arg6, keep2_arg6, keep1_arg6, keep0_arg6] at h
  exact (congrFun h (ix2 k j)).trans rfl

/-- The second layer's weights. -/
theorem w2_apply (k : Fin 64) (j : Fin 16) :
    (V m c main_v17 : S64x16.Idx → EReal) (ix2 k j) = (m ((c : Thread nD τ).loc main_arg8) : S64x16.Idx → EReal) (ix2 k j) := by
  have h := (congrFun (V0_eq m c) (Proc.devRef .tc main_v17)).trans (H5_v17 m c)
  rw [keep4_arg8, keep3_arg8, keep2_arg8, keep1_arg8, keep0_arg8] at h
  exact (congrFun h (ix2 k j)).trans rfl

/-- The first layer's bias as a row. -/
theorem b1_apply (j : Fin 64) :
    (V m c main_v14 : S1x64.Idx → EReal) (ix2 (0 : Fin 1) j) = (m ((c : Thread nD τ).loc main_arg7) : S64.Idx → EReal) (ix1 j) := by
  have h := (congrFun (V0_eq m c) (Proc.devRef .tc main_v14)).trans (H5_v14 m c)
  rw [keep4_arg7, keep3_arg7, keep2_arg7, keep1_arg7, keep0_arg7] at h
  refine (congrFun h (ix2 (0 : Fin 1) j)).trans ?_
  exact shapeCast_a_1a_apply _ _ (0 : Fin 1) j

/-- The second layer's bias as a row. -/
theorem b2_apply (j : Fin 16) :
    (V m c main_v15 : S1x16.Idx → EReal) (ix2 (0 : Fin 1) j) = (m ((c : Thread nD τ).loc main_arg9) : S16.Idx → EReal) (ix1 j) := by
  have h := (congrFun (V0_eq m c) (Proc.devRef .tc main_v15)).trans (H5_v15 m c)
  rw [keep4_arg9, keep3_arg9, keep2_arg9, keep1_arg9, keep0_arg9] at h
  refine (congrFun h (ix2 (0 : Fin 1) j)).trans ?_
  exact shapeCast_a_1a_apply _ _ (0 : Fin 1) j

/-- The identity table as a row: entry 4g + d is 1 when g = d and 0 otherwise. -/
theorem eye_apply (j : Fin 16) :
    (V m c main_v24 : S1x16.Idx → EReal) (ix2 (0 : Fin 1) j) = eye ⟨j.val / 4, by omega⟩ ⟨j.val % 4, by omega⟩ := by
  have h := (congrFun (V0_eq m c) (Proc.devRef .tc main_v24)).trans (H5_v24 m c)
  refine (congrFun h (ix2 (0 : Fin 1) j)).trans ?_
  refine (shapeCast_apply _ _ (ix2 (0 : Fin 1) j) (ix2 (⟨j.val / 4, by omega⟩ : Fin 4) (⟨j.val % 4, by omega⟩ : Fin 4)) ?_).trans rfl
  rw [Shape.rowMajor_val_two, Shape.rowMajor_val_two]
  show j.val / 4 * 4 + j.val % 4 = 0 * 16 + j.val
  omega

end AtIdeal

end Cert.KernelIdeal.Host

end
-- ==== Proof.KLogits.lean ====
/-
  The kernel's normalisation and its two products, read at one row and one logit column, are the specification's
  logits of that row's features.

  For row r the kernel lays side by side the two endpoint rows, the two node-type one-hots and the edge-type
  one-hot (288 columns), subtracts the row's mean, multiplies by the inverse square root of the row's variance plus
  the floor and by the weight, adds the bias, multiplies by W1, adds b1, rectifies, multiplies by W2 and adds b2.
  Over the extended reals a change of float format is the identity, a product into a zero accumulator is the plain
  sum over the contraction index, and a sum over one axis is the sum over that axis's coordinates; so each step is
  read at an index and matched with `feat`, `mu`, `var`, `lnorm`, `hid` and `logit`.
-/
import proofs.«417059_j31842887533258_3_alg».proof.Proof.Gen.KernelIdeal.Skeleton
import proofs.«417059_j31842887533258_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen Cert.Sheaf

variable {α : Type}

/-- A column [a] viewed as [a, 1] reads, at (r, u), the entry r. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column [a, 1] spread over b columns reads, at (r, c), the column's entry r. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- The sum over the 288 columns of a row. -/
theorem rowSum288_apply (X : FVec Ideal S3200x288 .f32) (h : S3200x288.Reduces [1] S3200) (hφ : FKind.Formats .f32)
    (hacc : (0x00000000#32 : BitVec 32) = 0x00000000#32) (r : Fin 3200) :
    multiReduction (F := Ideal) .add [1] S3200 X 0x00000000#32 h hφ hacc (ix1 r) = ∑ k : Fin 288, X (ix2 r k) := by
  refine (Ideal.multiReduction_add_single X 0x00000000#32 h hφ hacc (ix1 r)).trans ?_
  refine Finset.sum_congr rfl fun k _ => congrArg X ?_
  funext a
  match a with
  | ⟨0, _⟩ => rfl
  | ⟨1, _⟩ => rfl

theorem lhsA_0 (i : S3200x64.Idx) (q : dot_S3200x288_S288x64_S3200x64_1_0_0_1_n_n.contr.Idx) :
    (dot_S3200x288_S288x64_S3200x64_1_0_0_1_n_n.lhsIdx i q 0).val = (i 0).val := by
  unfold DotDims.lhsIdx
  rw [dif_neg (show ¬(0 : Fin S3200x288.rank) ∈ dot_S3200x288_S288x64_S3200x64_1_0_0_1_n_n.lhsBatch by decide), dif_pos (show (0 : Fin S3200x288.rank) ∈ dot_S3200x288_S288x64_S3200x64_1_0_0_1_n_n.lhsNonContracting by decide)]
  rfl
theorem lhsA_1 (i : S3200x64.Idx) (q : dot_S3200x288_S288x64_S3200x64_1_0_0_1_n_n.contr.Idx) :
    (dot_S3200x288_S288x64_S3200x64_1_0_0_1_n_n.lhsIdx i q 1).val = (q ⟨0, by decide⟩).val :=
  dot_S3200x288_S288x64_S3200x64_1_0_0_1_n_n.lhsIdx_val_of_single rfl i q
theorem rhsA_0 (i : S3200x64.Idx) (q : dot_S3200x288_S288x64_S3200x64_1_0_0_1_n_n.contr.Idx) :
    (dot_S3200x288_S288x64_S3200x64_1_0_0_1_n_n.rhsIdx i q 0).val = (q ⟨0, by decide⟩).val :=
  dot_S3200x288_S288x64_S3200x64_1_0_0_1_n_n.rhsIdx_val_of_single rfl i q
theorem rhsA_1 (i : S3200x64.Idx) (q : dot_S3200x288_S288x64_S3200x64_1_0_0_1_n_n.contr.Idx) :
    (dot_S3200x288_S288x64_S3200x64_1_0_0_1_n_n.rhsIdx i q 1).val = (i 1).val := by
  unfold DotDims.rhsIdx
  rw [dif_neg (show ¬(1 : Fin S288x64.rank) ∈ dot_S3200x288_S288x64_S3200x64_1_0_0_1_n_n.rhsBatch by decide), dif_pos (show (1 : Fin S288x64.rank) ∈ dot_S3200x288_S288x64_S3200x64_1_0_0_1_n_n.rhsNonContracting by decide)]
  rfl

/-- The product into a zero accumulator, read at (r, j): the sum over the contraction index of the operands' products. -/
theorem matmulA_apply (A : FVec Ideal S3200x288 .bf16) (B : FVec Ideal S288x64 .bf16) (r : Fin 3200) (j : Fin 64) :
    matmul dot_S3200x288_S288x64_S3200x64_1_0_0_1_n_n none A B (constant (F := Ideal) S3200x64 .f32 0x00000000#32) (ix2 r j)
      = ∑ k : Fin 288, A (ix2 r k) * B (ix2 k j) := by
  simp only [matmul]
  rw [Ideal.matmul_constant_zero_apply, ← Equiv.sum_comp (contrEquiv1 dot_S3200x288_S288x64_S3200x64_1_0_0_1_n_n 288 rfl rfl).symm]
  refine Finset.sum_congr rfl fun k _ => ?_
  have hk := contrEquiv1_symm_val dot_S3200x288_S288x64_S3200x64_1_0_0_1_n_n 288 rfl rfl k
  have el : dot_S3200x288_S288x64_S3200x64_1_0_0_1_n_n.lhsIdx (ix2 r j) ((contrEquiv1 dot_S3200x288_S288x64_S3200x64_1_0_0_1_n_n 288 rfl rfl).symm k) = ix2 r k := funext fun a => Fin.ext (by
    match a with
    | ⟨0, _⟩ => exact lhsA_0 _ _
    | ⟨1, _⟩ => exact (lhsA_1 _ _).trans hk)
  have er : dot_S3200x288_S288x64_S3200x64_1_0_0_1_n_n.rhsIdx (ix2 r j) ((contrEquiv1 dot_S3200x288_S288x64_S3200x64_1_0_0_1_n_n 288 rfl rfl).symm k) = ix2 k j := funext fun a => Fin.ext (by
    match a with
    | ⟨0, _⟩ => exact (rhsA_0 _ _).trans hk
    | ⟨1, _⟩ => exact rhsA_1 _ _)
  rw [el, er]

theorem lhsB_0 (i : S3200x16.Idx) (q : dot_S3200x64_S64x16_S3200x16_1_0_0_1_n_n.contr.Idx) :
    (dot_S3200x64_S64x16_S3200x16_1_0_0_1_n_n.lhsIdx i q 0).val = (i 0).val := by
  unfold DotDims.lhsIdx
  rw [dif_neg (show ¬(0 : Fin S3200x64.rank) ∈ dot_S3200x64_S64x16_S3200x16_1_0_0_1_n_n.lhsBatch by decide), dif_pos (show (0 : Fin S3200x64.rank) ∈ dot_S3200x64_S64x16_S3200x16_1_0_0_1_n_n.lhsNonContracting by decide)]
  rfl
theorem lhsB_1 (i : S3200x16.Idx) (q : dot_S3200x64_S64x16_S3200x16_1_0_0_1_n_n.contr.Idx) :
    (dot_S3200x64_S64x16_S3200x16_1_0_0_1_n_n.lhsIdx i q 1).val = (q ⟨0, by decide⟩).val :=
  dot_S3200x64_S64x16_S3200x16_1_0_0_1_n_n.lhsIdx_val_of_single rfl i q
theorem rhsB_0 (i : S3200x16.Idx) (q : dot_S3200x64_S64x16_S3200x16_1_0_0_1_n_n.contr.Idx) :
    (dot_S3200x64_S64x16_S3200x16_1_0_0_1_n_n.rhsIdx i q 0).val = (q ⟨0, by decide⟩).val :=
  dot_S3200x64_S64x16_S3200x16_1_0_0_1_n_n.rhsIdx_val_of_single rfl i q
theorem rhsB_1 (i : S3200x16.Idx) (q : dot_S3200x64_S64x16_S3200x16_1_0_0_1_n_n.contr.Idx) :
    (dot_S3200x64_S64x16_S3200x16_1_0_0_1_n_n.rhsIdx i q 1).val = (i 1).val := by
  unfold DotDims.rhsIdx
  rw [dif_neg (show ¬(1 : Fin S64x16.rank) ∈ dot_S3200x64_S64x16_S3200x16_1_0_0_1_n_n.rhsBatch by decide), dif_pos (show (1 : Fin S64x16.rank) ∈ dot_S3200x64_S64x16_S3200x16_1_0_0_1_n_n.rhsNonContracting by decide)]
  rfl

/-- The product into a zero accumulator, read at (r, j): the sum over the contraction index of the operands' products. -/
theorem matmulB_apply (A : FVec Ideal S3200x64 .bf16) (B : FVec Ideal S64x16 .bf16) (r : Fin 3200) (j : Fin 16) :
    matmul dot_S3200x64_S64x16_S3200x16_1_0_0_1_n_n none A B (constant (F := Ideal) S3200x16 .f32 0x00000000#32) (ix2 r j)
      = ∑ k : Fin 64, A (ix2 r k) * B (ix2 k j) := by
  simp only [matmul]
  rw [Ideal.matmul_constant_zero_apply, ← Equiv.sum_comp (contrEquiv1 dot_S3200x64_S64x16_S3200x16_1_0_0_1_n_n 64 rfl rfl).symm]
  refine Finset.sum_congr rfl fun k _ => ?_
  have hk := contrEquiv1_symm_val dot_S3200x64_S64x16_S3200x16_1_0_0_1_n_n 64 rfl rfl k
  have el : dot_S3200x64_S64x16_S3200x16_1_0_0_1_n_n.lhsIdx (ix2 r j) ((contrEquiv1 dot_S3200x64_S64x16_S3200x16_1_0_0_1_n_n 64 rfl rfl).symm k) = ix2 r k := funext fun a => Fin.ext (by
    match a with
    | ⟨0, _⟩ => exact lhsB_0 _ _
    | ⟨1, _⟩ => exact (lhsB_1 _ _).trans hk)
  have er : dot_S3200x64_S64x16_S3200x16_1_0_0_1_n_n.rhsIdx (ix2 r j) ((contrEquiv1 dot_S3200x64_S64x16_S3200x16_1_0_0_1_n_n 64 rfl rfl).symm k) = ix2 k j := funext fun a => Fin.ext (by
    match a with
    | ⟨0, _⟩ => exact (rhsB_0 _ _).trans hk
    | ⟨1, _⟩ => exact rhsB_1 _ _)
  rw [el, er]

/-- The two products with their biases and the rectifier, read at row r and column j, over any normalised matrix Y:
    the logits of the row `Y r + b`. -/
theorem pay3_apply (Y : FVec Ideal S3200x288 .f32) (v46 : Vec Ideal S1x288 .f32) (v51 : Vec Ideal S288x64 .bf16) (v54 : Vec Ideal S1x64 .f32)
    (v61 : Vec Ideal S64x16 .bf16) (v64 : Vec Ideal S1x16 .f32) (r : Fin 3200) (j : Fin 16) :
    k0_pay3 (F := Ideal) Y v46 v51 v54 v61 v64 (ix2 r j)
      = logit (hid (fun k => Y (ix2 r k) + v46 (ix2 (0 : Fin 1) k)) (fun k j' => v51 (ix2 k j')) (fun j' => v54 (ix2 (0 : Fin 1) j')))
          (fun k j' => v61 (ix2 k j')) (fun j' => v64 (ix2 (0 : Fin 1) j')) j := by
  unfold k0_pay3 logit hid
  simp only [shapeCast_self]
  rw [addf_apply, matmulB_apply, broadcastTo_1b_ab_apply]
  refine congrArg (· + v64 (ix2 (0 : Fin 1) j)) ?_
  refine Finset.sum_congr rfl fun k _ => ?_
  refine congrArg (· * v61 (ix2 k j)) ?_
  rw [truncf_apply, maximumf_apply, addf_apply, matmulA_apply, broadcastTo_1b_ab_apply, broadcast_apply]
  refine congrArg₂ max (congrArg (· + v54 (ix2 (0 : Fin 1) k)) (Finset.sum_congr rfl fun k' _ => ?_)) Ideal.ofBits_zero_f32
  rw [truncf_apply, addf_apply, broadcastTo_1b_ab_apply]

/-- The five pieces laid side by side, read at (r, k): the piece whose span of columns holds k. -/
theorem cat5_apply (x1 x2 : S3200x128.Idx → α) (x3 x4 : S3200x8.Idx → α) (x5 : S3200x16.Idx → α)
    (h : Shape.Concatenates [S3200x128, S3200x128, S3200x8, S3200x8, S3200x16] S3200x288 1) (r : Fin 3200) (k : Fin 288) :
    concatenate S3200x288 1 [⟨S3200x128, x1⟩, ⟨S3200x128, x2⟩, ⟨S3200x8, x3⟩, ⟨S3200x8, x4⟩, ⟨S3200x16, x5⟩] h (ix2 r k)
      = if h1 : k.val < 128 then x1 (ix2 r ⟨k.val, h1⟩)
        else if h2 : k.val < 256 then x2 (ix2 r ⟨k.val - 128, by omega⟩)
        else if h3 : k.val < 264 then x3 (ix2 r ⟨k.val - 256, by omega⟩)
        else if h4 : k.val < 272 then x4 (ix2 r ⟨k.val - 264, by omega⟩)
        else x5 (ix2 r ⟨k.val - 272, by have := k.isLt; omega⟩) := by
  have hk := k.isLt
  split
  · next h1 =>
    exact concatenate_apply_piece 1 [⟨S3200x128, x1⟩, ⟨S3200x128, x2⟩, ⟨S3200x8, x3⟩, ⟨S3200x8, x4⟩, ⟨S3200x16, x5⟩] h (ix2 r k) 0 (by show 0 < 5; omega) S3200x128 x1 rfl rfl 0 rfl (ix2 r ⟨k.val, h1⟩)
      (fun b hb => by
        match b with
        | ⟨0, _⟩ => rfl
        | ⟨1, _⟩ => exact absurd (Fin.ext rfl) hb)
      (by show 0 + k.val = k.val; omega)
  · next h1 =>
    split
    · next h2 =>
      exact concatenate_apply_piece 1 [⟨S3200x128, x1⟩, ⟨S3200x128, x2⟩, ⟨S3200x8, x3⟩, ⟨S3200x8, x4⟩, ⟨S3200x16, x5⟩] h (ix2 r k) 1 (by show 1 < 5; omega) S3200x128 x2 rfl rfl 128 rfl (ix2 r ⟨k.val - 128, by omega⟩)
        (fun b hb => by
          match b with
          | ⟨0, _⟩ => rfl
          | ⟨1, _⟩ => exact absurd (Fin.ext rfl) hb)
        (by show 128 + (k.val - 128) = k.val; omega)
    · next h2 =>
      split
      · next h3 =>
        exact concatenate_apply_piece 1 [⟨S3200x128, x1⟩, ⟨S3200x128, x2⟩, ⟨S3200x8, x3⟩, ⟨S3200x8, x4⟩, ⟨S3200x16, x5⟩] h (ix2 r k) 2 (by show 2 < 5; omega) S3200x8 x3 rfl rfl 256 rfl (ix2 r ⟨k.val - 256, by omega⟩)
          (fun b hb => by
            match b with
            | ⟨0, _⟩ => rfl
            | ⟨1, _⟩ => exact absurd (Fin.ext rfl) hb)
          (by show 256 + (k.val - 256) = k.val; omega)
      · next h3 =>
        split
        · next h4 =>
          exact concatenate_apply_piece 1 [⟨S3200x128, x1⟩, ⟨S3200x128, x2⟩, ⟨S3200x8, x3⟩, ⟨S3200x8, x4⟩, ⟨S3200x16, x5⟩] h (ix2 r k) 3 (by show 3 < 5; omega) S3200x8 x4 rfl rfl 264 rfl (ix2 r ⟨k.val - 264, by omega⟩)
            (fun b hb => by
              match b with
              | ⟨0, _⟩ => rfl
              | ⟨1, _⟩ => exact absurd (Fin.ext rfl) hb)
            (by show 264 + (k.val - 264) = k.val; omega)
        · next h4 =>
          exact concatenate_apply_piece 1 [⟨S3200x128, x1⟩, ⟨S3200x128, x2⟩, ⟨S3200x8, x3⟩, ⟨S3200x8, x4⟩, ⟨S3200x16, x5⟩] h (ix2 r k) 4 (by show 4 < 5; omega) S3200x16 x5 rfl rfl 272 rfl (ix2 r ⟨k.val - 272, by omega⟩)
            (fun b hb => by
              match b with
              | ⟨0, _⟩ => rfl
              | ⟨1, _⟩ => exact absurd (Fin.ext rfl) hb)
            (by show 272 + (k.val - 272) = k.val; omega)

/-- A one-hot row: the comparison of a row's type with the column number, widened and converted, is the
    indicator of their equality. -/
theorem onehot_apply {n : ℕ} (col : IVec ⟨2, ![3200, 1]⟩ 32) (hb : (⟨2, ![3200, 1]⟩ : Shape).Broadcasts ⟨2, ![3200, n]⟩)
    (hi : (⟨2, ![3200, n]⟩ : Shape).Iotas .tc 32 [1]) (h32 : 1 < 32) (r : Fin 3200) (c : Fin n) :
    (sitofp .f32 (extui 32 (cmpi .eq (broadcastTo ⟨2, ![3200, n]⟩ col hb) (iota .tc ⟨2, ![3200, n]⟩ 32 [1] hi)) h32)
        : FVec Ideal ⟨2, ![3200, n]⟩ .f32) (ix2 r c)
      = ind (IntOp.cmpi .eq (col (ix2 r (0 : Fin 1))) (BitVec.ofNat 32 c.val)) := by
  rw [sitofp_apply, extui_apply]
  refine (ind_of_setWidth _).trans ?_
  show ind (IntOp.cmpi .eq (broadcastTo ⟨2, ![3200, n]⟩ col hb (ix2 r c)) (iota .tc ⟨2, ![3200, n]⟩ 32 [1] hi (ix2 r c))) = _
  rw [broadcastTo_a1_ab_apply, iota_single_apply]
  rfl

/-- Column c of the three type columns, cut out as a [3200, 1] column, reads at row r the entry (r, c). -/
theorem typeCol_apply (v4 : IVec S3200x3 32) (o : ℕ) (hs : S3200x3.ShapeCasts S3200x3)
    (h : S3200x3.Slices ![0, o] S3200x1) (r : Fin 3200) (c : Fin 3) (hc : c.val = o) :
    extractStridedSlice S3200x1 ![0, o] (shapeCast S3200x3 v4 hs) h (ix2 r (0 : Fin 1)) = v4 (ix2 r c) := by
  rw [shapeCast_self]
  exact slice2_axis1_apply o v4 h r (0 : Fin 1) c (by show c.val = o + 0; omega)

/-- The inverse square root at an index is the ideal one of the element. -/
theorem rsqrt_apply {s : Shape} {φ : FTy} (a : FVec Ideal s φ) (i : s.Idx) : rsqrt a i = Ideal.rsqrt (a i) := rfl

/-- A row's sum over its 288 columns, kept as a column and divided by a constant: read at (r, u). -/
theorem rowMean_apply (X : FVec Ideal S3200x288 .f32) (c : Ideal .f32) (h : S3200x288.Reduces [1] S3200) (hφ : FKind.Formats .f32)
    (hacc : (0x00000000#32 : BitVec 32) = 0x00000000#32) (hc : S3200.ShapeCasts S3200x1) (r : Fin 3200) (u : Fin 1) :
    divf (shapeCast S3200x1 (multiReduction (F := Ideal) .add [1] S3200 X 0x00000000#32 h hφ hacc) hc) (broadcast S3200x1 c) (ix2 r u)
      = Ideal.div (∑ k : Fin 288, X (ix2 r k)) c := by
  rw [divf_apply, broadcast_apply, shapeCast_a_a1_apply, rowSum288_apply]

/-- The concatenated feature row of the kernel is the specification's feature row. -/
theorem cat_row_apply (v0 v2 : Vec Ideal S3200x128 .f32) (v4 : Vec Ideal S3200x3 .i32) (r : Fin 3200) (k : Fin 288) :
    concatenate S3200x288 1
        [⟨S3200x128, shapeCast S3200x128 v0 shapeCasts_S3200x128_S3200x128⟩,
          ⟨S3200x128, shapeCast S3200x128 v2 shapeCasts_S3200x128_S3200x128⟩,
          ⟨S3200x8, (sitofp .f32 (extui 32 (cmpi .eq
              (broadcastTo S3200x8 (extractStridedSlice S3200x1 ![0, 0] (shapeCast S3200x3 v4 shapeCasts_S3200x3_S3200x3)
                slices_S3200x3_o0_0_S3200x1) broadcasts_S3200x1_S3200x8)
              (iota .tc S3200x8 32 [1] iota_S3200x8_d1_w32)) natLt_1_32) : FVec Ideal S3200x8 .f32)⟩,
          ⟨S3200x8, (sitofp .f32 (extui 32 (cmpi .eq
              (broadcastTo S3200x8 (extractStridedSlice S3200x1 ![0, 1] (shapeCast S3200x3 v4 shapeCasts_S3200x3_S3200x3)
                slices_S3200x3_o0_1_S3200x1) broadcasts_S3200x1_S3200x8)
              (iota .tc S3200x8 32 [1] iota_S3200x8_d1_w32)) natLt_1_32) : FVec Ideal S3200x8 .f32)⟩,
          ⟨S3200x16, (sitofp .f32 (extui 32 (cmpi .eq
              (broadcastTo S3200x16 (extractStridedSlice S3200x1 ![0, 2] (shapeCast S3200x3 v4 shapeCasts_S3200x3_S3200x3)
                slices_S3200x3_o0_2_S3200x1) broadcasts_S3200x1_S3200x16)
              (iota .tc S3200x16 32 [1] iota_S3200x16_d1_w32)) natLt_1_32) : FVec Ideal S3200x16 .f32)⟩]
        concatenates_S3200x128_S3200x128_S3200x8_S3200x8_S3200x16_S3200x288_d1 (ix2 r k)
      = feat (fun k => v0 (ix2 r k)) (fun k => v2 (ix2 r k)) (v4 (ix2 r (0 : Fin 3))) (v4 (ix2 r (1 : Fin 3)))
          (v4 (ix2 r (2 : Fin 3))) k := by
  rw [cat5_apply]
  unfold feat
  by_cases h1 : k.val < 128
  · rw [dif_pos h1, dif_pos h1, shapeCast_self]
  · rw [dif_neg h1, dif_neg h1]
    by_cases h2 : k.val < 256
    · rw [dif_pos h2, dif_pos h2, shapeCast_self]
    · rw [dif_neg h2, dif_neg h2]
      by_cases h3 : k.val < 264
      · rw [dif_pos h3, if_pos h3, onehot_apply, typeCol_apply v4 0 _ _ r (0 : Fin 3) rfl]
      · rw [dif_neg h3, if_neg h3]
        by_cases h4 : k.val < 272
        · rw [dif_pos h4, if_pos h4, onehot_apply, typeCol_apply v4 1 _ _ r (1 : Fin 3) rfl]
        · rw [dif_neg h4, if_neg h4, onehot_apply, typeCol_apply v4 2 _ _ r (2 : Fin 3) rfl]

/-- The first half of the kernel, read at (r, k): the feature row, centred, scaled by the inverse deviation and by the weight. -/
theorem pay2_apply (v0 v2 : Vec Ideal S3200x128 .f32) (v4 : Vec Ideal S3200x3 .i32) (v42 : Vec Ideal S1x288 .f32) (r : Fin 3200) (k : Fin 288) :
    k0_pay2 (F := Ideal) v0 v2 v4 v42 (ix2 r k)
      = (feat (fun k => v0 (ix2 r k)) (fun k => v2 (ix2 r k)) (v4 (ix2 r (0 : Fin 3))) (v4 (ix2 r (1 : Fin 3))) (v4 (ix2 r (2 : Fin 3))) k
          - mu (feat (fun k => v0 (ix2 r k)) (fun k => v2 (ix2 r k)) (v4 (ix2 r (0 : Fin 3))) (v4 (ix2 r (1 : Fin 3))) (v4 (ix2 r (2 : Fin 3)))))
        * Ideal.rsqrt (var (feat (fun k => v0 (ix2 r k)) (fun k => v2 (ix2 r k)) (v4 (ix2 r (0 : Fin 3))) (v4 (ix2 r (1 : Fin 3))) (v4 (ix2 r (2 : Fin 3)))) + ceps)
        * v42 (ix2 (0 : Fin 1) k) := by
  unfold k0_pay2
  simp only [shapeCast_self]
  generalize hC : concatenate S3200x288 1 _ _ = C
  have hrow : ∀ k', C (ix2 r k') = feat (fun k => v0 (ix2 r k)) (fun k => v2 (ix2 r k)) (v4 (ix2 r (0 : Fin 3))) (v4 (ix2 r (1 : Fin 3)))
      (v4 (ix2 r (2 : Fin 3))) k' := fun k' => by
    rw [← hC]; exact cat_row_apply v0 v2 v4 r k'
  clear hC
  generalize feat (fun k => v0 (ix2 r k)) (fun k => v2 (ix2 r k)) (v4 (ix2 r (0 : Fin 3))) (v4 (ix2 r (1 : Fin 3))) (v4 (ix2 r (2 : Fin 3))) = f at hrow ⊢
  generalize hM : divf (shapeCast S3200x1 (multiReduction .add [1] S3200 C 0x00000000#32 reduces_S3200x288_S3200 (.inl rfl)
      (rfl : (0x00000000#32 : BitVec 32) = 0x00000000#32)) shapeCasts_S3200_S3200x1) (broadcast S3200x1 _) = M
  have hMr : M (ix2 r (0 : Fin 1)) = mu f := by
    rw [← hM, rowMean_apply]
    simp only [hrow]
    rfl
  clear hM
  rw [mulf_apply, mulf_apply, subf_apply, broadcastTo_1b_ab_apply, broadcastTo_a1_ab_apply, broadcastTo_a1_ab_apply,
    rsqrt_apply, addf_apply, broadcast_apply, rowMean_apply]
  simp only [mulf_apply, subf_apply, broadcastTo_a1_ab_apply, hrow, hMr]
  rfl

/-- THE LOGITS: the kernel's normalisation and its two products, read at row r and logit column j, are the specification's
    logits of that row's features. -/
theorem logits_apply (v0 v2 : Vec Ideal S3200x128 .f32) (v4 : Vec Ideal S3200x3 .i32) (v42 v46 : Vec Ideal S1x288 .f32)
    (v51 : Vec Ideal S288x64 .bf16) (v54 : Vec Ideal S1x64 .f32) (v61 : Vec Ideal S64x16 .bf16) (v64 : Vec Ideal S1x16 .f32)
    (r : Fin 3200) (j : Fin 16) :
    k0_pay3 (F := Ideal) (k0_pay2 (F := Ideal) v0 v2 v4 v42) v46 v51 v54 v61 v64 (ix2 r j)
      = zOf (feat (fun k => v0 (ix2 r k)) (fun k => v2 (ix2 r k)) (v4 (ix2 r (0 : Fin 3))) (v4 (ix2 r (1 : Fin 3))) (v4 (ix2 r (2 : Fin 3))))
          (fun k => v42 (ix2 (0 : Fin 1) k)) (fun k => v46 (ix2 (0 : Fin 1) k)) (fun k j' => v51 (ix2 k j')) (fun j' => v54 (ix2 (0 : Fin 1) j'))
          (fun k j' => v61 (ix2 k j')) (fun j' => v64 (ix2 (0 : Fin 1) j')) j := by
  refine (pay3_apply (k0_pay2 (F := Ideal) v0 v2 v4 v42) v46 v51 v54 v61 v64 r j).trans ?_
  unfold zOf
  refine congrArg (fun n => logit (hid n (fun k j' => v51 (ix2 k j')) (fun j' => v54 (ix2 (0 : Fin 1) j')))
    (fun k j' => v61 (ix2 k j')) (fun j' => v64 (ix2 (0 : Fin 1) j')) j) (funext fun k => ?_)
  rw [pay2_apply]
  rfl

end Cert.KernelIdeal.Pay

end
-- ==== Proof.KSoftmax.lean ====
/-
  The softmax half of the block's value, read one entry at a time over the extended reals.

  The sixteen logits of a row are four groups of four. For each group the block takes the group's largest logit M
  (the fold of max from the bottom), exponentiates every logit less M, divides by the sum of the four exponentials,
  and subtracts the quotient from a given row's entry in the same column; the four [3200, 4] results are laid side by
  side. Read at row r and column j = 4g + d this is

      given[j] - exp(z[4g+d] - M_g) / sum_d' exp(z[4g+d'] - M_g),    M_g = max_d' z[4g+d'],

  whatever the logits z are: nothing below looks inside them.
-/
import proofs.«417059_j31842887533258_3_alg».proof.Proof.Gen.KernelIdeal.Skeleton
import proofs.«417059_j31842887533258_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen Cert.Sheaf

/-- The word 0xFF800000 read as a number is the bottom of the extended reals. -/
theorem sm_ninf : Ideal.ofBits .f32 0xFF800000#32 = ⊥ := by simp [Ideal.ofBits, Ideal.ieee]

/-- Four columns cut from sixteen at offset o: column d of the cut is column o + d. -/
theorem sm_slice_apply (o : Nat) (ho : o + 4 ≤ 16) (Z : FVec Ideal S3200x16 .f32) (h : S3200x16.Slices ![0, o] S3200x4)
    (r : Fin 3200) (d : Fin 4) :
    extractStridedSlice S3200x4 ![0, o] Z h (ix2 r d) = Z (ix2 r (⟨o + d.val, by omega⟩ : Fin 16)) := by
  refine extractStridedSlice_apply _ Z h _ _ fun a => ?_
  match a with
  | ⟨0, _⟩ => show r.val = 0 + r.val; omega
  | ⟨1, _⟩ => rfl

/-- The same cut of a single row. -/
theorem sm_rowslice_apply (o : Nat) (ho : o + 4 ≤ 16) (E : FVec Ideal S1x16 .f32) (h : S1x16.Slices ![0, o] S1x4)
    (c : Fin 1) (d : Fin 4) :
    extractStridedSlice S1x4 ![0, o] E h (ix2 c d) = E (ix2 c (⟨o + d.val, by omega⟩ : Fin 16)) := by
  refine extractStridedSlice_apply _ E h _ _ fun a => ?_
  match a with
  | ⟨0, _⟩ => show c.val = 0 + c.val; omega
  | ⟨1, _⟩ => rfl

/-- A vector of 3200 viewed as a column: entry (r, 0) is entry r. -/
theorem sm_col_cast_apply (v : FVec Ideal S3200 .f32) (h : S3200.ShapeCasts S3200x1) (r : Fin 3200) (c : Fin 1) :
    shapeCast S3200x1 v h (ix2 r c) = v (ix1 r) := by
  refine shapeCast_apply v h _ _ ?_
  rw [Shape.rowMajor_val_one, Shape.rowMajor_val_two]
  show r.val = r.val * 1 + c.val
  omega

/-- A column spread over four columns: entry (r, d) is the column's entry (r, 0). -/
theorem sm_col_bcast_apply (w : FVec Ideal S3200x1 .f32) (h : S3200x1.Broadcasts S3200x4) (r : Fin 3200) (d : Fin 4) :
    broadcastTo S3200x4 w h (ix2 r d) = w (ix2 r (0 : Fin 1)) := by
  refine broadcastTo_apply w h _ _ fun a => ?_
  match a with
  | ⟨0, _⟩ => rfl
  | ⟨1, _⟩ => rfl

/-- The index a one-axis reduction of a [3200, 4] array inserts coordinate k into at row r is (r, k). -/
theorem sm_lift (r : Fin 3200) (k : Fin 4) : reduces_S3200x4_S3200.lift (ix1 r) k = ix2 r k := by
  funext c
  apply Fin.ext
  match c with
  | ⟨0, _⟩ => rfl
  | ⟨1, _⟩ => rfl

/-- The row maximum of a [3200, 4] array, spread back over its four columns. -/
abbrev sm_rowMax (seg : FVec Ideal S3200x4 .f32) : FVec Ideal S3200x4 .f32 :=
  broadcastTo S3200x4 (shapeCast S3200x1 (multiReduction .maximumf [1] S3200 seg 0xFF800000#32 reduces_S3200x4_S3200 (.inl rfl) rfl) shapeCasts_S3200_S3200x1) broadcasts_S3200x1_S3200x4

/-- The row sum of a [3200, 4] array, spread back over its four columns. -/
abbrev sm_rowSum (e : FVec Ideal S3200x4 .f32) : FVec Ideal S3200x4 .f32 :=
  broadcastTo S3200x4 (shapeCast S3200x1 (multiReduction .add [1] S3200 e 0x00000000#32 reduces_S3200x4_S3200 (.inl rfl) rfl) shapeCasts_S3200_S3200x1) broadcasts_S3200x1_S3200x4

/-- The spread row maximum read at (r, d): the fold of max from the bottom over the row. -/
theorem sm_rowmax_apply (seg : FVec Ideal S3200x4 .f32) (r : Fin 3200) (d : Fin 4) :
    sm_rowMax seg (ix2 r d) = (Finset.univ : Finset (Fin 4)).fold max ⊥ (fun d' => seg (ix2 r d')) := by
  refine (sm_col_bcast_apply _ _ r d).trans ?_
  refine (sm_col_cast_apply _ _ r 0).trans ?_
  refine (Ideal.multiReduction_maximumf_single seg 0xFF800000#32 reduces_S3200x4_S3200 (.inl rfl) rfl (ix1 r)).trans ?_
  show (Finset.univ : Finset (Fin 4)).fold max (Ideal.ofBits .f32 0xFF800000#32) (fun k : Fin 4 => seg (reduces_S3200x4_S3200.lift (ix1 r) k)) = _
  rw [sm_ninf, show (fun k : Fin 4 => seg (reduces_S3200x4_S3200.lift (ix1 r) k)) = fun d' => seg (ix2 r d') from
    funext fun k => congrArg seg (sm_lift r k)]

/-- The spread row sum read at (r, d): the sum over the row. -/
theorem sm_rowsum_apply (e : FVec Ideal S3200x4 .f32) (r : Fin 3200) (d : Fin 4) :
    sm_rowSum e (ix2 r d) = ∑ d' : Fin 4, e (ix2 r d') := by
  refine (sm_col_bcast_apply _ _ r d).trans ?_
  refine (sm_col_cast_apply _ _ r 0).trans ?_
  refine (Ideal.multiReduction_add_single e 0x00000000#32 reduces_S3200x4_S3200 (.inl rfl) rfl (ix1 r)).trans ?_
  show ∑ k : Fin 4, e (reduces_S3200x4_S3200.lift (ix1 r) k) = _
  refine Finset.sum_congr rfl fun k _ => ?_
  rw [sm_lift]

/-- A given [3200, 4] array minus the row softmax of another, read at (r, d). -/
theorem sm_seg (seg ey : FVec Ideal S3200x4 .f32) (r : Fin 3200) (d : Fin 4) :
    subf ey (divf (exp (subf seg (sm_rowMax seg))) (sm_rowSum (exp (subf seg (sm_rowMax seg))))) (ix2 r d)
      = ey (ix2 r d) - Ideal.div
          (Ideal.exp (seg (ix2 r d) - (Finset.univ : Finset (Fin 4)).fold max ⊥ (fun d' => seg (ix2 r d'))))
          (∑ d' : Fin 4, Ideal.exp (seg (ix2 r d') - (Finset.univ : Finset (Fin 4)).fold max ⊥ (fun d' => seg (ix2 r d')))) := by
  show ey (ix2 r d) - Ideal.div (Ideal.exp (seg (ix2 r d) - sm_rowMax seg (ix2 r d)))
      (sm_rowSum (exp (subf seg (sm_rowMax seg))) (ix2 r d)) = _
  rw [sm_rowsum_apply, sm_rowmax_apply]
  refine congrArg (fun s => ey (ix2 r d) - Ideal.div _ s) (Finset.sum_congr rfl fun d' _ => ?_)
  show Ideal.exp (seg (ix2 r d') - sm_rowMax seg (ix2 r d')) = _
  rw [sm_rowmax_apply]

/-- One group: the given row's columns o … o+3 minus the softmax of the logits' columns o … o+3, read at (r, d),
    is the specification's entry for group g = o / 4. -/
theorem sm_group (o : Nat) (g : Fin 4) (ho : o = 4 * g.val) (Z : FVec Ideal S3200x16 .f32) (E : FVec Ideal S1x16 .f32)
    (hZ : S3200x16.Slices ![0, o] S3200x4) (hE : S1x16.Slices ![0, o] S1x4) (r : Fin 3200) (d : Fin 4) :
    subf (broadcastTo S3200x4 (extractStridedSlice S1x4 ![0, o] E hE) broadcasts_S1x4_S3200x4)
        (divf (exp (subf (extractStridedSlice S3200x4 ![0, o] Z hZ) (sm_rowMax (extractStridedSlice S3200x4 ![0, o] Z hZ))))
          (sm_rowSum (exp (subf (extractStridedSlice S3200x4 ![0, o] Z hZ) (sm_rowMax (extractStridedSlice S3200x4 ![0, o] Z hZ))))))
        (ix2 r d)
      = outCore (E (ix2 (0 : Fin 1) (col16 g d))) (fun j' => Z (ix2 r j')) g d := by
  have ho4 : o + 4 ≤ 16 := by have := g.isLt; omega
  refine (sm_seg _ _ r d).trans ?_
  have hs : ∀ d' : Fin 4, extractStridedSlice S3200x4 ![0, o] Z hZ (ix2 r d') = Z (ix2 r (col16 g d')) := fun d' => by
    rw [sm_slice_apply o ho4]
    exact congrArg (fun c => Z (ix2 r c)) (Fin.ext (by show o + d'.val = 4 * g.val + d'.val; omega))
  have he : broadcastTo S3200x4 (extractStridedSlice S1x4 ![0, o] E hE) broadcasts_S1x4_S3200x4 (ix2 r d)
      = E (ix2 (0 : Fin 1) (col16 g d)) := by
    rw [broadcastTo_1b_ab_apply, sm_rowslice_apply o ho4]
    exact congrArg (fun c => E (ix2 (0 : Fin 1) c)) (Fin.ext (by show o + d.val = 4 * g.val + d.val; omega))
  rw [he]
  simp only [hs]
  rfl

/-- Four [3200, 4] pieces laid side by side, read at (r, 4g + d): piece g at (r, d). -/
theorem sm_concat_apply (a b c e : FVec Ideal S3200x4 .f32) (r : Fin 3200) (g d : Fin 4) (x : FVec Ideal S3200x4 .f32)
    (hx : ([⟨S3200x4, a⟩, ⟨S3200x4, b⟩, ⟨S3200x4, c⟩, ⟨S3200x4, e⟩] : List ((s : Shape) × (s.Idx → Ideal .f32)))[g.val]'(g.isLt)
      = ⟨S3200x4, x⟩) :
    concatenate S3200x16 1 [⟨S3200x4, a⟩, ⟨S3200x4, b⟩, ⟨S3200x4, c⟩, ⟨S3200x4, e⟩]
        concatenates_S3200x4_S3200x4_S3200x4_S3200x4_S3200x16_d1 (ix2 r (col16 g d)) = x (ix2 r d) := by
  refine concatenate_apply_piece (t := S3200x16) 1 [⟨S3200x4, a⟩, ⟨S3200x4, b⟩, ⟨S3200x4, c⟩, ⟨S3200x4, e⟩]
    concatenates_S3200x4_S3200x4_S3200x4_S3200x4_S3200x16_d1 (ix2 r (col16 g d)) g.val g.isLt S3200x4 x hx rfl (4 * g.val) ?_ (ix2 r d) ?_ ?_
  · fin_cases g <;> rfl
  · intro b hb
    match b with
    | ⟨0, _⟩ => rfl
    | ⟨1, _⟩ => exact absurd rfl hb
  · rfl

/-- The kernel's four group softmaxes and their concatenation, read at row r and column j: the given row's entry
    minus the softmax over column j's group of the logits, whatever the logits are. -/
theorem softmax_apply (v45 : FVec Ideal S3200x288 .f32) (v46 : Vec Ideal S1x288 .f32) (v51 : Vec Ideal S288x64 .bf16) (v54 : Vec Ideal S1x64 .f32)
    (v61 : Vec Ideal S64x16 .bf16) (v64 v68 : Vec Ideal S1x16 .f32) (r : Fin 3200) (j : Fin 16) :
    k0_pay1 (F := Ideal) (k0_pay3 (F := Ideal) v45 v46 v51 v54 v61 v64) (k0_pay4 (F := Ideal) v68)
        (k0_pay5 (F := Ideal) v45 v46 v51 v54 v61 v64 v68) (k0_pay6 (F := Ideal) v45 v46 v51 v54 v61 v64) (ix2 r j)
      = outCore (v68 (ix2 (0 : Fin 1) j)) (fun j' => k0_pay3 (F := Ideal) v45 v46 v51 v54 v61 v64 (ix2 r j'))
          (⟨j.val / 4, by omega⟩) (⟨j.val % 4, by omega⟩) := by
  have h4 : k0_pay4 (F := Ideal) v68 = v68 := shapeCast_self _ _
  obtain ⟨g, d, rfl⟩ : ∃ g d : Fin 4, j = col16 g d :=
    ⟨⟨j.val / 4, by omega⟩, ⟨j.val % 4, by omega⟩, Fin.ext (by show j.val = 4 * (j.val / 4) + j.val % 4; omega)⟩
  have eg : (⟨(col16 g d).val / 4, by show (4 * g.val + d.val) / 4 < 4; omega⟩ : Fin 4) = g :=
    Fin.ext (by show (4 * g.val + d.val) / 4 = g.val; omega)
  have ed : (⟨(col16 g d).val % 4, by omega⟩ : Fin 4) = d := Fin.ext (by show (4 * g.val + d.val) % 4 = d.val; omega)
  rw [eg, ed]
  unfold k0_pay1 k0_pay5 k0_pay6
  rw [h4]
  generalize k0_pay3 (F := Ideal) v45 v46 v51 v54 v61 v64 = Z
  dsimp only
  fin_cases g
  · refine (sm_concat_apply _ _ _ _ r 0 d _ rfl).trans ?_
    exact sm_group 0 0 rfl Z v68 _ _ r d
  · refine (sm_concat_apply _ _ _ _ r 1 d _ rfl).trans ?_
    exact sm_group 4 1 rfl Z v68 _ _ r d
  · refine (sm_concat_apply _ _ _ _ r 2 d _ rfl).trans ?_
    exact sm_group 8 2 rfl Z v68 _ _ r d
  · refine (sm_concat_apply _ _ _ _ r 3 d _ rfl).trans ?_
    exact sm_group 12 3 rfl Z v68 _ _ r d

end Cert.KernelIdeal.Pay

end
-- ==== Proof.KIValue.lean ====
/-
  The idealized kernel's result as one function of the argument arrays.

  Grid point t stages rows 3200 t … 3200 t + 3199 of the two gathered feature tables and of the stacked index table, and
  the whole of each weight array; the body's one store leaves, at row r and column q of the output block, the identity
  entry minus the group softmax of the sixteen logits of edge 3200 t + r. The gathered tables hold, at edge e, the rows
  of x (and the node types) that the edge's two endpoint indices name, because under the precondition every endpoint
  index lies in [0, 50000) and the gather's in-range test passes everywhere. The 250 blocks tile the [800000, 16] result,
  so the array the pallas_call leaves is G16 of the arguments, and the final reshape to [800000, 4, 4] reads it as G.
-/
import proofs.«417059_j31842887533258_3_alg».proof.Proof.KIDefs
import proofs.«417059_j31842887533258_3_alg».proof.Proof.KIFrame
import proofs.«417059_j31842887533258_3_alg».proof.Proof.KIHost
import proofs.«417059_j31842887533258_3_alg».proof.Proof.KLogits
import proofs.«417059_j31842887533258_3_alg».proof.Proof.KSoftmax
import proofs.«417059_j31842887533258_3_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr Cert.Sheaf

variable (m : (ℓ : Loc nD τ sig) → Buf (Elt Ideal) ℓ) (ρ : Dev nD → PrngReg)

theorem hz2 : (![0, 0] : Fin 2 → Nat) = fun _ => 0 := funext fun a => by fin_cases a <;> rfl

/-- The printed block index maps over the grid: the three per-edge inputs and the output move one block of 3200 rows per
    point; the seven weight windows stay at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = t.val ∧ win0_10.index t (1 : Fin 2) = 0) :=
  (by decide +kernel : ∀ t : Fin grid0.N, _)

theorem N250 (t : Fin cfg0.N) : t.val < 250 := by have := t.isLt; have h : cfg0.N = 250 := N_0; omega

/-- Row r of the block of point t is edge 3200 t + r. -/
def edgeOf (t : Fin cfg0.N) (r : Fin 3200) : Fin 800000 := ⟨3200 * t.val + r.val, by have := N250 t; omega⟩

/-- Window 0: an entry of the block at point t is the array's entry 3200 t rows further down. -/
theorem rd0 (f : S800000x128.Idx → EReal) (t : Fin cfg0.N) (y : S3200x128.Idx) :
    ((cfg0.win 0).blk t).view.read (Elt Ideal) f y = f (((cfg0.win 0).blk t).view.emb y) := rfl
theorem emb0 (t : Fin cfg0.N) (r : Fin 3200) (k : Fin 128) :
    (((cfg0.win 0).blk t).view.emb (ix2 r k) : S800000x128.Idx) = ix2 (edgeOf t r) k := by
  have e := (idx_facts t).1
  refine funext fun a => Fin.ext ?_
  match a with
  | ⟨0, _⟩ => show win0_0.index t (0 : Fin 2) * 3200 + 1 * r.val = 3200 * t.val + r.val; omega
  | ⟨1, _⟩ => show win0_0.index t (1 : Fin 2) * 128 + 1 * k.val = k.val; omega
theorem blk0 (c : Dev nD) (t : Fin cfg0.N) (r : Fin 3200) (k : Fin 128) :
    iblk m c 0 t (ix2 r k) = (V m c main_v4 : S800000x128.Idx → EReal) (ix2 (edgeOf t r) k) :=
  (show iblk m c 0 t (ix2 r k) = ((cfg0.win 0).blk t).view.read (Elt Ideal) (V m c main_v4 : S800000x128.Idx → EReal) (ix2 r k) from rfl).trans
    ((rd0 _ t _).trans (congrArg _ (emb0 t r k)))

/-- Window 1: an entry of the block at point t is the array's entry 3200 t rows further down. -/
theorem rd1 (f : S800000x128.Idx → EReal) (t : Fin cfg0.N) (y : S3200x128.Idx) :
    ((cfg0.win 1).blk t).view.read (Elt Ideal) f y = f (((cfg0.win 1).blk t).view.emb y) := rfl
theorem emb1 (t : Fin cfg0.N) (r : Fin 3200) (k : Fin 128) :
    (((cfg0.win 1).blk t).view.emb (ix2 r k) : S800000x128.Idx) = ix2 (edgeOf t r) k := by
  have e := (idx_facts t).2.1
  refine funext fun a => Fin.ext ?_
  match a with
  | ⟨0, _⟩ => show win0_1.index t (0 : Fin 2) * 3200 + 1 * r.val = 3200 * t.val + r.val; omega
  | ⟨1, _⟩ => show win0_1.index t (1 : Fin 2) * 128 + 1 * k.val = k.val; omega
theorem blk1 (c : Dev nD) (t : Fin cfg0.N) (r : Fin 3200) (k : Fin 128) :
    iblk m c 1 t (ix2 r k) = (V m c main_v5 : S800000x128.Idx → EReal) (ix2 (edgeOf t r) k) :=
  (show iblk m c 1 t (ix2 r k) = ((cfg0.win 1).blk t).view.read (Elt Ideal) (V m c main_v5 : S800000x128.Idx → EReal) (ix2 r k) from rfl).trans
    ((rd1 _ t _).trans (congrArg _ (emb1 t r k)))

/-- Window 2: an entry of the block at point t is the array's entry 3200 t rows further down. -/
theorem rd2 (f : S800000x3.Idx → BitVec 32) (t : Fin cfg0.N) (y : S3200x3.Idx) :
    ((cfg0.win 2).blk t).view.read (Elt Ideal) f y = f (((cfg0.win 2).blk t).view.emb y) := rfl
theorem emb2 (t : Fin cfg0.N) (r : Fin 3200) (k : Fin 3) :
    (((cfg0.win 2).blk t).view.emb (ix2 r k) : S800000x3.Idx) = ix2 (edgeOf t r) k := by
  have e := (idx_facts t).2.2.1
  refine funext fun a => Fin.ext ?_
  match a with
  | ⟨0, _⟩ => show win0_2.index t (0 : Fin 2) * 3200 + 1 * r.val = 3200 * t.val + r.val; omega
  | ⟨1, _⟩ => show win0_2.index t (1 : Fin 2) * 3 + 1 * k.val = k.val; omega
theorem blk2 (c : Dev nD) (t : Fin cfg0.N) (r : Fin 3200) (k : Fin 3) :
    iblk m c 2 t (ix2 r k) = (V m c main_v11 : S800000x3.Idx → BitVec 32) (ix2 (edgeOf t r) k) :=
  (show iblk m c 2 t (ix2 r k) = ((cfg0.win 2).blk t).view.read (Elt Ideal) (V m c main_v11 : S800000x3.Idx → BitVec 32) (ix2 r k) from rfl).trans
    ((rd2 _ t _).trans (congrArg _ (emb2 t r k)))

/-- Window 3: an entry of the block at point t is the array's entry at the same place (the window holds the whole array). -/
theorem rd3 (f : S1x288.Idx → EReal) (t : Fin cfg0.N) (y : S1x288.Idx) :
    ((cfg0.win 3).blk t).view.read (Elt Ideal) f y = f (((cfg0.win 3).blk t).view.emb y) := rfl
theorem emb3 (t : Fin cfg0.N) (r : Fin 1) (k : Fin 288) :
    (((cfg0.win 3).blk t).view.emb (ix2 r k) : S1x288.Idx) = ix2 r k := by
  have e := (idx_facts t).2.2.2.1
  refine funext fun a => Fin.ext ?_
  match a with
  | ⟨0, _⟩ => show win0_3.index t (0 : Fin 2) * 1 + 1 * r.val = r.val; omega
  | ⟨1, _⟩ => show win0_3.index t (1 : Fin 2) * 288 + 1 * k.val = k.val; omega
theorem blk3 (c : Dev nD) (t : Fin cfg0.N) (r : Fin 1) (k : Fin 288) :
    iblk m c 3 t (ix2 r k) = (V m c main_v12 : S1x288.Idx → EReal) (ix2 r k) :=
  (show iblk m c 3 t (ix2 r k) = ((cfg0.win 3).blk t).view.read (Elt Ideal) (V m c main_v12 : S1x288.Idx → EReal) (ix2 r k) from rfl).trans
    ((rd3 _ t _).trans (congrArg _ (emb3 t r k)))

/-- Window 4: an entry of the block at point t is the array's entry at the same place (the window holds the whole array). -/
theorem rd4 (f : S1x288.Idx → EReal) (t : Fin cfg0.N) (y : S1x288.Idx) :
    ((cfg0.win 4).blk t).view.read (Elt Ideal) f y = f (((cfg0.win 4).blk t).view.emb y) := rfl
theorem emb4 (t : Fin cfg0.N) (r : Fin 1) (k : Fin 288) :
    (((cfg0.win 4).blk t).view.emb (ix2 r k) : S1x288.Idx) = ix2 r k := by
  have e := (idx_facts t).2.2.2.2.1
  refine funext fun a => Fin.ext ?_
  match a with
  | ⟨0, _⟩ => show win0_4.index t (0 : Fin 2) * 1 + 1 * r.val = r.val; omega
  | ⟨1, _⟩ => show win0_4.index t (1 : Fin 2) * 288 + 1 * k.val = k.val; omega
theorem blk4 (c : Dev nD) (t : Fin cfg0.N) (r : Fin 1) (k : Fin 288) :
    iblk m c 4 t (ix2 r k) = (V m c main_v13 : S1x288.Idx → EReal) (ix2 r k) :=
  (show iblk m c 4 t (ix2 r k) = ((cfg0.win 4).blk t).view.read (Elt Ideal) (V m c main_v13 : S1x288.Idx → EReal) (ix2 r k) from rfl).trans
    ((rd4 _ t _).trans (congrArg _ (emb4 t r k)))

/-- Window 5: an entry of the block at point t is the array's entry at the same place (the window holds the whole array). -/
theorem rd5 (f : S288x64.Idx → EReal) (t : Fin cfg0.N) (y : S288x64.Idx) :
    ((cfg0.win 5).blk t).view.read (Elt Ideal) f y = f (((cfg0.win 5).blk t).view.emb y) := rfl
theorem emb5 (t : Fin cfg0.N) (r : Fin 288) (k : Fin 64) :
    (((cfg0.win 5).blk t).view.emb (ix2 r k) : S288x64.Idx) = ix2 r k := by
  have e := (idx_facts t).2.2.2.2.2.1
  refine funext fun a => Fin.ext ?_
  match a with
  | ⟨0, _⟩ => show win0_5.index t (0 : Fin 2) * 288 + 1 * r.val = r.val; omega
  | ⟨1, _⟩ => show win0_5.index t (1 : Fin 2) * 64 + 1 * k.val = k.val; omega
theorem blk5 (c : Dev nD) (t : Fin cfg0.N) (r : Fin 288) (k : Fin 64) :
    iblk m c 5 t (ix2 r k) = (V m c main_v16 : S288x64.Idx → EReal) (ix2 r k) :=
  (show iblk m c 5 t (ix2 r k) = ((cfg0.win 5).blk t).view.read (Elt Ideal) (V m c main_v16 : S288x64.Idx → EReal) (ix2 r k) from rfl).trans
    ((rd5 _ t _).trans (congrArg _ (emb5 t r k)))

/-- Window 6: an entry of the block at point t is the array's entry at the same place (the window holds the whole array). -/
theorem rd6 (f : S1x64.Idx → EReal) (t : Fin cfg0.N) (y : S1x64.Idx) :
    ((cfg0.win 6).blk t).view.read (Elt Ideal) f y = f (((cfg0.win 6).blk t).view.emb y) := rfl
theorem emb6 (t : Fin cfg0.N) (r : Fin 1) (k : Fin 64) :
    (((cfg0.win 6).blk t).view.emb (ix2 r k) : S1x64.Idx) = ix2 r k := by
  have e := (idx_facts t).2.2.2.2.2.2.1
  refine funext fun a => Fin.ext ?_
  match a with
  | ⟨0, _⟩ => show win0_6.index t (0 : Fin 2) * 1 + 1 * r.val = r.val; omega
  | ⟨1, _⟩ => show win0_6.index t (1 : Fin 2) * 64 + 1 * k.val = k.val; omega
theorem blk6 (c : Dev nD) (t : Fin cfg0.N) (r : Fin 1) (k : Fin 64) :
    iblk m c 6 t (ix2 r k) = (V m c main_v14 : S1x64.Idx → EReal) (ix2 r k) :=
  (show iblk m c 6 t (ix2 r k) = ((cfg0.win 6).blk t).view.read (Elt Ideal) (V m c main_v14 : S1x64.Idx → EReal) (ix2 r k) from rfl).trans
    ((rd6 _ t _).trans (congrArg _ (emb6 t r k)))

/-- Window 7: an entry of the block at point t is the array's entry at the same place (the window holds the whole array). -/
theorem rd7 (f : S64x16.Idx → EReal) (t : Fin cfg0.N) (y : S64x16.Idx) :
    ((cfg0.win 7).blk t).view.read (Elt Ideal) f y = f (((cfg0.win 7).blk t).view.emb y) := rfl
theorem emb7 (t : Fin cfg0.N) (r : Fin 64) (k : Fin 16) :
    (((cfg0.win 7).blk t).view.emb (ix2 r k) : S64x16.Idx) = ix2 r k := by
  have e := (idx_facts t).2.2.2.2.2.2.2.1
  refine funext fun a => Fin.ext ?_
  match a with
  | ⟨0, _⟩ => show win0_7.index t (0 : Fin 2) * 64 + 1 * r.val = r.val; omega
  | ⟨1, _⟩ => show win0_7.index t (1 : Fin 2) * 16 + 1 * k.val = k.val; omega
theorem blk7 (c : Dev nD) (t : Fin cfg0.N) (r : Fin 64) (k : Fin 16) :
    iblk m c 7 t (ix2 r k) = (V m c main_v17 : S64x16.Idx → EReal) (ix2 r k) :=
  (show iblk m c 7 t (ix2 r k) = ((cfg0.win 7).blk t).view.read (Elt Ideal) (V m c main_v17 : S64x16.Idx → EReal) (ix2 r k) from rfl).trans
    ((rd7 _ t _).trans (congrArg _ (emb7 t r k)))

/-- Window 8: an entry of the block at point t is the array's entry at the same place (the window holds the whole array). -/
theorem rd8 (f : S1x16.Idx → EReal) (t : Fin cfg0.N) (y : S1x16.Idx) :
    ((cfg0.win 8).blk t).view.read (Elt Ideal) f y = f (((cfg0.win 8).blk t).view.emb y) := rfl
theorem emb8 (t : Fin cfg0.N) (r : Fin 1) (k : Fin 16) :
    (((cfg0.win 8).blk t).view.emb (ix2 r k) : S1x16.Idx) = ix2 r k := by
  have e := (idx_facts t).2.2.2.2.2.2.2.2.1
  refine funext fun a => Fin.ext ?_
  match a with
  | ⟨0, _⟩ => show win0_8.index t (0 : Fin 2) * 1 + 1 * r.val = r.val; omega
  | ⟨1, _⟩ => show win0_8.index t (1 : Fin 2) * 16 + 1 * k.val = k.val; omega
theorem blk8 (c : Dev nD) (t : Fin cfg0.N) (r : Fin 1) (k : Fin 16) :
    iblk m c 8 t (ix2 r k) = (V m c main_v15 : S1x16.Idx → EReal) (ix2 r k) :=
  (show iblk m c 8 t (ix2 r k) = ((cfg0.win 8).blk t).view.read (Elt Ideal) (V m c main_v15 : S1x16.Idx → EReal) (ix2 r k) from rfl).trans
    ((rd8 _ t _).trans (congrArg _ (emb8 t r k)))

/-- Window 9: an entry of the block at point t is the array's entry at the same place (the window holds the whole array). -/
theorem rd9 (f : S1x16.Idx → EReal) (t : Fin cfg0.N) (y : S1x16.Idx) :
    ((cfg0.win 9).blk t).view.read (Elt Ideal) f y = f (((cfg0.win 9).blk t).view.emb y) := rfl
theorem emb9 (t : Fin cfg0.N) (r : Fin 1) (k : Fin 16) :
    (((cfg0.win 9).blk t).view.emb (ix2 r k) : S1x16.Idx) = ix2 r k := by
  have e := (idx_facts t).2.2.2.2.2.2.2.2.2.1
  refine funext fun a => Fin.ext ?_
  match a with
  | ⟨0, _⟩ => show win0_9.index t (0 : Fin 2) * 1 + 1 * r.val = r.val; omega
  | ⟨1, _⟩ => show win0_9.index t (1 : Fin 2) * 16 + 1 * k.val = k.val; omega
theorem blk9 (c : Dev nD) (t : Fin cfg0.N) (r : Fin 1) (k : Fin 16) :
    iblk m c 9 t (ix2 r k) = (V m c main_v24 : S1x16.Idx → EReal) (ix2 r k) :=
  (show iblk m c 9 t (ix2 r k) = ((cfg0.win 9).blk t).view.read (Elt Ideal) (V m c main_v24 : S1x16.Idx → EReal) (ix2 r k) from rfl).trans
    ((rd9 _ t _).trans (congrArg _ (emb9 t r k)))

/-- The output window likewise. -/
theorem rd10 (f : S800000x16.Idx → EReal) (t : Fin cfg0.N) (y : S3200x16.Idx) :
    ((cfg0.win 10).blk t).view.read (Elt Ideal) f y = f (((cfg0.win 10).blk t).view.emb y) := rfl
theorem emb10 (t : Fin cfg0.N) (r : Fin 3200) (k : Fin 16) :
    (((cfg0.win 10).blk t).view.emb (ix2 r k) : S800000x16.Idx) = ix2 (edgeOf t r) k := by
  have e := (idx_facts t).2.2.2.2.2.2.2.2.2.2
  refine funext fun a => Fin.ext ?_
  match a with
  | ⟨0, _⟩ => show win0_10.index t (0 : Fin 2) * 3200 + 1 * r.val = 3200 * t.val + r.val; omega
  | ⟨1, _⟩ => show win0_10.index t (1 : Fin 2) * 16 + 1 * k.val = k.val; omega

/-- What the body stores, at row r and column q, for any ten blocks: the identity-row entry minus the group softmax of the
    row's logits (the two halves of the body read at an index, composed). -/
theorem stored_apply (x0 x1 : Vec Ideal S3200x128 .f32) (x2 : Vec Ideal S3200x3 .i32) (x3 x4 : Vec Ideal S1x288 .f32)
    (x5 : Vec Ideal S288x64 .bf16) (x6 : Vec Ideal S1x64 .f32) (x7 : Vec Ideal S64x16 .bf16) (x8 x9 : Vec Ideal S1x16 .f32)
    (r : Fin 3200) (q : Fin 16) :
    stored (F := Ideal) x0 x1 x2 x3 x4 x5 x6 x7 x8 x9 (ix2 r q)
      = outCore (x9 (ix2 (0 : Fin 1) q))
          (zOf (feat (fun k => x0 (ix2 r k)) (fun k => x1 (ix2 r k)) (x2 (ix2 r (0 : Fin 3))) (x2 (ix2 r (1 : Fin 3))) (x2 (ix2 r (2 : Fin 3))))
            (fun k => x3 (ix2 (0 : Fin 1) k)) (fun k => x4 (ix2 (0 : Fin 1) k)) (fun k j' => x5 (ix2 k j')) (fun j' => x6 (ix2 (0 : Fin 1) j'))
            (fun k j' => x7 (ix2 k j')) (fun j' => x8 (ix2 (0 : Fin 1) j')))
          (⟨q.val / 4, by omega⟩) (⟨q.val % 4, by omega⟩) := by
  unfold stored nrm
  simp only [View.ld_unit_zero (S := S3200x128) hz2, View.ld_unit_zero (S := S3200x3) hz2, View.ld_unit_zero (S := S1x288) hz2,
    View.ld_unit_zero (S := S288x64) hz2, View.ld_unit_zero (S := S1x64) hz2, View.ld_unit_zero (S := S64x16) hz2,
    View.ld_unit_zero (S := S1x16) hz2]
  rw [Cert.KernelIdeal.Pay.softmax_apply]
  refine congrArg (fun z => outCore (x9 (ix2 (0 : Fin 1) q)) z (⟨q.val / 4, by omega⟩ : Fin 4) (⟨q.val % 4, by omega⟩ : Fin 4)) ?_
  funext j'
  exact Cert.KernelIdeal.Pay.logits_apply x0 x1 x2 x3 x4 x5 x6 x7 x8 r j'

/-- The index-range facts the precondition gives, on every device. -/
structure InRange : Prop where
  lo : ∀ (c : Dev nD) i, IntOp.cmpi .sge (m ((c : Thread nD τ).loc main_arg1) i) 0#32 = 1#1
  hi : ∀ (c : Dev nD) i, IntOp.cmpi .slt (m ((c : Thread nD τ).loc main_arg1) i) 50000#32 = 1#1

/-- The [800000, 16] table the pallas_call's result should hold, of core c's argument arrays. -/
abbrev G16m (c : Dev nD) : S800000x16.Idx → EReal := G16 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- WHAT POINT t WRITES BACK is block t of that table. -/
theorem flushed_eq (hR : InRange m) (c : Dev nD) (t : Fin cfg0.N) :
    (dats m 0 c).flushed 10 t = ((cfg0.win 10).blk t).view.read (Elt Ideal) (G16m m c) := by
  show (cfg0.win 10).cut (grid0.coords t) ((dats m 0 c).after 10 t) = _
  rw [after0_10]
  unfold out10
  rw [View.canon_unit_zero hz2]
  funext j
  obtain ⟨r, q, rfl⟩ : ∃ (r : Fin 3200) (q : Fin 16), j = ix2 r q := ⟨j 0, j 1, eq_ix2 j⟩
  refine (show _ = stored (F := Ideal) (iblk m c 0 t) (iblk m c 1 t) (iblk m c 2 t) (iblk m c 3 t) (iblk m c 4 t) (iblk m c 5 t)
    (iblk m c 6 t) (iblk m c 7 t) (iblk m c 8 t) (iblk m c 9 t) (ix2 r q) from rfl).trans ?_
  rw [stored_apply, rd10 (G16m m c) t (ix2 r q), emb10 t r q]
  simp only [blk0, blk1, blk2, blk3, blk4, blk5, blk6, blk7, blk8, blk9]
  simp only [Cert.KernelIdeal.Host.xrow_apply m c (hR.lo c) (hR.hi c), Cert.KernelIdeal.Host.xcol_apply m c (hR.lo c) (hR.hi c),
    Cert.KernelIdeal.Host.idx_apply0 m c (hR.lo c) (hR.hi c), Cert.KernelIdeal.Host.idx_apply1 m c (hR.lo c) (hR.hi c),
    Cert.KernelIdeal.Host.idx_apply2 m c, Cert.KernelIdeal.Host.lnw_apply m c, Cert.KernelIdeal.Host.lnb_apply m c,
    Cert.KernelIdeal.Host.w1_apply m c, Cert.KernelIdeal.Host.b1_apply m c, Cert.KernelIdeal.Host.w2_apply m c,
    Cert.KernelIdeal.Host.b2_apply m c, Cert.KernelIdeal.Host.eye_apply m c]
  rfl

/-- An index of the result array is in point t's block iff each coordinate is in the block's range on its axis. -/
theorem mem_blk10 (t : Fin cfg0.N) (i : S800000x16.Idx) :
    i ∈ ((cfg0.win 10).blk t).view.set ↔ ∀ a : Fin 2, win0_10.index t a * S3200x16.size a ≤ (i a).val ∧ (i a).val < win0_10.index t a * S3200x16.size a + S3200x16.size a := by
  show i ∈ ((View.whole main_v25).slice (win0_10.rect t)).set ↔ _
  rw [View.set_slice_whole, Rect.mem_set_unit]
  exact Iff.rfl

/-- Every row of the result lies in the block of the point its number divided by 3200 names. -/
theorem cover10 (i : S800000x16.Idx) : ∃ t : Fin cfg0.N, (cfg0.win 10).flush t = true ∧ i ∈ ((cfg0.win 10).blk t).view.set := by
  have hi0 : (i 0).val < 800000 := (i 0).isLt
  have hi1 : (i 1).val < 16 := (i 1).isLt
  have hN : cfg0.N = 250 := N_0
  let t : Fin cfg0.N := ⟨(i 0).val / 3200, by omega⟩
  have e := (idx_facts t).2.2.2.2.2.2.2.2.2.2
  have ht : t.val = (i 0).val / 3200 := rfl
  refine ⟨t, flush0_10 t, ?_⟩
  rw [mem_blk10]
  intro a
  match a with
  | ⟨0, _⟩ => show win0_10.index t (0 : Fin 2) * 3200 ≤ (i 0).val ∧ (i 0).val < win0_10.index t (0 : Fin 2) * 3200 + 3200; omega
  | ⟨1, _⟩ => show win0_10.index t (1 : Fin 2) * 16 ≤ (i 1).val ∧ (i 1).val < win0_10.index t (1 : Fin 2) * 16 + 16; omega

/-- THE ARRAY the pallas_call leaves. -/
theorem final10 (hR : InRange m) (c : Dev nD) : (dats m 0 c).arrAt 10 cfg0.N = G16m m c :=
  (dats m 0 c).arrAt_eq_of_cover 10 (G16m m c) (fun t _ => flushed_eq m hR c t) (cover10)

/-- The program's result: the table read as [800000, 4, 4]. -/
abbrev Gm (c : Dev nD) : S800000x4x4.Idx → EReal := G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- Row-major position (e, g, d) of the [800000, 4, 4] result is position (e, 4 g + d) of the table. -/
theorem reshape_G (hR : InRange m) (c : Dev nD) :
    (shapeCast S800000x4x4 (G16m m c) shapeCasts_S800000x16_S800000x4x4 : S800000x4x4.Idx → EReal) = Gm m c := by
  funext i
  obtain ⟨e, g, d, rfl⟩ : ∃ (e : Fin 800000) (g d : Fin 4), i = ix3 e g d := ⟨i 0, i 1, i 2, eq_ix3 i⟩
  have hg : g.val < 4 := g.isLt
  have hd : d.val < 4 := d.isLt
  refine (shapeCast_apply (G16m m c) shapeCasts_S800000x16_S800000x4x4 (ix3 e g d) (ix2 e (⟨4 * g.val + d.val, by omega⟩ : Fin 16))
    (by rewrite [Shape.rowMajor_val_two, Shape.rowMajor_val_three]; show e.val * 16 + (4 * g.val + d.val) = (e.val * 4 + g.val) * 4 + d.val; omega)).trans ?_
  show outOf _ (⟨(4 * g.val + d.val) / 4, _⟩ : Fin 4) (⟨(4 * g.val + d.val) % 4, _⟩ : Fin 4) = outOf _ g d
  congr 1
  · exact Fin.ext (by show (4 * g.val + d.val) / 4 = g.val; omega)
  · exact Fin.ext (by show (4 * g.val + d.val) % 4 = d.val; omega)

/-- After the one host line that follows the pallas_call (the reshape), the result buffer holds G of the arguments. -/
theorem tail_eq (hR : InRange m) (c : Dev nD) :
    Pipeline.afterTail₀ cfgs (dats m) 0 (V0 m) [hostOps1] c main_v26 = Gm m c := by
  unfold Pipeline.afterTail₀
  show StableHlo.after hostOps1 _ (Proc.devRef .tc main_v26) = _
  after_results
  rw [Pipeline.withArrays_arr spec0 launch0.win.arr_inj c _ _ 10, final10 m hR c]
  exact reshape_G m hR c

/-- THE RUN, READ: every weakly fair execution of the idealized kernel program ends with the result at G of the
    arguments and the arguments as launched. -/
theorem run (hR : InRange m) : θ_run defs (onTc (τ := τ) (main (F := Ideal))) ⟨m, fun _ => 0, ρ⟩ (fun r => ∀ c : Dev nD,
      r.2.mem ((c.tc : Thread nD τ).loc main_v26) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨((h c).2 main_v26 (Pipeline.mem_restRefs_of main_v26 (by decide) (by decide))).trans (tail_eq m hR c),
      ((h c).2 main_arg0 (Pipeline.mem_restRefs_of main_arg0 (by decide) (by decide))).trans (W_main_arg0 m c),
      ((h c).2 main_arg1 (Pipeline.mem_restRefs_of main_arg1 (by decide) (by decide))).trans (W_main_arg1 m c),
      ((h c).2 main_arg2 (Pipeline.mem_restRefs_of main_arg2 (by decide) (by decide))).trans (W_main_arg2 m c),
      ((h c).2 main_arg3 (Pipeline.mem_restRefs_of main_arg3 (by decide) (by decide))).trans (W_main_arg3 m c),
      ((h c).2 main_arg4 (Pipeline.mem_restRefs_of main_arg4 (by decide) (by decide))).trans (W_main_arg4 m c),
      ((h c).2 main_arg5 (Pipeline.mem_restRefs_of main_arg5 (by decide) (by decide))).trans (W_main_arg5 m c),
      ((h c).2 main_arg6 (Pipeline.mem_restRefs_of main_arg6 (by decide) (by decide))).trans (W_main_arg6 m c),
      ((h c).2 main_arg7 (Pipeline.mem_restRefs_of main_arg7 (by decide) (by decide))).trans (W_main_arg7 m c),
      ((h c).2 main_arg8 (Pipeline.mem_restRefs_of main_arg8 (by decide) (by decide))).trans (W_main_arg8 m c),
      ((h c).2 main_arg9 (Pipeline.mem_restRefs_of main_arg9 (by decide) (by decide))).trans (W_main_arg9 m c)⟩)
    (run_main m ρ)

end Cert.KernelIdeal.Val

end
-- ==== Proof.RefG.lean ====
/-
  The reference program's last stage is the specification's function G of the argument arrays.

  Read stage by stage at explicit coordinates: the two rows of the edge table with the extent added to a negative
  start index; the four gathers of whole rows (two of the node features, two of the node-type one-hot table); the
  five-piece concatenation, which is the 288 features of an edge; the mean, the variance and the normalised features;
  the two dense layers; the softmax over each group of four logits subtracted from the identity matrix.
-/
import proofs.«417059_j31842887533258_3_alg».proof.Proof.Spec
import proofs.«417059_j31842887533258_3_alg».proof.Proof.RefRead
import proofs.«417059_j31842887533258_3_alg».proof.Proof.LibGatherRows
import Idealize.ShloMosaic.Lib.Pipeline.Value
import Idealize.ShloMosaic.Lib.ValueIdx
import Idealize.ShloMosaic.PureOps.Reduce
import Idealize.ShloMosaic.PureOps.Ideal.Laws

noncomputable section

namespace Cert.ReferenceIdeal.RefG

open Cert.ReferenceIdeal Cert.ReferenceIdeal.Gen Cert.ReferenceIdeal.ReadP Cert.Sheaf Idealize.ShloMosaic Idealize.ShloMosaic.ValueIdx

/-- The argument arrays' types. -/
abbrev TX0 := (⟨S50000x128, .f32⟩ : BufTy).Contents (Elt Ideal)
abbrev TX1 := (⟨S2x800000, .i32⟩ : BufTy).Contents (Elt Ideal)
abbrev TX2 := (⟨S800000, .i32⟩ : BufTy).Contents (Elt Ideal)
abbrev TX3 := (⟨S50000, .i32⟩ : BufTy).Contents (Elt Ideal)
abbrev TX4 := (⟨S288, .f32⟩ : BufTy).Contents (Elt Ideal)
abbrev TX6 := (⟨S288x64, .f32⟩ : BufTy).Contents (Elt Ideal)
abbrev TX7 := (⟨S64, .f32⟩ : BufTy).Contents (Elt Ideal)
abbrev TX8 := (⟨S64x16, .f32⟩ : BufTy).Contents (Elt Ideal)
abbrev TX9 := (⟨S16, .f32⟩ : BufTy).Contents (Elt Ideal)

/-! ## The five-piece concatenation along the columns, read at (e, k) -/

theorem cat5_apply (A B : S800000x128.Idx → EReal) (C D : S800000x8.Idx → EReal) (E : S800000x16.Idx → EReal)
    (e : Fin 800000) (k : Fin 288) :
    concatenate S800000x288 1 [⟨S800000x128, A⟩, ⟨S800000x128, B⟩, ⟨S800000x8, C⟩, ⟨S800000x8, D⟩, ⟨S800000x16, E⟩]
        concatenates_S800000x128_S800000x128_S800000x8_S800000x8_S800000x16_S800000x288_d1 (ix2 e k)
      = if h1 : k.val < 128 then A (ix2 e ⟨k.val, h1⟩)
        else if h2 : k.val < 256 then B (ix2 e ⟨k.val - 128, by omega⟩)
        else if h3 : k.val < 264 then C (ix2 e ⟨k.val - 256, by omega⟩)
        else if h4 : k.val < 272 then D (ix2 e ⟨k.val - 264, by omega⟩)
        else E (ix2 e ⟨k.val - 272, by have := k.isLt; omega⟩) := by
  have hk := k.isLt
  by_cases h1 : k.val < 128
  · rw [dif_pos h1]
    exact concatenate_apply_piece 1 _ _ (ix2 e k) 0 (by simp) S800000x128 A rfl rfl 0 rfl (ix2 e ⟨k.val, h1⟩)
      (fun b hb => by match b with | ⟨0, _⟩ => rfl | ⟨1, _⟩ => exact absurd rfl hb)
      (by show 0 + k.val = k.val; omega)
  rw [dif_neg h1]
  by_cases h2 : k.val < 256
  · rw [dif_pos h2]
    exact concatenate_apply_piece 1 _ _ (ix2 e k) 1 (by simp) S800000x128 B rfl rfl 128 rfl (ix2 e ⟨k.val - 128, by omega⟩)
      (fun b hb => by match b with | ⟨0, _⟩ => rfl | ⟨1, _⟩ => exact absurd rfl hb)
      (by show 128 + (k.val - 128) = k.val; omega)
  rw [dif_neg h2]
  by_cases h3 : k.val < 264
  · rw [dif_pos h3]
    exact concatenate_apply_piece 1 _ _ (ix2 e k) 2 (by simp) S800000x8 C rfl rfl 256 rfl (ix2 e ⟨k.val - 256, by omega⟩)
      (fun b hb => by match b with | ⟨0, _⟩ => rfl | ⟨1, _⟩ => exact absurd rfl hb)
      (by show 256 + (k.val - 256) = k.val; omega)
  rw [dif_neg h3]
  by_cases h4 : k.val < 272
  · rw [dif_pos h4]
    exact concatenate_apply_piece 1 _ _ (ix2 e k) 3 (by simp) S800000x8 D rfl rfl 264 rfl (ix2 e ⟨k.val - 264, by omega⟩)
      (fun b hb => by match b with | ⟨0, _⟩ => rfl | ⟨1, _⟩ => exact absurd rfl hb)
      (by show 264 + (k.val - 264) = k.val; omega)
  rw [dif_neg h4]
  exact concatenate_apply_piece 1 _ _ (ix2 e k) 4 (by simp) S800000x16 E rfl rfl 272 rfl (ix2 e ⟨k.val - 272, by omega⟩)
    (fun b hb => by match b with | ⟨0, _⟩ => rfl | ⟨1, _⟩ => exact absurd rfl hb)
    (by show 272 + (k.val - 272) = k.val; omega)

/-! ## The word of minus infinity, and the fold's index -/

theorem ofBits_neg_inf : Ideal.ofBits .f32 0xFF800000#32 = (⊥ : EReal) := by
  simp [Ideal.ofBits, Ideal.ieee]

theorem red4 : S800000x4x4.Reduces [2] S800000x4 := by decide

theorem lift4 (h : S800000x4x4.Reduces [2] S800000x4) (e : Fin 800000) (g d : Fin 4) :
    h.lift (ix2 e g) d = ix3 e g d :=
  funext fun a => Fin.ext (by
    match a with
    | ⟨0, _⟩ => rfl
    | ⟨1, _⟩ => rfl
    | ⟨2, _⟩ => rfl)

/-! ## The two endpoint rows of the edge table and the wrapped start indices -/

theorem v1_at (x1 : TX1) (e : Fin 800000) : val_main_v1 (F := Ideal) x1 (ix1 e) = x1 (ix2 (0 : Fin 2) e) := by
  rw [val_main_v1_apply, val_main_v0_apply]
  exact congrArg x1 (funext fun a => Fin.ext (by
    match a with
    | ⟨0, _⟩ => rfl
    | ⟨1, _⟩ => exact Nat.mod_eq_of_lt e.isLt))

theorem v3_at (x1 : TX1) (e : Fin 800000) : val_main_v3 (F := Ideal) x1 (ix1 e) = x1 (ix2 (1 : Fin 2) e) := by
  rw [val_main_v3_apply, val_main_v2_apply]
  exact congrArg x1 (funext fun a => Fin.ext (by
    match a with
    | ⟨0, _⟩ => rfl
    | ⟨1, _⟩ => exact Nat.mod_eq_of_lt e.isLt))

theorem v10_at (x1 : TX1) (e : Fin 800000) :
    val_main_v10 (F := Ideal) x1 (ix1 e) = wrapIdx (x1 (ix2 (0 : Fin 2) e)) := by
  rw [val_main_v10_apply, val_main_v7_apply, val_main_v9_apply, val_main_v6_apply, val_main_v8_apply,
    val_main_c_apply, val_main_c_0_apply, v1_at]
  rfl

theorem v17_at (x1 : TX1) (e : Fin 800000) :
    val_main_v17 (F := Ideal) x1 (ix1 e) = wrapIdx (x1 (ix2 (1 : Fin 2) e)) := by
  rw [val_main_v17_apply, val_main_v14_apply, val_main_v16_apply, val_main_v13_apply, val_main_v15_apply,
    val_main_c_1_apply, val_main_c_2_apply, v3_at]
  rfl

theorem v24_at (x1 : TX1) (e : Fin 800000) :
    val_main_v24 (F := Ideal) x1 (ix1 e) = wrapIdx (x1 (ix2 (0 : Fin 2) e)) := by
  rw [val_main_v24_apply, val_main_v21_apply, val_main_v23_apply, val_main_v20_apply, val_main_v22_apply,
    val_main_c_3_apply, val_main_c_4_apply, v1_at]
  rfl

theorem v31_at (x1 : TX1) (e : Fin 800000) :
    val_main_v31 (F := Ideal) x1 (ix1 e) = wrapIdx (x1 (ix2 (1 : Fin 2) e)) := by
  rw [val_main_v31_apply, val_main_v28_apply, val_main_v30_apply, val_main_v27_apply, val_main_v29_apply,
    val_main_c_5_apply, val_main_c_6_apply, v3_at]
  rfl

/-- A column of start indices read at (e, 0) is the vector at e. -/
theorem col_idx (e : Fin 800000) : idx_main_v11 (ix2 e (0 : Fin 1)) = ix1 e :=
  funext fun a => Fin.ext (by match a with | ⟨0, _⟩ => rfl)

theorem v11_at (x1 : TX1) (e : Fin 800000) :
    val_main_v11 (F := Ideal) x1 (ix2 e (0 : Fin 1)) = wrapIdx (x1 (ix2 (0 : Fin 2) e)) := by
  rw [val_main_v11_apply]
  exact (congrArg (val_main_v10 (F := Ideal) x1) (col_idx e)).trans (v10_at x1 e)

theorem v18_at (x1 : TX1) (e : Fin 800000) :
    val_main_v18 (F := Ideal) x1 (ix2 e (0 : Fin 1)) = wrapIdx (x1 (ix2 (1 : Fin 2) e)) := by
  rw [val_main_v18_apply]
  exact (congrArg (val_main_v17 (F := Ideal) x1) (col_idx e)).trans (v17_at x1 e)

theorem v25_at (x1 : TX1) (e : Fin 800000) :
    val_main_v25 (F := Ideal) x1 (ix2 e (0 : Fin 1)) = wrapIdx (x1 (ix2 (0 : Fin 2) e)) := by
  rw [val_main_v25_apply]
  exact (congrArg (val_main_v24 (F := Ideal) x1) (col_idx e)).trans (v24_at x1 e)

theorem v32_at (x1 : TX1) (e : Fin 800000) :
    val_main_v32 (F := Ideal) x1 (ix2 e (0 : Fin 1)) = wrapIdx (x1 (ix2 (1 : Fin 2) e)) := by
  rw [val_main_v32_apply]
  exact (congrArg (val_main_v31 (F := Ideal) x1) (col_idx e)).trans (v31_at x1 e)

/-! ## The four gathers of whole rows -/

theorem v12_at (x0 : TX0) (x1 : TX1) (e : Fin 800000) (k : Fin 128) :
    val_main_v12 (F := Ideal) x0 x1 (ix2 e k) = x0 (ix2 (rowIx (wrapIdx (x1 (ix2 (0 : Fin 2) e)))) k) := by
  unfold val_main_v12
  refine (GatherRows.gather_rows_apply (by decide) _ rfl rfl rfl rfl rfl rfl rfl x0 _ e k).trans ?_
  exact congrArg (fun w => x0 (ix2 (rowIx w) k)) (v11_at x1 e)

theorem v19_at (x0 : TX0) (x1 : TX1) (e : Fin 800000) (k : Fin 128) :
    val_main_v19 (F := Ideal) x0 x1 (ix2 e k) = x0 (ix2 (rowIx (wrapIdx (x1 (ix2 (1 : Fin 2) e)))) k) := by
  unfold val_main_v19
  refine (GatherRows.gather_rows_apply (by decide) _ rfl rfl rfl rfl rfl rfl rfl x0 _ e k).trans ?_
  exact congrArg (fun w => x0 (ix2 (rowIx w) k)) (v18_at x1 e)

/-- The node-type one-hot table: row r, column q is the bit "node_types r = q". -/
theorem v4_at (x3 : TX3) (r : Fin 50000) (q : Fin 8) :
    val_main_v4 (F := Ideal) x3 (ix2 r q) = ind (IntOp.cmpi .eq (x3 (ix1 r)) (BitVec.ofNat 32 q.val)) := by
  rw [val_main_v4_apply, val_main_call0_v4_apply, val_main_call0_v2_apply, val_main_call0_v0_apply,
    val_main_call0_v3_apply, val_main_call0_v1_apply]
  have h : idx_main_call0_v0 (idx_main_call0_v2 (ix2 r q)) = ix1 r :=
    funext fun a => Fin.ext (by match a with | ⟨0, _⟩ => rfl)
  rw [h]
  rfl

theorem v26_at (x1 : TX1) (x3 : TX3) (e : Fin 800000) (q : Fin 8) :
    val_main_v26 (F := Ideal) x1 x3 (ix2 e q)
      = ind (IntOp.cmpi .eq (x3 (ix1 (rowIx (wrapIdx (x1 (ix2 (0 : Fin 2) e)))))) (BitVec.ofNat 32 q.val)) := by
  unfold val_main_v26
  refine (GatherRows.gather_rows_apply (by decide) _ rfl rfl rfl rfl rfl rfl rfl (val_main_v4 (F := Ideal) x3) _ e q).trans ?_
  exact (congrArg (fun w => val_main_v4 (F := Ideal) x3 (ix2 (rowIx w) q)) (v25_at x1 e)).trans (v4_at x3 _ q)

theorem v33_at (x1 : TX1) (x3 : TX3) (e : Fin 800000) (q : Fin 8) :
    val_main_v33 (F := Ideal) x1 x3 (ix2 e q)
      = ind (IntOp.cmpi .eq (x3 (ix1 (rowIx (wrapIdx (x1 (ix2 (1 : Fin 2) e)))))) (BitVec.ofNat 32 q.val)) := by
  unfold val_main_v33
  refine (GatherRows.gather_rows_apply (by decide) _ rfl rfl rfl rfl rfl rfl rfl (val_main_v4 (F := Ideal) x3) _ e q).trans ?_
  exact (congrArg (fun w => val_main_v4 (F := Ideal) x3 (ix2 (rowIx w) q)) (v32_at x1 e)).trans (v4_at x3 _ q)

/-- The edge-type one-hot table. -/
theorem v5_at (x2 : TX2) (e : Fin 800000) (q : Fin 16) :
    val_main_v5 (F := Ideal) x2 (ix2 e q) = ind (IntOp.cmpi .eq (x2 (ix1 e)) (BitVec.ofNat 32 q.val)) := by
  rw [val_main_v5_apply, val_main_call1_v4_apply, val_main_call1_v2_apply, val_main_call1_v0_apply,
    val_main_call1_v3_apply, val_main_call1_v1_apply]
  have h : idx_main_call1_v0 (idx_main_call1_v2 (ix2 e q)) = ix1 e :=
    funext fun a => Fin.ext (by match a with | ⟨0, _⟩ => rfl)
  rw [h]
  rfl

/-! ## The feature row -/

theorem v34_at (x0 : TX0) (x1 : TX1) (x2 : TX2) (x3 : TX3) (e : Fin 800000) (k : Fin 288) :
    val_main_v34 (F := Ideal) x0 x1 x2 x3 (ix2 e k) = featOf x0 x1 x2 x3 e k := by
  unfold val_main_v34
  refine (cat5_apply _ _ _ _ _ e k).trans ?_
  unfold featOf feat
  by_cases h1 : k.val < 128
  · rw [dif_pos h1, dif_pos h1, v12_at]
  rw [dif_neg h1, dif_neg h1]
  by_cases h2 : k.val < 256
  · rw [dif_pos h2, dif_pos h2, v19_at]
  rw [dif_neg h2, dif_neg h2]
  by_cases h3 : k.val < 264
  · rw [dif_pos h3, if_pos h3, v26_at]
  rw [dif_neg h3, if_neg h3]
  by_cases h4 : k.val < 272
  · rw [dif_pos h4, if_pos h4, v33_at]
  rw [dif_neg h4, if_neg h4, v5_at]

/-! ## The normalisation over the 288 features -/

/-- A per-edge column read at (e, k) is read at (e, 0). -/
theorem bcol_idx (e : Fin 800000) (k : Fin 288) : idx_main_v39 (ix2 e k) = ix2 e (0 : Fin 1) :=
  funext fun a => Fin.ext (by match a with | ⟨0, _⟩ => rfl | ⟨1, _⟩ => rfl)

theorem red_idx (e : Fin 800000) (k : Fin 288) : idx_main_v35 (ix1 e) k = ix2 e k :=
  funext fun a => Fin.ext (by match a with | ⟨0, _⟩ => rfl | ⟨1, _⟩ => rfl)

theorem v35_at (x0 : TX0) (x1 : TX1) (x2 : TX2) (x3 : TX3) (e : Fin 800000) :
    val_main_v35 (F := Ideal) x0 x1 x2 x3 (ix1 e) = ∑ k, featOf x0 x1 x2 x3 e k := by
  rw [val_main_v35_apply, val_main_cst_apply, Ideal.ofBits_def, Ideal.ofBits_zero_f32, zero_add]
  refine Finset.sum_congr rfl fun k _ => ?_
  exact (congrArg (val_main_v34 (F := Ideal) x0 x1 x2 x3) (red_idx e k)).trans (v34_at x0 x1 x2 x3 e k)

theorem v38_at (x0 : TX0) (x1 : TX1) (x2 : TX2) (x3 : TX3) (e : Fin 800000) :
    val_main_v38 (F := Ideal) x0 x1 x2 x3 (ix2 e (0 : Fin 1)) = mu (featOf x0 x1 x2 x3 e) := by
  rw [val_main_v38_apply, val_main_v36_apply, val_main_v37_apply, val_main_cst_7_apply]
  have h : idx_main_v36 (ix2 e (0 : Fin 1)) = ix1 e := funext fun a => Fin.ext (by match a with | ⟨0, _⟩ => rfl)
  rw [h, v35_at]
  rfl

theorem v40_at (x0 : TX0) (x1 : TX1) (x2 : TX2) (x3 : TX3) (e : Fin 800000) (k : Fin 288) :
    val_main_v40 (F := Ideal) x0 x1 x2 x3 (ix2 e k) = featOf x0 x1 x2 x3 e k - mu (featOf x0 x1 x2 x3 e) := by
  rw [val_main_v40_apply, val_main_v39_apply, v34_at, bcol_idx, v38_at]
  rfl

theorem v42_at (x0 : TX0) (x1 : TX1) (x2 : TX2) (x3 : TX3) (e : Fin 800000) :
    val_main_v42 (F := Ideal) x0 x1 x2 x3 (ix1 e)
      = ∑ k, (featOf x0 x1 x2 x3 e k - mu (featOf x0 x1 x2 x3 e)) * (featOf x0 x1 x2 x3 e k - mu (featOf x0 x1 x2 x3 e)) := by
  rw [val_main_v42_apply, val_main_cst_8_apply, Ideal.ofBits_def, Ideal.ofBits_zero_f32, zero_add]
  refine Finset.sum_congr rfl fun k _ => ?_
  have h : idx_main_v42 (ix1 e) k = ix2 e k :=
    funext fun a => Fin.ext (by match a with | ⟨0, _⟩ => rfl | ⟨1, _⟩ => rfl)
  rw [h, val_main_v41_apply, v40_at]
  rfl

theorem v45_at (x0 : TX0) (x1 : TX1) (x2 : TX2) (x3 : TX3) (e : Fin 800000) :
    val_main_v45 (F := Ideal) x0 x1 x2 x3 (ix2 e (0 : Fin 1)) = var (featOf x0 x1 x2 x3 e) := by
  rw [val_main_v45_apply, val_main_v43_apply, val_main_v44_apply, val_main_cst_9_apply]
  have h : idx_main_v43 (ix2 e (0 : Fin 1)) = ix1 e := funext fun a => Fin.ext (by match a with | ⟨0, _⟩ => rfl)
  rw [h, v42_at]
  rfl

theorem v50_at (x0 : TX0) (x1 : TX1) (x2 : TX2) (x3 : TX3) (e : Fin 800000) :
    val_main_v50 (F := Ideal) x0 x1 x2 x3 (ix2 e (0 : Fin 1)) = Ideal.rsqrt (var (featOf x0 x1 x2 x3 e) + ceps) := by
  rw [val_main_v50_apply, val_main_v49_apply, v45_at, val_main_v48_apply, val_main_cst_10_apply]
  rfl

theorem v58_at (x0 : TX0) (x1 : TX1) (x2 : TX2) (x3 : TX3) (x4 x5 : TX4) (e : Fin 800000) (k : Fin 288) :
    val_main_v58 (F := Ideal) x0 x1 x2 x3 x4 x5 (ix2 e k)
      = lnorm (featOf x0 x1 x2 x3 e) (fun k => x4 (ix1 k)) (fun k => x5 (ix1 k)) k := by
  have h46 : idx_main_v46 (ix2 e k) = ix2 e (0 : Fin 1) :=
    funext fun a => Fin.ext (by match a with | ⟨0, _⟩ => rfl | ⟨1, _⟩ => rfl)
  have h51 : idx_main_v51 (ix2 e k) = ix2 e (0 : Fin 1) :=
    funext fun a => Fin.ext (by match a with | ⟨0, _⟩ => rfl | ⟨1, _⟩ => rfl)
  have h53 : idx_main_v53 (idx_main_v54 (ix2 e k)) = ix1 k :=
    funext fun a => Fin.ext (by match a with | ⟨0, _⟩ => rfl)
  have h56 : idx_main_v56 (idx_main_v57 (ix2 e k)) = ix1 k :=
    funext fun a => Fin.ext (by match a with | ⟨0, _⟩ => rfl)
  rw [val_main_v58_apply, val_main_v55_apply, val_main_v52_apply, val_main_v47_apply, val_main_v46_apply,
    val_main_v51_apply, val_main_v54_apply, val_main_v53_apply, val_main_v57_apply, val_main_v56_apply,
    v34_at, h46, v38_at, h51, v50_at, h53, h56]
  rfl

/-! ## The two dense layers -/

theorem v63_at (x0 : TX0) (x1 : TX1) (x2 : TX2) (x3 : TX3) (x4 x5 : TX4) (x6 : TX6) (x7 : TX7)
    (e : Fin 800000) (j : Fin 64) :
    val_main_v63 (F := Ideal) x0 x1 x2 x3 x4 x5 x6 x7 (ix2 e j)
      = hid (lnorm (featOf x0 x1 x2 x3 e) (fun k => x4 (ix1 k)) (fun k => x5 (ix1 k)))
          (fun k j => x6 (ix2 k j)) (fun j => x7 (ix1 j)) j := by
  have h60 : idx_main_v60 (idx_main_v61 (ix2 e j)) = ix1 j :=
    funext fun a => Fin.ext (by match a with | ⟨0, _⟩ => rfl)
  rw [val_main_v63_apply, val_main_v62_apply, val_main_v59_apply, val_main_v61_apply, val_main_v60_apply, h60,
    val_main_call2_v0_apply, val_main_call2_cst_apply, Ideal.ofBits_def, Ideal.ofBits_zero_f32]
  unfold hid
  rw [Ideal.maximumf_def, Ideal.addf_def]
  refine congrArg (fun s => max (s + x7 (ix1 j)) 0) (Finset.sum_congr rfl fun k _ => ?_)
  have hl : lidx_main_v59 (ix2 e j) k = ix2 e k :=
    funext fun a => Fin.ext (by match a with | ⟨0, _⟩ => rfl | ⟨1, _⟩ => rfl)
  have hr : ridx_main_v59 (ix2 e j) k = ix2 k j :=
    funext fun a => Fin.ext (by match a with | ⟨0, _⟩ => rfl | ⟨1, _⟩ => rfl)
  rw [hl, hr, v58_at]

theorem v67_at (x0 : TX0) (x1 : TX1) (x2 : TX2) (x3 : TX3) (x4 x5 : TX4) (x6 : TX6) (x7 : TX7) (x8 : TX8) (x9 : TX9)
    (e : Fin 800000) (j : Fin 16) :
    val_main_v67 (F := Ideal) x0 x1 x2 x3 x4 x5 x6 x7 x8 x9 (ix2 e j) = zEdge x0 x1 x2 x3 x4 x5 x6 x7 x8 x9 e j := by
  have h65 : idx_main_v65 (idx_main_v66 (ix2 e j)) = ix1 j :=
    funext fun a => Fin.ext (by match a with | ⟨0, _⟩ => rfl)
  rw [val_main_v67_apply, val_main_v64_apply, val_main_v66_apply, val_main_v65_apply, h65]
  unfold zEdge zOf logit
  rw [Ideal.addf_def]
  refine congrArg (fun s => s + x9 (ix1 j)) (Finset.sum_congr rfl fun k _ => ?_)
  have hl : lidx_main_v64 (ix2 e j) k = ix2 e k :=
    funext fun a => Fin.ext (by match a with | ⟨0, _⟩ => rfl | ⟨1, _⟩ => rfl)
  have hr : ridx_main_v64 (ix2 e j) k = ix2 k j :=
    funext fun a => Fin.ext (by match a with | ⟨0, _⟩ => rfl | ⟨1, _⟩ => rfl)
  rw [hl, hr, v63_at]

/-! ## The softmax over each group of four, and the result -/

theorem v68_at (x0 : TX0) (x1 : TX1) (x2 : TX2) (x3 : TX3) (x4 x5 : TX4) (x6 : TX6) (x7 : TX7) (x8 : TX8) (x9 : TX9)
    (e : Fin 800000) (g d : Fin 4) :
    val_main_v68 (F := Ideal) x0 x1 x2 x3 x4 x5 x6 x7 x8 x9 (ix3 e g d)
      = zEdge x0 x1 x2 x3 x4 x5 x6 x7 x8 x9 e (col16 g d) := by
  have h : idx_main_v68 (ix3 e g d) = ix2 e (col16 g d) :=
    funext fun a => Fin.ext (by
      have he := e.isLt; have hg := g.isLt; have hd := d.isLt
      match a with
      | ⟨0, _⟩ => show ((e.val * 4 + g.val) * 4 + d.val) / 16 = e.val; omega
      | ⟨1, _⟩ => show ((e.val * 4 + g.val) * 4 + d.val) % 16 = 4 * g.val + d.val; omega)
  rw [val_main_v68_apply, h, v67_at]

theorem v69_at (x0 : TX0) (x1 : TX1) (x2 : TX2) (x3 : TX3) (x4 x5 : TX4) (x6 : TX6) (x7 : TX7) (x8 : TX8) (x9 : TX9)
    (e : Fin 800000) (g : Fin 4) :
    val_main_v69 (F := Ideal) x0 x1 x2 x3 x4 x5 x6 x7 x8 x9 (ix2 e g)
      = gmax (zEdge x0 x1 x2 x3 x4 x5 x6 x7 x8 x9 e) g := by
  unfold val_main_v69
  rw [Host.reduce_eq_fold_single FloatOps.maximumf _ _ _ red4 h_S_ (ix2 e g), val_main_cst_11_apply,
    Ideal.ofBits_def, ofBits_neg_inf]
  unfold gmax
  have hf : (val_main_v68 (F := Ideal) x0 x1 x2 x3 x4 x5 x6 x7 x8 x9 ∘ red4.lift (ix2 e g))
      = fun d : Fin 4 => zEdge x0 x1 x2 x3 x4 x5 x6 x7 x8 x9 e (col16 g d) :=
    funext fun d => (congrArg (val_main_v68 (F := Ideal) x0 x1 x2 x3 x4 x5 x6 x7 x8 x9) (lift4 red4 e g d)).trans
      (v68_at x0 x1 x2 x3 x4 x5 x6 x7 x8 x9 e g d)
  exact congrArg (fun f => Finset.fold max (⊥ : EReal) f (Finset.univ : Finset (Fin 4))) hf

theorem v71_at (x0 : TX0) (x1 : TX1) (x2 : TX2) (x3 : TX3) (x4 x5 : TX4) (x6 : TX6) (x7 : TX7) (x8 : TX8) (x9 : TX9)
    (e : Fin 800000) (g : Fin 4) :
    val_main_v71 (F := Ideal) x0 x1 x2 x3 x4 x5 x6 x7 x8 x9 (ix2 e g)
      = gmax (zEdge x0 x1 x2 x3 x4 x5 x6 x7 x8 x9 e) g := by
  rw [val_main_v71_apply, val_main_v70_apply, val_main_cst_12_apply, v69_at, Ideal.ofBits_def, ofBits_neg_inf,
    Ideal.maximumf_def]
  exact max_eq_right bot_le

theorem v75_at (x0 : TX0) (x1 : TX1) (x2 : TX2) (x3 : TX3) (x4 x5 : TX4) (x6 : TX6) (x7 : TX7) (x8 : TX8) (x9 : TX9)
    (e : Fin 800000) (g d : Fin 4) :
    val_main_v75 (F := Ideal) x0 x1 x2 x3 x4 x5 x6 x7 x8 x9 (ix3 e g d)
      = Ideal.exp (zEdge x0 x1 x2 x3 x4 x5 x6 x7 x8 x9 e (col16 g d) - gmax (zEdge x0 x1 x2 x3 x4 x5 x6 x7 x8 x9 e) g) := by
  have h : idx_main_v72 (idx_main_v73 (ix3 e g d)) = ix2 e g :=
    funext fun a => Fin.ext (by match a with | ⟨0, _⟩ => rfl | ⟨1, _⟩ => rfl)
  rw [val_main_v75_apply, val_main_v74_apply, val_main_v73_apply, val_main_v72_apply, h, v68_at, v71_at]
  rfl

theorem v76_at (x0 : TX0) (x1 : TX1) (x2 : TX2) (x3 : TX3) (x4 x5 : TX4) (x6 : TX6) (x7 : TX7) (x8 : TX8) (x9 : TX9)
    (e : Fin 800000) (g : Fin 4) :
    val_main_v76 (F := Ideal) x0 x1 x2 x3 x4 x5 x6 x7 x8 x9 (ix2 e g)
      = ∑ d' : Fin 4, Ideal.exp (zEdge x0 x1 x2 x3 x4 x5 x6 x7 x8 x9 e (col16 g d')
          - gmax (zEdge x0 x1 x2 x3 x4 x5 x6 x7 x8 x9 e) g) := by
  rw [val_main_v76_apply, val_main_cst_13_apply, Ideal.ofBits_def, Ideal.ofBits_zero_f32, zero_add]
  refine Finset.sum_congr rfl fun k _ => ?_
  have h : idx_main_v76 (ix2 e g) k = ix3 e g k :=
    funext fun a => Fin.ext (by match a with | ⟨0, _⟩ => rfl | ⟨1, _⟩ => rfl | ⟨2, _⟩ => rfl)
  rw [h, v75_at]

theorem v87_at (e : Fin 800000) (g d : Fin 4) : val_main_v87 (F := Ideal) (ix3 e g d) = eye g d := by
  have h : idx_main_v86 (idx_main_v87 (ix3 e g d)) = ix2 g d :=
    funext fun a => Fin.ext (by match a with | ⟨0, _⟩ => rfl | ⟨1, _⟩ => rfl)
  rw [val_main_v87_apply, val_main_v86_apply, h, val_main_v85_apply, val_main_v84_apply, val_main_v83_apply,
    val_main_v80_apply, val_main_v81_apply, val_main_v82_apply, val_main_c_14_apply]
  rfl

theorem v88_at (x0 : TX0) (x1 : TX1) (x2 : TX2) (x3 : TX3) (x4 x5 : TX4) (x6 : TX6) (x7 : TX7) (x8 : TX8) (x9 : TX9)
    (e : Fin 800000) (g d : Fin 4) :
    val_main_v88 (F := Ideal) x0 x1 x2 x3 x4 x5 x6 x7 x8 x9 (ix3 e g d)
      = outOf (zEdge x0 x1 x2 x3 x4 x5 x6 x7 x8 x9 e) g d := by
  have h : idx_main_v77 (idx_main_v78 (ix3 e g d)) = ix2 e g :=
    funext fun a => Fin.ext (by match a with | ⟨0, _⟩ => rfl | ⟨1, _⟩ => rfl)
  rw [val_main_v88_apply, v87_at, val_main_v79_apply, v75_at, val_main_v78_apply, val_main_v77_apply, h, v76_at]
  rfl

/-- The reference's last stage is the specification's function of the argument arrays. -/
theorem ref_eq (x0 : (⟨S50000x128, .f32⟩ : BufTy).Contents (Elt Ideal)) (x1 : (⟨S2x800000, .i32⟩ : BufTy).Contents (Elt Ideal))
    (x2 : (⟨S800000, .i32⟩ : BufTy).Contents (Elt Ideal)) (x3 : (⟨S50000, .i32⟩ : BufTy).Contents (Elt Ideal))
    (x4 x5 : (⟨S288, .f32⟩ : BufTy).Contents (Elt Ideal)) (x6 : (⟨S288x64, .f32⟩ : BufTy).Contents (Elt Ideal))
    (x7 : (⟨S64, .f32⟩ : BufTy).Contents (Elt Ideal)) (x8 : (⟨S64x16, .f32⟩ : BufTy).Contents (Elt Ideal))
    (x9 : (⟨S16, .f32⟩ : BufTy).Contents (Elt Ideal)) :
    Cert.ReferenceIdeal.ReadP.val_main_v88 (F := Ideal) x0 x1 x2 x3 x4 x5 x6 x7 x8 x9
      = Cert.Sheaf.G x0 x1 x2 x3 x4 x5 x6 x7 x8 x9 := by
  funext i
  obtain ⟨e, g, d, rfl⟩ : ∃ (e : Fin 800000) (g d : Fin 4), i = ix3 e g d := ⟨i 0, i 1, i 2, eq_ix3 i⟩
  exact v88_at x0 x1 x2 x3 x4 x5 x6 x7 x8 x9 e g d

end Cert.ReferenceIdeal.RefG

end
-- ==== Proof.PreDecode.lean ====
/-
  What the precondition says of the edge endpoints: the predicate is a conjunction, over all inputs, of "every entry
  passes a test", each test reduced by "and" to one bit; its last two conjuncts test every endpoint index against
  0 (at least) and against 50000 (below). The whole predicate being 1 makes each of the two reductions 1, and a
  reduction by "and" that is 1 had a 1 at every entry.
-/
import proofs.«417059_j31842887533258_3_alg».proof.Pre_finite_inputs
import Idealize.ShloMosaic.Lib.ReduceAll
import Idealize.ShloMosaic.Lib.ValueIdx

namespace Cert.PreDecode

open Idealize.ShloMosaic Cert.Pre_finite_inputs

variable [Cert.Pre_finite_inputs.Facts]

instance : Subsingleton S_.Idx := ⟨fun a b => funext fun d => d.elim0⟩

/-- Under the precondition every endpoint index is at least 0 and below 50000, as the two signed comparisons say. -/
theorem idx_range {F : FTy → Type} [FloatOps F] (a0 : FVec F S50000x128 .f32) (a1 : IVec S2x800000 32) (a2 : IVec S800000 32)
    (a3 : IVec S50000 32) (a4 a5 : FVec F S288 .f32) (a6 : FVec F S288x64 .f32) (a7 : FVec F S64 .f32) (a8 : FVec F S64x16 .f32)
    (a9 : FVec F S16 .f32) (h : fn (F := F) a0 a1 a2 a3 a4 a5 a6 a7 a8 a9 = fun _ => 1#1) (i : S2x800000.Idx) :
    IntOp.cmpi .sge (a1 i) 0#32 = 1#1 ∧ IntOp.cmpi .slt (a1 i) 50000#32 = 1#1 := by
  have h0 := congrFun h ValueIdx.ix0
  dsimp only [fn, fn_part1, fn_part2] at h0
  obtain ⟨h1, h40⟩ := IntOp.andi_eq_one.1 h0
  obtain ⟨-, h36⟩ := IntOp.andi_eq_one.1 h1
  exact ⟨Host.reduce_andi_all _ _ _ _ _ h36 i, Host.reduce_andi_all _ _ _ _ _ h40 i⟩

end Cert.PreDecode
-- ==== Proof.lean ====
/-
  The certificate's five claims.

  Both programs compute, edge by edge, the identity matrix minus the row-wise softmax of a two-layer perceptron applied
  to the layer-normalised concatenation of the two endpoint feature rows and three one-hot type codes. The kernel gathers
  the endpoint rows with a fill for out-of-range indices, the reference with clamping; inside the index range
  [0, 50000) — the added precondition — the two gathers agree, and everything after them is the same arithmetic in the
  same order, so over the extended reals the two results are one function G of the arguments (Proof/Spec.lean), entry by
  entry. The kernel's side: each grid point writes 3200 rows of G (Proof/KIValue.lean over the frame run of
  Proof/KIFrame.lean); the reference's side: its last stage is G (Proof/RefG.lean over its run). The three frame claims are
  the two kernels' frame runs and the reference's run with the result dropped; the idealization rewrote nothing.
-/
import proofs.«417059_j31842887533258_3_alg».proof.Defs
import proofs.«417059_j31842887533258_3_alg».proof.Proof.Gen.Kernel
import proofs.«417059_j31842887533258_3_alg».proof.Proof.Gen.KernelIdeal
import proofs.«417059_j31842887533258_3_alg».proof.Proof.Gen.ReferenceIdeal
import proofs.«417059_j31842887533258_3_alg».proof.Proof.Gen.Pre_finite_inputs
import proofs.«417059_j31842887533258_3_alg».proof.Proof.KFrame
import proofs.«417059_j31842887533258_3_alg».proof.Proof.KIFrame
import proofs.«417059_j31842887533258_3_alg».proof.Proof.KIValue
import proofs.«417059_j31842887533258_3_alg».proof.Proof.RefRun
import proofs.«417059_j31842887533258_3_alg».proof.Proof.RefRead
import proofs.«417059_j31842887533258_3_alg».proof.Proof.RefG
import proofs.«417059_j31842887533258_3_alg».proof.Proof.PreDecode
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- The precondition puts every endpoint index in [0, 50000), on every device. -/
theorem inRange (m : (ℓ : Loc Cert.KernelIdeal.nD Cert.KernelIdeal.τ Cert.KernelIdeal.sig) → Buf (Elt Ideal) ℓ)
    (h : Cert.Pre_KernelIdeal m) : Cert.KernelIdeal.Val.InRange m :=
  ⟨fun c i => (Cert.PreDecode.idx_range _ _ _ _ _ _ _ _ _ _ (h c) i).1, fun c i => (Cert.PreDecode.idx_range _ _ _ _ _ _ _ _ _ _ (h c) i).2⟩

/-- From memories that agree on the arguments both programs end with G of the arguments. -/
theorem algebraic : Cert.algebraic_KernelIdeal_ReferenceIdeal := by
  intro m ρ m' ρ' hpre hagree
  refine ⟨fun c => Cert.KernelIdeal.Val.Gm m c, Cert.KernelIdeal.Val.run m ρ (inRange m hpre), ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v88_eq, Cert.ReferenceIdeal.RefG.ref_eq]
  obtain ⟨h0, h1, h2, h3, h4, h5, h6, h7, h8, h9⟩ := hagree c
  rw [h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
